-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000 : Shape := ⟨1, ![100000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel

variable [Facts]

def fn {F : FTy → Type} [FloatOps F] (main_arg0 : FVec F S100000x256 .f32) (main_arg1 : FVec F S100000x256 .f32) (main_arg2 : IVec S100000 32) (main_arg3 : IVec S100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  main_v8
-- ==== Kernel.lean ====
abbrev S100000x256 : Shape := ⟨2, ![100000, 256]⟩
abbrev S100000 : Shape := ⟨1, ![100000]⟩
abbrev S2x50000x256 : Shape := ⟨3, ![2, 50000, 256]⟩
abbrev S2x50000x1 : Shape := ⟨3, ![2, 50000, 1]⟩
abbrev S2x64x256 : Shape := ⟨3, ![2, 64, 256]⟩
abbrev S2x1x64 : Shape := ⟨3, ![2, 1, 64]⟩
abbrev S1x5000x256 : Shape := ⟨3, ![1, 5000, 256]⟩
abbrev S1x5000x1 : Shape := ⟨3, ![1, 5000, 1]⟩
abbrev S1x64x256 : Shape := ⟨3, ![1, 64, 256]⟩
abbrev S1x1x64 : Shape := ⟨3, ![1, 1, 64]⟩
abbrev S64x256 : Shape := ⟨2, ![64, 256]⟩
abbrev S1x64 : Shape := ⟨2, ![1, 64]⟩
abbrev S5000x1 : Shape := ⟨2, ![5000, 1]⟩
abbrev S5000x64 : Shape := ⟨2, ![5000, 64]⟩
abbrev S64 : Shape := ⟨1, ![64]⟩
abbrev S5000x256 : Shape := ⟨2, ![5000, 256]⟩
abbrev S_ : Shape := ⟨0, ![]⟩
abbrev S64x1 : Shape := ⟨2, ![64, 1]⟩
abbrev S1x1 : Shape := ⟨2, ![1, 1]⟩
abbrev S16x256 : Shape := ⟨2, ![16, 256]⟩
abbrev S16x1x256 : Shape := ⟨3, ![16, 1, 256]⟩
abbrev S16x64x256 : Shape := ⟨3, ![16, 64, 256]⟩
abbrev S16x64 : Shape := ⟨2, ![16, 64]⟩
abbrev S16x64x1 : Shape := ⟨3, ![16, 64, 1]⟩
abbrev S16 : Shape := ⟨1, ![16]⟩
abbrev S16x1 : Shape := ⟨2, ![16, 1]⟩
abbrev S1 : Shape := ⟨1, ![1]⟩

abbrev nBuf : Space → Nat
  | .hbm => 48
  | .vmem => 19
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S100000, .i32⟩
  | .hbm, ⟨3, _⟩ => ⟨S100000, .i32⟩
  | .hbm, ⟨4, _⟩ => ⟨S2x50000x256, .f32⟩
  | .hbm, ⟨5, _⟩ => ⟨S2x50000x256, .f32⟩
  | .hbm, ⟨6, _⟩ => ⟨S2x50000x1, .i32⟩
  | .hbm, ⟨7, _⟩ => ⟨S2x50000x1, .i32⟩
  | .hbm, ⟨8, _⟩ => ⟨S2x64x256, .f32⟩
  | .hbm, ⟨9, _⟩ => ⟨S2x1x64, .f32⟩
  | .hbm, ⟨10, _⟩ => ⟨S2x64x256, .f32⟩
  | .hbm, ⟨11, _⟩ => ⟨S2x1x64, .f32⟩
  | .hbm, ⟨12, _⟩ => ⟨S_, .f32⟩
  | .hbm, ⟨13, _⟩ => ⟨S64x256, .f32⟩
  | .hbm, ⟨14, _⟩ => ⟨S_, .f32⟩
  | .hbm, ⟨15, _⟩ => ⟨S1x64, .f32⟩
  | .hbm, ⟨16, _⟩ => ⟨S_, .f32⟩
  | .hbm, ⟨17, _⟩ => ⟨S64x256, .f32⟩
  | .hbm, ⟨18, _⟩ => ⟨S_, .f32⟩
  | .hbm, ⟨19, _⟩ => ⟨S1x64, .f32⟩
  | .hbm, ⟨20, _⟩ => ⟨S64x1, .f32⟩
  | .hbm, ⟨21, _⟩ => ⟨S64x256, .f32⟩
  | .hbm, ⟨22, _⟩ => ⟨S64x256, .f32⟩
  | .hbm, ⟨23, _⟩ => ⟨S64x1, .f32⟩
  | .hbm, ⟨24, _⟩ => ⟨S64x256, .f32⟩
  | .hbm, ⟨25, _⟩ => ⟨S64x256, .f32⟩
  | .hbm, ⟨26, _⟩ => ⟨S64x256, .f32⟩
  | .hbm, ⟨27, _⟩ => ⟨S_, .f32⟩
  | .hbm, ⟨28, _⟩ => ⟨S64, .f32⟩
  | .hbm, ⟨29, _⟩ => ⟨S64x1, .f32⟩
  | .hbm, ⟨30, _⟩ => ⟨S64x1, .f32⟩
  | .hbm, ⟨31, _⟩ => ⟨S_, .f32⟩
  | .hbm, ⟨32, _⟩ => ⟨S64x1, .f32⟩
  | .hbm, ⟨33, _⟩ => ⟨S64x1, .f32⟩
  | .hbm, ⟨34, _⟩ => ⟨S64x256, .f32⟩
  | .hbm, ⟨35, _⟩ => ⟨S64x256, .f32⟩
  | .hbm, ⟨36, _⟩ => ⟨S64x256, .f32⟩
  | .hbm, ⟨37, _⟩ => ⟨S_, .f32⟩
  | .hbm, ⟨38, _⟩ => ⟨S64, .f32⟩
  | .hbm, ⟨39, _⟩ => ⟨S64x1, .f32⟩
  | .hbm, ⟨40, _⟩ => ⟨S64x1, .f32⟩
  | .hbm, ⟨41, _⟩ => ⟨S_, .f32⟩
  | .hbm, ⟨42, _⟩ => ⟨S64x1, .f32⟩
  | .hbm, ⟨43, _⟩ => ⟨S64x1, .f32⟩
  | .hbm, ⟨44, _⟩ => ⟨S64x256, .f32⟩
  | .hbm, ⟨45, _⟩ => ⟨S64x256, .f32⟩
  | .hbm, ⟨46, _⟩ => ⟨S1x1, .f32⟩
  | .hbm, ⟨47, _⟩ => ⟨S_, .f32⟩
  | .local _ .vmem, ⟨0, _⟩ => ⟨S1x5000x256, .f32⟩
  | .local _ .vmem, ⟨1, _⟩ => ⟨S1x5000x256, .f32⟩
  | .local _ .vmem, ⟨2, _⟩ => ⟨S1x5000x1, .i32⟩
  | .local _ .vmem, ⟨3, _⟩ => ⟨S1x5000x1, .i32⟩
  | .local _ .vmem, ⟨4, _⟩ => ⟨S1x5000x256, .f32⟩
  | .local _ .vmem, ⟨5, _⟩ => ⟨S1x5000x256, .f32⟩
  | .local _ .vmem, ⟨6, _⟩ => ⟨S1x5000x1, .i32⟩
  | .local _ .vmem, ⟨7, _⟩ => ⟨S1x5000x1, .i32⟩
  | .local _ .vmem, ⟨8, _⟩ => ⟨S1x64x256, .f32⟩
  | .local _ .vmem, ⟨9, _⟩ => ⟨S1x64x256, .f32⟩
  | .local _ .vmem, ⟨10, _⟩ => ⟨S1x1x64, .f32⟩
  | .local _ .vmem, ⟨11, _⟩ => ⟨S1x1x64, .f32⟩
  | .local _ .vmem, ⟨12, _⟩ => ⟨S1x64x256, .f32⟩
  | .local _ .vmem, ⟨13, _⟩ => ⟨S1x64x256, .f32⟩
  | .local _ .vmem, ⟨14, _⟩ => ⟨S1x1x64, .f32⟩
  | .local _ .vmem, ⟨15, _⟩ => ⟨S1x1x64, .f32⟩
  | .local _ .vmem, ⟨16, _⟩ => ⟨S64x256, .f32⟩
  | .local _ .vmem, ⟨17, _⟩ => ⟨S64x256, .f32⟩
  | .local _ .vmem, ⟨18, _⟩ => ⟨S1x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem1_0 : DmaSem sig := 17
abbrev cc1_sem2_0 : DmaSem sig := 18

abbrev nD : Nat := 1
abbrev τ : Topo := Topo.v7x

variable {F : FTy → Type} [FloatOps F]

abbrev grid0 : Pipeline.Grid := ⟨2, ![2, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x5000x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![4], ![false]⟩

def k1_mult1 (i : grid1.Coords) : BitVec 32 :=
  let arg0 : BitVec 32 := BitVec.ofNat 32 (i 0).val
  let c16_i32 : BitVec 32 := 16#32
  let v7 : BitVec 32 := Scalar.muli arg0 c16_i32
  v7
def k1_off1 (i : grid1.Coords) : Fin 2 → Nat :=
  let arg0 : BitVec 32 := BitVec.ofNat 32 (i 0).val
  let c16_i32 : BitVec 32 := 16#32
  let v7 : BitVec 32 := Scalar.muli arg0 c16_i32
  let v8 : BitVec 32 := v7
  let v9 : Index := Scalar.indexCast v8
  let c0_4 : Index := 0#32
  ![v9.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S100000x256_S2x50000x256 : S100000x256.ShapeCasts S2x50000x256
  shapeCasts_S100000_S2x50000x1 : S100000.ShapeCasts S2x50000x1
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  iota_S1x64_d1_w32 : S1x64.Iotas .tc 32 [1]
  inb_S1x5000x1_S1x5000x1_0_0_0 : ∀ a, (![0, 0, 0] : Fin 3 → Nat) a + S1x5000x1.size a ≤ S1x5000x1.size a
  h_S1x5000x1 : 0 < S1x5000x1.numel
  shapeCasts_S1x5000x1_S5000x1 : S1x5000x1.ShapeCasts S5000x1
  broadcasts_S5000x1_S5000x64 : S5000x1.Broadcasts S5000x64
  broadcasts_S1x64_S5000x64 : S1x64.Broadcasts S5000x64
  natLt_1_32 : 1 < 32
  bitsLt_bf16_f32 : FTy.bits .bf16 < FTy.bits .f32
  reduces_S5000x64_S64 : S5000x64.Reduces [0] S64
  shapeCasts_S64_S1x64 : S64.ShapeCasts S1x64
  inb_S1x5000x256_S1x5000x256_0_0_0 : ∀ a, (![0, 0, 0] : Fin 3 → Nat) a + S1x5000x256.size a ≤ S1x5000x256.size a
  h_S1x5000x256 : 0 < S1x5000x256.numel
  shapeCasts_S1x5000x256_S5000x256 : S1x5000x256.ShapeCasts S5000x256
  reducesTo_S2x64x256_S64x256_d0 : S2x64x256.ReducesTo [0] S64x256
  h_S_ : 0 < S_.numel
  reducesTo_S2x1x64_S1x64_d0 : S2x1x64.ReducesTo [0] S1x64
  transposes_S1x64_S64x1_1_0 : S1x64.Transposes [1, 0] S64x1
  bcast_S64x1_S64x256_0_1 : S64x1.BroadcastsInDim S64x256 (![0, 1] : Fin 2 → Fin S64x256.rank)
  reducesTo_S64x256_S64_d1 : S64x256.ReducesTo [1] S64
  bcast_S64_S64x1_0 : S64.BroadcastsInDim S64x1 (![0] : Fin 1 → Fin S64x1.rank)
  bcast_S_S64x1 : S_.BroadcastsInDim S64x1 (![] : Fin 0 → Fin S64x1.rank)
  inb_S1x1_S1x1_0_0 : ∀ a, (![0, 0] : Fin 2 → Nat) a + S1x1.size a ≤ S1x1.size a
  h_S1x1 : 0 < S1x1.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  h_S16x256 : 0 < S16x256.numel
  shapeCasts_S16x256_S16x256 : S16x256.ShapeCasts S16x256
  shapeCasts_S16x256_S16x1x256 : S16x256.ShapeCasts S16x1x256
  broadcasts_S16x1x256_S16x64x256 : S16x1x256.Broadcasts S16x64x256
  broadcasts_S1x64x256_S16x64x256 : S1x64x256.Broadcasts S16x64x256
  iota_S16x64_d0_w32 : S16x64.Iotas .tc 32 [0]
  iota_S16x64_d1_w32 : S16x64.Iotas .tc 32 [1]
  shapeCasts_S16x64_S16x64x1 : S16x64.ShapeCasts S16x64x1
  broadcasts_S16x64x1_S16x64x256 : S16x64x1.Broadcasts S16x64x256
  reduces_S16x64x256_S16x256 : S16x64x256.Reduces [1] S16x256
  reduces_S16x256_S16 : S16x256.Reduces [1] S16
  shapeCasts_S16_S16x1 : S16.ShapeCasts S16x1
  reduces_S16x1_S1 : S16x1.Reduces [0] S1
  shapeCasts_S1_S1x1 : S1.ShapeCasts S1x1
  shapeCasts_S1x1_S1x1 : S1x1.ShapeCasts S1x1
  shapeCasts_S1x1_S_ : S1x1.ShapeCasts S_
  dot_S5000x64_S5000x256_S64x256_0_0_1_1_n_n_wf : DotDims.WF S5000x64 S5000x256 S64x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5000x256.size a ≤ S2x50000x256.size a
  hwx0_0 : ∀ i : grid0.Coords, EltTy.bits .f32 = 32 ∨ (Rect.block (s := S2x50000x256) S1x5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5000x1.size a ≤ S2x50000x1.size a
  hwx0_1 : ∀ i : grid0.Coords, EltTy.bits .i32 = 32 ∨ (Rect.block (s := S2x50000x1) S1x5000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5000x256.size a ≤ S2x50000x256.size a
  hwx0_2 : ∀ i : grid0.Coords, EltTy.bits .f32 = 32 ∨ (Rect.block (s := S2x50000x256) S1x5000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x5000x1.size a ≤ S2x50000x1.size a
  hwx0_3 : ∀ i : grid0.Coords, EltTy.bits .i32 = 32 ∨ (Rect.block (s := S2x50000x1) S1x5000x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x256.size a ≤ S2x64x256.size a
  hwx0_4 : ∀ i : grid0.Coords, EltTy.bits .f32 = 32 ∨ (Rect.block (s := S2x64x256) S1x64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S2x1x64.size a
  hwx0_5 : ∀ i : grid0.Coords, EltTy.bits .f32 = 32 ∨ (Rect.block (s := S2x1x64) S1x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x256.size a ≤ S2x64x256.size a
  hwx0_6 : ∀ i : grid0.Coords, EltTy.bits .f32 = 32 ∨ (Rect.block (s := S2x64x256) S1x64x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x64.size a ≤ S2x1x64.size a
  hwx0_7 : ∀ i : grid0.Coords, EltTy.bits .f32 = 32 ∨ (Rect.block (s := S2x1x64) S1x1x64.size (cc0_transform_7 i) (hinb0_7 i)).WholeWords (EltTy.packing .f32)
  hrank1 : 0 < grid1.rank
  k1_mult1_dvd : ∀ i : grid1.Coords, 16 ∣ (k1_mult1 i).toNat
  k1_off1_inb : ∀ i : grid1.Coords, ∀ a, (k1_off1 i) a + S16x256.size a ≤ S64x256.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x256.size a ≤ S64x256.size a
  hwx1_0 : ∀ i : grid1.Coords, EltTy.bits .f32 = 32 ∨ (Rect.block (s := S64x256) S64x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S5000x64_S5000x256_S64x256_0_0_1_1_n_n : DotDims S5000x64 S5000x256 S64x256 where
  lhsContracting := [0]
  rhsContracting := [0]
  lhsNonContracting := [1]
  rhsNonContracting := [1]
  lhsBatch := []
  rhsBatch := []
  wf := dot_S5000x64_S5000x256_S64x256_0_0_1_1_n_n_wf

abbrev win0_0 : Pipeline.Window sig grid0 :=
  Pipeline.Window.ofSpec (Memref.whole main_v0) S1x5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x5000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x64x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x1x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S1x64x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_3) S1x1x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v22) S64x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v30) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S100000 : Shape := ⟨1, ![100000]⟩
abbrev S_ : Shape := ⟨0, ![]⟩
abbrev S64x256 : Shape := ⟨2, ![64, 256]⟩
abbrev S100000x1 : Shape := ⟨2, ![100000, 1]⟩
abbrev S64 : Shape := ⟨1, ![64]⟩
abbrev S64x1 : Shape := ⟨2, ![64, 1]⟩
abbrev S64x1x256 : Shape := ⟨3, ![64, 1, 256]⟩
abbrev S1x64x256 : Shape := ⟨3, ![1, 64, 256]⟩
abbrev S64x64x256 : Shape := ⟨3, ![64, 64, 256]⟩
abbrev S64x64 : Shape := ⟨2, ![64, 64]⟩
abbrev S64x64x1 : Shape := ⟨3, ![64, 64, 1]⟩

abbrev nBuf : Space → Nat
  | .hbm => 106
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S100000x256, .f32⟩
  | .hbm, ⟨2, _⟩ => ⟨S100000, .i32⟩
  | .hbm, ⟨3, _⟩ => ⟨S100000, .i32⟩
  | .hbm, ⟨4, _⟩ => ⟨S_, .f32⟩
  | .hbm, ⟨5, _⟩ => ⟨S64x256, .f32⟩
  | .hbm, ⟨6, _⟩ => ⟨S100000x1, .i32⟩
  | .hbm, ⟨7, _⟩ => ⟨S64x256, .f32⟩
  | .hbm, ⟨8, _⟩ => ⟨S_, .f32⟩
  | .hbm, ⟨9, _⟩ => ⟨S100000, .f32⟩
  | .hbm, ⟨10, _⟩ => ⟨S_, .f32⟩
  | .hbm, ⟨11, _⟩ => ⟨S64, .f32⟩
  | .hbm, ⟨12, _⟩ => ⟨S100000x1, .i32⟩
  | .hbm, ⟨13, _⟩ => ⟨S64, .f32⟩
  | .hbm, ⟨14, _⟩ => ⟨S64x1, .f32⟩
  | .hbm, ⟨15, _⟩ => ⟨S64x256, .f32⟩
  | .hbm, ⟨16, _⟩ => ⟨S64x256, .f32⟩
  | .hbm, ⟨17, _⟩ => ⟨S64x256, .f32⟩
  | .hbm, ⟨18, _⟩ => ⟨S_, .f32⟩
  | .hbm, ⟨19, _⟩ => ⟨S64, .f32⟩
  | .hbm, ⟨20, _⟩ => ⟨S64x1, .f32⟩
  | .hbm, ⟨21, _⟩ => ⟨S64x1, .f32⟩
  | .hbm, ⟨22, _⟩ => ⟨S_, .f32⟩
  | .hbm, ⟨23, _⟩ => ⟨S64x1, .f32⟩
  | .hbm, ⟨24, _⟩ => ⟨S64x1, .f32⟩
  | .hbm, ⟨25, _⟩ => ⟨S64x256, .f32⟩
  | .hbm, ⟨26, _⟩ => ⟨S64x256, .f32⟩
  | .hbm, ⟨27, _⟩ => ⟨S_, .f32⟩
  | .hbm, ⟨28, _⟩ => ⟨S64x256, .f32⟩
  | .hbm, ⟨29, _⟩ => ⟨S100000x1, .i32⟩
  | .hbm, ⟨30, _⟩ => ⟨S64x256, .f32⟩
  | .hbm, ⟨31, _⟩ => ⟨S_, .f32⟩
  | .hbm, ⟨32, _⟩ => ⟨S100000, .f32⟩
  | .hbm, ⟨33, _⟩ => ⟨S_, .f32⟩
  | .hbm, ⟨34, _⟩ => ⟨S64, .f32⟩
  | .hbm, ⟨35, _⟩ => ⟨S100000x1, .i32⟩
  | .hbm, ⟨36, _⟩ => ⟨S64, .f32⟩
  | .hbm, ⟨37, _⟩ => ⟨S64x1, .f32⟩
  | .hbm, ⟨38, _⟩ => ⟨S64x256, .f32⟩
  | .hbm, ⟨39, _⟩ => ⟨S64x256, .f32⟩
  | .hbm, ⟨40, _⟩ => ⟨S64x256, .f32⟩
  | .hbm, ⟨41, _⟩ => ⟨S_, .f32⟩
  | .hbm, ⟨42, _⟩ => ⟨S64, .f32⟩
  | .hbm, ⟨43, _⟩ => ⟨S64x1, .f32⟩
  | .hbm, ⟨44, _⟩ => ⟨S64x1, .f32⟩
  | .hbm, ⟨45, _⟩ => ⟨S_, .f32⟩
  | .hbm, ⟨46, _⟩ => ⟨S64x1, .f32⟩
  | .hbm, ⟨47, _⟩ => ⟨S64x1, .f32⟩
  | .hbm, ⟨48, _⟩ => ⟨S64x256, .f32⟩
  | .hbm, ⟨49, _⟩ => ⟨S64x256, .f32⟩
  | .hbm, ⟨50, _⟩ => ⟨S64x256, .f32⟩
  | .hbm, ⟨51, _⟩ => ⟨S_, .f32⟩
  | .hbm, ⟨52, _⟩ => ⟨S64x256, .f32⟩
  | .hbm, ⟨53, _⟩ => ⟨S64x256, .f32⟩
  | .hbm, ⟨54, _⟩ => ⟨S64x256, .f32⟩
  | .hbm, ⟨55, _⟩ => ⟨S64x1x256, .f32⟩
  | .hbm, ⟨56, _⟩ => ⟨S1x64x256, .f32⟩
  | .hbm, ⟨57, _⟩ => ⟨S64x64x256, .f32⟩
  | .hbm, ⟨58, _⟩ => ⟨S64x64x256, .f32⟩
  | .hbm, ⟨59, _⟩ => ⟨S64x64x256, .f32⟩
  | .hbm, ⟨60, _⟩ => ⟨S_, .f32⟩
  | .hbm, ⟨61, _⟩ => ⟨S64x64x256, .f32⟩
  | .hbm, ⟨62, _⟩ => ⟨S64x64x256, .f32⟩
  | .hbm, ⟨63, _⟩ => ⟨S64x64x256, .f32⟩
  | .hbm, ⟨64, _⟩ => ⟨S64x1x256, .f32⟩
  | .hbm, ⟨65, _⟩ => ⟨S1x64x256, .f32⟩
  | .hbm, ⟨66, _⟩ => ⟨S64x64x256, .f32⟩
  | .hbm, ⟨67, _⟩ => ⟨S64x64x256, .f32⟩
  | .hbm, ⟨68, _⟩ => ⟨S64x64x256, .f32⟩
  | .hbm, ⟨69, _⟩ => ⟨S_, .f32⟩
  | .hbm, ⟨70, _⟩ => ⟨S64x64x256, .f32⟩
  | .hbm, ⟨71, _⟩ => ⟨S64x64x256, .f32⟩
  | .hbm, ⟨72, _⟩ => ⟨S64x64x256, .f32⟩
  | .hbm, ⟨73, _⟩ => ⟨S64x64, .i32⟩
  | .hbm, ⟨74, _⟩ => ⟨S64x64, .i32⟩
  | .hbm, ⟨75, _⟩ => ⟨S_, .i32⟩
  | .hbm, ⟨76, _⟩ => ⟨S64x64, .i32⟩
  | .hbm, ⟨77, _⟩ => ⟨S64x64, .i32⟩
  | .hbm, ⟨78, _⟩ => ⟨S64x64, .i1⟩
  | .hbm, ⟨79, _⟩ => ⟨S64x64, .f32⟩
  | .hbm, ⟨80, _⟩ => ⟨S_, .f32⟩
  | .hbm, ⟨81, _⟩ => ⟨S64x64, .f32⟩
  | .hbm, ⟨82, _⟩ => ⟨S64x64, .f32⟩
  | .hbm, ⟨83, _⟩ => ⟨S64x64x1, .f32⟩
  | .hbm, ⟨84, _⟩ => ⟨S64x64x256, .f32⟩
  | .hbm, ⟨85, _⟩ => ⟨S64x64x256, .f32⟩
  | .hbm, ⟨86, _⟩ => ⟨S64x64x256, .f32⟩
  | .hbm, ⟨87, _⟩ => ⟨S_, .f32⟩
  | .hbm, ⟨88, _⟩ => ⟨S64x256, .f32⟩
  | .hbm, ⟨89, _⟩ => ⟨S_, .f32⟩
  | .hbm, ⟨90, _⟩ => ⟨S64x256, .f32⟩
  | .hbm, ⟨91, _⟩ => ⟨S64x256, .f32⟩
  | .hbm, ⟨92, _⟩ => ⟨S64x256, .f32⟩
  | .hbm, ⟨93, _⟩ => ⟨S_, .f32⟩
  | .hbm, ⟨94, _⟩ => ⟨S64x256, .f32⟩
  | .hbm, ⟨95, _⟩ => ⟨S64x256, .f32⟩
  | .hbm, ⟨96, _⟩ => ⟨S64x256, .f32⟩
  | .hbm, ⟨97, _⟩ => ⟨S64x256, .f32⟩
  | .hbm, ⟨98, _⟩ => ⟨S64x256, .f32⟩
  | .hbm, ⟨99, _⟩ => ⟨S_, .f32⟩
  | .hbm, ⟨100, _⟩ => ⟨S64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S_, .f32⟩
  | .hbm, ⟨105, _⟩ => ⟨S_, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_11 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_12 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_13 : Ref sig .tc := ⟨.hbm, 87, rfl⟩
abbrev main_v68 : Ref sig .tc := ⟨.hbm, 88, rfl⟩
abbrev main_cst_14 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_15 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_16 : Ref sig .tc := ⟨.hbm, 99, rfl⟩
abbrev main_v77 : Ref sig .tc := ⟨.hbm, 100, rfl⟩
abbrev main_cst_17 : Ref sig .tc := ⟨.hbm, 101, rfl⟩
abbrev main_v78 : Ref sig .tc := ⟨.hbm, 102, rfl⟩
abbrev main_v79 : Ref sig .tc := ⟨.hbm, 103, rfl⟩
abbrev main_cst_18 : Ref sig .tc := ⟨.hbm, 104, rfl⟩
abbrev main_v80 : Ref sig .tc := ⟨.hbm, 105, rfl⟩

abbrev nD : Nat := 1
abbrev τ : Topo := Topo.v7x

variable {F : FTy → Type} [FloatOps F]

class Facts₀ : Prop where
  bcast_S_S64x256 : S_.BroadcastsInDim S64x256 (![] : Fin 0 → Fin S64x256.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  reducesTo_S64x256_S64_d1 : S64x256.ReducesTo [1] S64
  h_S_ : 0 < S_.numel
  bcast_S_S64x1 : S_.BroadcastsInDim S64x1 (![] : Fin 0 → Fin S64x1.rank)
  bcast_S64x256_S64x1x256_0_2 : S64x256.BroadcastsInDim S64x1x256 (![0, 2] : Fin 2 → Fin S64x1x256.rank)
  bcast_S64x256_S1x64x256_1_2 : S64x256.BroadcastsInDim S1x64x256 (![1, 2] : Fin 2 → Fin S1x64x256.rank)
  bcast_S64x1x256_S64x64x256_0_1_2 : S64x1x256.BroadcastsInDim S64x64x256 (![0, 1, 2] : Fin 3 → Fin S64x64x256.rank)
  bcast_S1x64x256_S64x64x256_0_1_2 : S1x64x256.BroadcastsInDim S64x64x256 (![0, 1, 2] : Fin 3 → Fin S64x64x256.rank)
  bcast_S_S64x64x256 : S_.BroadcastsInDim S64x64x256 (![] : Fin 0 → Fin S64x64x256.rank)
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S64x64x1_S64x64x256_0_1_2 : S64x64x1.BroadcastsInDim S64x64x256 (![0, 1, 2] : Fin 3 → Fin S64x64x256.rank)
  reducesTo_S64x64x256_S64x256_d1 : S64x64x256.ReducesTo [1] S64x256
  reducesTo_S64_S_d0 : S64.ReducesTo [0] S_
  scatter_S64x256_S100000x1_S100000x256_1_0_0_1_wf : ScatterDims.WF S64x256 S100000x1 S100000x256 [1] [0] [0] 1
  scatter_S64_S100000x1_S100000_n_0_0_1_wf : ScatterDims.WF S64 S100000x1 S100000 [] [0] [0] 1

variable [Facts₀]

def scatter_S64x256_S100000x1_S100000x256_1_0_0_1 : ScatterDims S64x256 S100000x1 S100000x256 where
  updateWindowDims := [1]
  insertedWindowDims := [0]
  scatterDimsToOperandDims := [0]
  indexVectorDim := 1
  wf := scatter_S64x256_S100000x1_S100000x256_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.Spec.lean ====
/-
  The mathematics both programs compute, over the extended reals, index by index.

  Inputs: two feature matrices (100000 rows of 256 numbers) and, for each, a label per row. A row counts for class `k`
  (one of 64) when its label, a 32-bit word, is the word of `k`; a label that is the word of no class counts nowhere.
    * `segSum` / `segCnt`: per class, the sum of its rows and the number of its rows; `proto` their quotient (the
      class mean), `l2n` a row divided by the larger of its Euclidean norm and a tiny constant.
    * `loss`: with `A`, `R` two 64 × 256 matrices, `pos k d = exp (A k d · R k d / ½)`,
      `pair X Y k j d = exp (X k d · Y j d / ½)`, `neg k d = Σ_{j} (pair A A k j d + pair A R k j d) · [j ≠ k] + 126 · pos k d`,
      `term k d = -log (pos k d / (neg k d + ε))`, and the loss is `Σ_k (Σ_d term k d) / 256`.
  The second half states the same loss as a tiled computation states it: four tiles of sixteen classes, each tile adding
  `Σ_{k in tile} (Σ_d term' k d) · (1/256)` to a running total that starts at zero, where `term'` multiplies by 2 instead
  of dividing by ½ and subtracts the logarithm from zero instead of negating it (`kloss`).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-! ## Shapes, as literals -/

abbrev T100000x256 : Shape := ⟨2, ![100000, 256]⟩
abbrev T100000 : Shape := ⟨1, ![100000]⟩
abbrev T2x50000x256 : Shape := ⟨3, ![2, 50000, 256]⟩
abbrev T2x50000x1 : Shape := ⟨3, ![2, 50000, 1]⟩
abbrev T2x64x256 : Shape := ⟨3, ![2, 64, 256]⟩
abbrev T2x1x64 : Shape := ⟨3, ![2, 1, 64]⟩
abbrev T64x256 : Shape := ⟨2, ![64, 256]⟩
abbrev T1x1 : Shape := ⟨2, ![1, 1]⟩

/-- A 64 × 256 matrix of extended reals. -/
abbrev Mat : Type := T64x256.Idx → EReal

/-! ## Class sums, counts, means, normalised rows -/

/-- `1` when the label word is class `k`'s word, else `0`. -/
def oneHot (l : BitVec 32) (k : Fin 64) : EReal := if l = BitVec.ofNat 32 k.val then 1 else 0

/-- Per class and column, the sum of the rows labelled with the class. -/
def segSum (feat : T100000x256.Idx → EReal) (lbl : T100000.Idx → BitVec 32) : Mat :=
  fun j => ∑ r : Fin 100000, oneHot (lbl (ix1 r)) (j 0) * feat (ix2 r (j 1))

/-- Per class, the number of rows labelled with it. -/
def segCnt (lbl : T100000.Idx → BitVec 32) (k : Fin 64) : EReal := ∑ r : Fin 100000, oneHot (lbl (ix1 r)) k

/-- The class means. -/
def proto (feat : T100000x256.Idx → EReal) (lbl : T100000.Idx → BitVec 32) : Mat :=
  fun j => Ideal.div (segSum feat lbl j) (segCnt lbl (j 0))

/-- The tiny constant under which a norm is not divided by. -/
def tiny : EReal := Ideal.ofBits .f32 0x2B8CBCCC#32

/-- Each row divided by the larger of its Euclidean norm and `tiny`. -/
def l2n (P : Mat) : Mat :=
  fun j => Ideal.div (P j) (max (Ideal.sqrt (∑ d : Fin 256, P (ix2 (j 0) d) * P (ix2 (j 0) d))) tiny)

/-! ## Row 5000·i + n of a half, and class 16·t + k -/

/-- Row `n` of tile `i` (ten tiles of 5000 rows in a half of 50000). -/
def row (i : Fin 10) (n : Fin 5000) : Fin 50000 := ⟨5000 * i.val + n.val, by have := i.isLt; have := n.isLt; omega⟩

/-- Class `k` of tile `t` (four tiles of sixteen classes). -/
def cls (t : Fin 4) (k : Fin 16) : Fin 64 := ⟨16 * t.val + k.val, by have := t.isLt; have := k.isLt; omega⟩

/-! ## The loss -/

def half : EReal := Ideal.ofBits .f32 0x3F000000#32
def two : EReal := Ideal.ofBits .f32 0x40000000#32
def eps : EReal := Ideal.ofBits .f32 0x322BCC77#32
def c126 : EReal := Ideal.ofBits .f32 0x42FC0000#32
def c256 : EReal := Ideal.ofBits .f32 0x43800000#32
def inv256 : EReal := Ideal.ofBits .f32 0x3B800000#32

def pos (A R : Mat) (k : Fin 64) (d : Fin 256) : EReal := Ideal.exp (Ideal.div (A (ix2 k d) * R (ix2 k d)) half)
def pair (X Y : Mat) (k j : Fin 64) (d : Fin 256) : EReal := Ideal.exp (Ideal.div (X (ix2 k d) * Y (ix2 j d)) half)
/-- `0` on the diagonal, `1` off it. -/
def offDiag (k j : Fin 64) : EReal := if k = j then 0 else 1
def neg (A R : Mat) (k : Fin 64) (d : Fin 256) : EReal :=
  (∑ j : Fin 64, (pair A A k j d + pair A R k j d) * offDiag k j) + c126 * pos A R k d
def term (A R : Mat) (k : Fin 64) (d : Fin 256) : EReal := -(Ideal.log (Ideal.div (pos A R k d) (neg A R k d + eps)))
def loss (A R : Mat) : EReal := ∑ k : Fin 64, Ideal.div (∑ d : Fin 256, term A R k d) c256

/-! ## The same loss, as the tiled computation states it -/

def kpos (A R : Mat) (k : Fin 64) (d : Fin 256) : EReal := Ideal.exp (A (ix2 k d) * R (ix2 k d) * two)
def kpair (X Y : Mat) (k j : Fin 64) (d : Fin 256) : EReal := Ideal.exp (X (ix2 k d) * Y (ix2 j d) * two)
def kneg (A R : Mat) (k : Fin 64) (d : Fin 256) : EReal :=
  (∑ j : Fin 64, (kpair A A k j d + kpair A R k j d) * offDiag k j) + c126 * kpos A R k d
def kterm (A R : Mat) (k : Fin 64) (d : Fin 256) : EReal := 0 - Ideal.log (Ideal.div (kpos A R k d) (kneg A R k d + eps))
/-- What tile `t` adds to the running total. -/
def kpart (A R : Mat) (t : Fin 4) : EReal := ∑ k : Fin 16, (∑ d : Fin 256, kterm A R (cls t k) d) * inv256
/-- The running total after the four tiles, from zero. -/
def kloss (A R : Mat) : EReal := (((0 + kpart A R 0) + kpart A R 1) + kpart A R 2) + kpart A R 3

end Cert.Spec

end
-- ==== Proof.HeadAlgebra.lean ====
/-
  From the halves to the whole. The 100000 rows are two halves of 50000, row `r` of half `o` being row 50000·o + r;
  a half is ten tiles of 5000 rows. If a per-half array holds, for each class, the sum over the half's tiles and rows of
  [label = class] · feature, then summing the two halves gives the sum over all 100000 rows: the class sums; likewise
  the class counts.

  The one fact behind both: every r < 100000 is 50000·o + 5000·i + n for exactly one (o, i, n) with o < 2, i < 10,
  n < 5000 (o = r / 50000, i = (r mod 50000) / 5000, n = r mod 5000), so a sum over the 100000 rows is the triple sum
  over halves, tiles and rows of a tile. The extended reals under addition are a commutative monoid, so a finite sum
  may be re-indexed along a bijection and a sum over a product is the iterated sum.
-/
import proofs.«415252_j44135083934242_3_alg».proof.Proof.Spec

noncomputable section

namespace Cert.Spec

open Idealize.ShloMosaic Idealize.ShloMosaic.ValueIdx

/-- Row `r` of half `o`, among the 100000. -/
def glue (o : Fin 2) (r : Fin 50000) : Fin 100000 := ⟨50000 * o.val + r.val, by have := o.isLt; have := r.isLt; omega⟩

/-- (half, tile, row of the tile) ↔ row among the 100000: (o, i, n) ↦ 50000·o + 5000·i + n, with inverse
    r ↦ (r / 50000, (r mod 50000) / 5000, r mod 5000). -/
def rowEquiv : Fin 2 × Fin 10 × Fin 5000 ≃ Fin 100000 where
  toFun p := glue p.1 (row p.2.1 p.2.2)
  invFun r := (⟨r.val / 50000, by have := r.isLt; omega⟩, ⟨r.val % 50000 / 5000, by have := r.isLt; omega⟩,
    ⟨r.val % 5000, by omega⟩)
  left_inv := by
    rintro ⟨⟨o, ho⟩, ⟨i, hi⟩, ⟨n, hn⟩⟩
    refine Prod.ext (Fin.ext ?_) (Prod.ext (Fin.ext ?_) (Fin.ext ?_))
    · show (50000 * o + (5000 * i + n)) / 50000 = o
      omega
    · show (50000 * o + (5000 * i + n)) % 50000 / 5000 = i
      omega
    · show (50000 * o + (5000 * i + n)) % 5000 = n
      omega
  right_inv := by
    rintro ⟨r, hr⟩
    refine Fin.ext ?_
    show 50000 * (r / 50000) + (5000 * (r % 50000 / 5000) + r % 5000) = r
    omega

/-- A sum over the 100000 rows is the sum over the two halves, the ten tiles of a half and the 5000 rows of a tile. -/
theorem sum_halves_tiles (f : Fin 100000 → EReal) :
    ∑ o : Fin 2, ∑ i : Fin 10, ∑ n : Fin 5000, f (glue o (row i n)) = ∑ r : Fin 100000, f r := by
  rw [← Equiv.sum_comp rowEquiv f, Fintype.sum_prod_type]
  refine Finset.sum_congr rfl (fun o _ => ?_)
  rw [Fintype.sum_prod_type]
  rfl

/-- Summing, over the two halves, the per-half class sums gives the class sums. -/
theorem segSum_of_halves (feat : T100000x256.Idx → EReal) (lbl : T100000.Idx → BitVec 32)
    (X : T2x50000x256.Idx → EReal) (L : T2x50000x1.Idx → BitVec 32)
    (hX : ∀ (o : Fin 2) (r : Fin 50000) (d : Fin 256), X (ix3 o r d) = feat (ix2 (glue o r) d))
    (hL : ∀ (o : Fin 2) (r : Fin 50000), L (ix3 o r 0) = lbl (ix1 (glue o r)))
    (S : T2x64x256.Idx → EReal)
    (hS : ∀ (o : Fin 2) (k : Fin 64) (d : Fin 256),
      S (ix3 o k d) = ∑ i : Fin 10, ∑ n : Fin 5000, oneHot (L (ix3 o (row i n) 0)) k * X (ix3 o (row i n) d))
    (j : T64x256.Idx) : ∑ o : Fin 2, S (ix3 o (j 0) (j 1)) = segSum feat lbl j := by
  -- the class sum, as a sum over halves, tiles and rows
  have key := sum_halves_tiles (fun r : Fin 100000 => oneHot (lbl (ix1 r)) (j 0) * feat (ix2 r (j 1)))
  refine (Finset.sum_congr rfl (fun o _ => ?_)).trans key
  -- half `o`: its entry is the sum over its tiles and rows, and its rows and labels are the whole's at 50000·o + r
  refine (hS o (j 0) (j 1)).trans ?_
  refine Finset.sum_congr rfl (fun i _ => Finset.sum_congr rfl (fun n _ => ?_))
  rw [hL o (row i n), hX o (row i n) (j 1)]

/-- Summing, over the two halves, the per-half class counts gives the class counts. -/
theorem segCnt_of_halves (lbl : T100000.Idx → BitVec 32) (L : T2x50000x1.Idx → BitVec 32)
    (hL : ∀ (o : Fin 2) (r : Fin 50000), L (ix3 o r 0) = lbl (ix1 (glue o r)))
    (C : T2x1x64.Idx → EReal)
    (hC : ∀ (o : Fin 2) (k : Fin 64), C (ix3 o 0 k) = ∑ i : Fin 10, ∑ n : Fin 5000, oneHot (L (ix3 o (row i n) 0)) k)
    (k : Fin 64) : ∑ o : Fin 2, C (ix3 o 0 k) = segCnt lbl k := by
  have key := sum_halves_tiles (fun r : Fin 100000 => oneHot (lbl (ix1 r)) k)
  refine (Finset.sum_congr rfl (fun o _ => ?_)).trans key
  refine (hC o k).trans ?_
  refine Finset.sum_congr rfl (fun i _ => Finset.sum_congr rfl (fun n _ => ?_))
  rw [hL o (row i n)]

end Cert.Spec

end
-- ==== Proof.TailAlgebra.lean ====
/-
  The tiled loss is the loss. Dividing by ½ is multiplying by 2 and multiplying by 1/256 is dividing by 256, for every
  extended real (the divisors are nonzero reals); zero minus x is minus x; and the running total over four tiles of
  sixteen classes, from zero, is the sum over the sixty-four classes (addition of extended reals is commutative and
  associative, infinities included).
-/
import proofs.«415252_j44135083934242_3_alg».proof.Proof.Spec
import Mathlib.Algebra.BigOperators.Fin
import Mathlib.Logic.Equiv.Fin.Basic

noncomputable section

namespace Cert.Spec

open Idealize.ShloMosaic Idealize.ShloMosaic.ValueIdx

/-! ## The four literals, as reals -/

/-- The pattern `0x3F000000` denotes the real `1/2`. -/
theorem half_eq : half = ((1 / 2 : ℝ) : EReal) := by
  simp [half, Ideal.ofBits, Ideal.ieee, -EReal.coe_mul]; norm_num

/-- The pattern `0x40000000` denotes the real `2`. -/
theorem two_eq : two = ((2 : ℝ) : EReal) := by
  simp [two, Ideal.ofBits, Ideal.ieee, -EReal.coe_mul]; norm_num

/-- The pattern `0x43800000` denotes the real `256`. -/
theorem c256_eq : c256 = ((256 : ℝ) : EReal) := by
  simp [c256, Ideal.ofBits, Ideal.ieee, -EReal.coe_mul]; norm_num

/-- The pattern `0x3B800000` denotes the real `1/256`. -/
theorem inv256_eq : inv256 = ((1 / 256 : ℝ) : EReal) := by
  simp [inv256, Ideal.ofBits, Ideal.ieee, -EReal.coe_mul]; norm_num

/-! ## Division by a nonzero real literal is multiplication by its reciprocal, at every extended real -/

/-- Dividing by `1/2` is multiplying by `2`, infinities included. -/
theorem div_half (x : EReal) : Ideal.div x half = x * two := by
  have h : (1 / (1 / 2 : ℝ) : ℝ) = 2 := by norm_num
  rw [half_eq, two_eq, Ideal.div_coe (by norm_num) x, h]

/-- Dividing by `256` is multiplying by `1/256`, infinities included. -/
theorem div_c256 (x : EReal) : Ideal.div x c256 = x * inv256 := by
  rw [c256_eq, inv256_eq, Ideal.div_coe (by norm_num) x]

/-! ## The tiled pieces are the plain pieces -/

theorem kpos_eq : kpos = pos := by
  funext A R k d
  simp only [kpos, pos, div_half]

theorem kpair_eq : kpair = pair := by
  funext X Y k j d
  simp only [kpair, pair, div_half]

theorem kneg_eq : kneg = neg := by
  funext A R k d
  simp only [kneg, neg, kpos_eq, kpair_eq]

theorem kterm_eq : kterm = term := by
  funext A R k d
  simp only [kterm, term, kpos_eq, kneg_eq, zero_sub]

/-! ## Sixty-four classes are four tiles of sixteen -/

/-- A sum over the sixty-four classes is the running total, from zero, of the four tiles' sums over their sixteen
    classes: the classes are re-indexed by (tile, class in tile), and only commutativity and associativity of the
    addition are used. -/
theorem sum_cls (f : Fin 64 → EReal) :
    ∑ k : Fin 64, f k
      = (((0 + ∑ k : Fin 16, f (cls 0 k)) + ∑ k : Fin 16, f (cls 1 k)) + ∑ k : Fin 16, f (cls 2 k))
          + ∑ k : Fin 16, f (cls 3 k) := by
  have h : ∑ p : Fin 4 × Fin 16, f (cls p.1 p.2) = ∑ k : Fin 64, f k := by
    refine Fintype.sum_equiv (finProdFinEquiv (m := 4) (n := 16)) _ _ ?_
    rintro ⟨t, k⟩
    congr 1
    apply Fin.ext
    show 16 * t.val + k.val = k.val + 16 * t.val
    exact Nat.add_comm _ _
  rw [← h, Fintype.sum_prod_type, Fin.sum_univ_four, zero_add]

/-- The tiled statement of the loss and the plain one agree, for all matrices of extended reals. -/
theorem kloss_eq_loss (A R : Mat) : kloss A R = loss A R := by
  unfold kloss kpart loss
  rw [sum_cls (fun k => Ideal.div (∑ d : Fin 256, term A R k d) c256)]
  simp only [div_c256, kterm_eq]

end Cert.Spec

end
-- ==== Proof.ProtoPieces.lean ====
/-
  The first region's body, read as values. Part one, for any float values: what each of its two control cases leaves in
  each of the four result blocks, as the printed arithmetic of the blocks it loads — at the first point of a half the
  zero block plus the point's contribution, at a later point what the point before left plus the point's contribution.
  Part two, over the extended reals: that arithmetic entry by entry. The comparison of a row's label with the class
  words, widened and converted, is exactly the indicator [label = k]; its column sums count the block's rows of each
  class; the product of its transpose with the block's rows, onto zero, sums the rows of each class, column by column.
-/
import proofs.«415252_j44135083934242_3_alg».proof.Proof.Spec
import proofs.«415252_j44135083934242_3_alg».proof.Proof.Gen.KernelIdeal.Frame
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ProtoPieces

open Cert.KernelIdeal Cert.KernelIdeal.Gen Cert.Spec

variable {F : FTy → Type} [FloatOps F]

theorem hz3 : (![0, 0, 0] : Fin 3 → Nat) = fun _ => 0 := funext fun a => by fin_cases a <;> rfl

/-! ## What each control case leaves in each result block -/

/-- At the first point of a half the body leaves, in the first sum block, the zero block plus the point's own contribution. -/
theorem outA4 (c : Dev nD) (i : grid0.Coords) (a2 : Memref sig .tc .vmem S1x5000x256 .f32) (h2 : a2.IsWhole) (a3 : Memref sig .tc .vmem S1x5000x1 .i32) (h3 : a3.IsWhole) (a4 : Memref sig .tc .vmem S1x5000x256 .f32) (h4 : a4.IsWhole) (a5 : Memref sig .tc .vmem S1x5000x1 .i32) (h5 : a5.IsWhole) (a6 : Memref sig .tc .vmem S1x64x256 .f32) (h6 : a6.IsWhole) (a7 : Memref sig .tc .vmem S1x1x64 .f32) (h7 : a7.IsWhole) (a8 : Memref sig .tc .vmem S1x64x256 .f32) (h8 : a8.IsWhole) (a9 : Memref sig .tc .vmem S1x1x64 .f32) (h9 : a9.IsWhole) (hc : cond0_0 i) (x0 : Vec F S1x5000x256 .f32) (x1 : Vec F S1x5000x1 .i32) (x2 : Vec F S1x5000x256 .f32) (x3 : Vec F S1x5000x1 .i32) :
    out0_A_4 c i a2 h2 a3 h3 a4 h4 a5 h5 a6 h6 a7 h7 a8 h8 a9 h9 hc x0 x1 x2 x3 = k0_pay1 (k0_pay13 x1 x0) (k0_pay5 (F := F)) := by
  unfold out0_A_4
  rw [View.read_writes_eq_canon _ _ _ (cover0_A_4 c i a2 h2 a3 h3 a4 h4 a5 h5 a6 h6 a7 h7 a8 h8 a9 h9 hc x0 x1 x2 x3)]
  unfold kernelRun0_A
  dsimp only
  sl_unfold_words
  rw [View.canon_cons_unit_zero (S := S1x64x256) hz3, View.readCov_unit_zero (S := S1x64x256) _ hz3]
  simp only [View.readAt_eq_ld, h2.read_unread, h3.read_unread, h4.read_unread, h5.read_unread, h6.read_unread, h7.read_unread, h8.read_unread, h9.read_unread, View.ld_unit_zero (S := S1x5000x1) hz3, View.ld_unit_zero (S := S1x5000x256) hz3, View.ld_unit_zero (S := S1x64x256) hz3, View.ld_unit_zero (S := S1x1x64) hz3]

/-- At every later point it leaves, in the first sum block, what the point before left plus the point's own contribution. -/
theorem outB4 (c : Dev nD) (i : grid0.Coords) (a2 : Memref sig .tc .vmem S1x5000x256 .f32) (h2 : a2.IsWhole) (a3 : Memref sig .tc .vmem S1x5000x1 .i32) (h3 : a3.IsWhole) (a4 : Memref sig .tc .vmem S1x5000x256 .f32) (h4 : a4.IsWhole) (a5 : Memref sig .tc .vmem S1x5000x1 .i32) (h5 : a5.IsWhole) (a6 : Memref sig .tc .vmem S1x64x256 .f32) (h6 : a6.IsWhole) (a7 : Memref sig .tc .vmem S1x1x64 .f32) (h7 : a7.IsWhole) (a8 : Memref sig .tc .vmem S1x64x256 .f32) (h8 : a8.IsWhole) (a9 : Memref sig .tc .vmem S1x1x64 .f32) (h9 : a9.IsWhole) (hc : ¬cond0_0 i) (x0 : Vec F S1x5000x256 .f32) (x1 : Vec F S1x5000x1 .i32) (x2 : Vec F S1x5000x256 .f32) (x3 : Vec F S1x5000x1 .i32) (xo4 : Vec F S1x64x256 .f32) (xo5 : Vec F S1x1x64 .f32) (xo6 : Vec F S1x64x256 .f32) (xo7 : Vec F S1x1x64 .f32) :
    out0_B_4 c i a2 h2 a3 h3 a4 h4 a5 h5 a6 h6 a7 h7 a8 h8 a9 h9 hc x0 x1 x2 x3 xo4 xo5 xo6 xo7 = k0_pay1 (k0_pay13 x1 x0) xo4 := by
  unfold out0_B_4
  rw [View.read_writes_eq_canon _ _ _ (cover0_B_4 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, View.ld_unit_zero (S := S1x5000x1) hz3, View.ld_unit_zero (S := S1x5000x256) hz3, View.ld_unit_zero (S := S1x64x256) hz3, View.ld_unit_zero (S := S1x1x64) hz3]

/-- At the first point of a half the body leaves, in the first count block, the zero block plus the point's own contribution. -/
theorem outA5 (c : Dev nD) (i : grid0.Coords) (a2 : Memref sig .tc .vmem S1x5000x256 .f32) (h2 : a2.IsWhole) (a3 : Memref sig .tc .vmem S1x5000x1 .i32) (h3 : a3.IsWhole) (a4 : Memref sig .tc .vmem S1x5000x256 .f32) (h4 : a4.IsWhole) (a5 : Memref sig .tc .vmem S1x5000x1 .i32) (h5 : a5.IsWhole) (a6 : Memref sig .tc .vmem S1x64x256 .f32) (h6 : a6.IsWhole) (a7 : Memref sig .tc .vmem S1x1x64 .f32) (h7 : a7.IsWhole) (a8 : Memref sig .tc .vmem S1x64x256 .f32) (h8 : a8.IsWhole) (a9 : Memref sig .tc .vmem S1x1x64 .f32) (h9 : a9.IsWhole) (hc : cond0_0 i) (x0 : Vec F S1x5000x256 .f32) (x1 : Vec F S1x5000x1 .i32) (x2 : Vec F S1x5000x256 .f32) (x3 : Vec F S1x5000x1 .i32) :
    out0_A_5 c i a2 h2 a3 h3 a4 h4 a5 h5 a6 h6 a7 h7 a8 h8 a9 h9 hc x0 x1 x2 x3 = k0_pay2 (k0_pay10 x1) (k0_pay6 (F := F)) := by
  unfold out0_A_5
  rw [View.read_writes_eq_canon _ _ _ (cover0_A_5 c i a2 h2 a3 h3 a4 h4 a5 h5 a6 h6 a7 h7 a8 h8 a9 h9 hc x0 x1 x2 x3)]
  unfold kernelRun0_A
  dsimp only
  sl_unfold_words
  rw [View.canon_cons_unit_zero (S := S1x1x64) hz3, View.readCov_unit_zero (S := S1x1x64) _ hz3]
  simp only [View.readAt_eq_ld, h2.read_unread, h3.read_unread, h4.read_unread, h5.read_unread, h6.read_unread, h7.read_unread, h8.read_unread, h9.read_unread, View.ld_unit_zero (S := S1x5000x1) hz3, View.ld_unit_zero (S := S1x5000x256) hz3, View.ld_unit_zero (S := S1x64x256) hz3, View.ld_unit_zero (S := S1x1x64) hz3]

/-- At every later point it leaves, in the first count block, what the point before left plus the point's own contribution. -/
theorem outB5 (c : Dev nD) (i : grid0.Coords) (a2 : Memref sig .tc .vmem S1x5000x256 .f32) (h2 : a2.IsWhole) (a3 : Memref sig .tc .vmem S1x5000x1 .i32) (h3 : a3.IsWhole) (a4 : Memref sig .tc .vmem S1x5000x256 .f32) (h4 : a4.IsWhole) (a5 : Memref sig .tc .vmem S1x5000x1 .i32) (h5 : a5.IsWhole) (a6 : Memref sig .tc .vmem S1x64x256 .f32) (h6 : a6.IsWhole) (a7 : Memref sig .tc .vmem S1x1x64 .f32) (h7 : a7.IsWhole) (a8 : Memref sig .tc .vmem S1x64x256 .f32) (h8 : a8.IsWhole) (a9 : Memref sig .tc .vmem S1x1x64 .f32) (h9 : a9.IsWhole) (hc : ¬cond0_0 i) (x0 : Vec F S1x5000x256 .f32) (x1 : Vec F S1x5000x1 .i32) (x2 : Vec F S1x5000x256 .f32) (x3 : Vec F S1x5000x1 .i32) (xo4 : Vec F S1x64x256 .f32) (xo5 : Vec F S1x1x64 .f32) (xo6 : Vec F S1x64x256 .f32) (xo7 : Vec F S1x1x64 .f32) :
    out0_B_5 c i a2 h2 a3 h3 a4 h4 a5 h5 a6 h6 a7 h7 a8 h8 a9 h9 hc x0 x1 x2 x3 xo4 xo5 xo6 xo7 = k0_pay2 (k0_pay10 x1) xo5 := by
  unfold out0_B_5
  rw [View.read_writes_eq_canon _ _ _ (cover0_B_5 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, View.ld_unit_zero (S := S1x5000x1) hz3, View.ld_unit_zero (S := S1x5000x256) hz3, View.ld_unit_zero (S := S1x64x256) hz3, View.ld_unit_zero (S := S1x1x64) hz3]

/-- At the first point of a half the body leaves, in the second sum block, the zero block plus the point's own contribution. -/
theorem outA6 (c : Dev nD) (i : grid0.Coords) (a2 : Memref sig .tc .vmem S1x5000x256 .f32) (h2 : a2.IsWhole) (a3 : Memref sig .tc .vmem S1x5000x1 .i32) (h3 : a3.IsWhole) (a4 : Memref sig .tc .vmem S1x5000x256 .f32) (h4 : a4.IsWhole) (a5 : Memref sig .tc .vmem S1x5000x1 .i32) (h5 : a5.IsWhole) (a6 : Memref sig .tc .vmem S1x64x256 .f32) (h6 : a6.IsWhole) (a7 : Memref sig .tc .vmem S1x1x64 .f32) (h7 : a7.IsWhole) (a8 : Memref sig .tc .vmem S1x64x256 .f32) (h8 : a8.IsWhole) (a9 : Memref sig .tc .vmem S1x1x64 .f32) (h9 : a9.IsWhole) (hc : cond0_0 i) (x0 : Vec F S1x5000x256 .f32) (x1 : Vec F S1x5000x1 .i32) (x2 : Vec F S1x5000x256 .f32) (x3 : Vec F S1x5000x1 .i32) :
    out0_A_6 c i a2 h2 a3 h3 a4 h4 a5 h5 a6 h6 a7 h7 a8 h8 a9 h9 hc x0 x1 x2 x3 = k0_pay3 (k0_pay14 x3 x2) (k0_pay7 (F := F)) := by
  unfold out0_A_6
  rw [View.read_writes_eq_canon _ _ _ (cover0_A_6 c i a2 h2 a3 h3 a4 h4 a5 h5 a6 h6 a7 h7 a8 h8 a9 h9 hc x0 x1 x2 x3)]
  unfold kernelRun0_A
  dsimp only
  sl_unfold_words
  rw [View.canon_cons_unit_zero (S := S1x64x256) hz3, View.readCov_unit_zero (S := S1x64x256) _ hz3]
  simp only [View.readAt_eq_ld, h2.read_unread, h3.read_unread, h4.read_unread, h5.read_unread, h6.read_unread, h7.read_unread, h8.read_unread, h9.read_unread, View.ld_unit_zero (S := S1x5000x1) hz3, View.ld_unit_zero (S := S1x5000x256) hz3, View.ld_unit_zero (S := S1x64x256) hz3, View.ld_unit_zero (S := S1x1x64) hz3]

/-- At every later point it leaves, in the second sum block, what the point before left plus the point's own contribution. -/
theorem outB6 (c : Dev nD) (i : grid0.Coords) (a2 : Memref sig .tc .vmem S1x5000x256 .f32) (h2 : a2.IsWhole) (a3 : Memref sig .tc .vmem S1x5000x1 .i32) (h3 : a3.IsWhole) (a4 : Memref sig .tc .vmem S1x5000x256 .f32) (h4 : a4.IsWhole) (a5 : Memref sig .tc .vmem S1x5000x1 .i32) (h5 : a5.IsWhole) (a6 : Memref sig .tc .vmem S1x64x256 .f32) (h6 : a6.IsWhole) (a7 : Memref sig .tc .vmem S1x1x64 .f32) (h7 : a7.IsWhole) (a8 : Memref sig .tc .vmem S1x64x256 .f32) (h8 : a8.IsWhole) (a9 : Memref sig .tc .vmem S1x1x64 .f32) (h9 : a9.IsWhole) (hc : ¬cond0_0 i) (x0 : Vec F S1x5000x256 .f32) (x1 : Vec F S1x5000x1 .i32) (x2 : Vec F S1x5000x256 .f32) (x3 : Vec F S1x5000x1 .i32) (xo4 : Vec F S1x64x256 .f32) (xo5 : Vec F S1x1x64 .f32) (xo6 : Vec F S1x64x256 .f32) (xo7 : Vec F S1x1x64 .f32) :
    out0_B_6 c i a2 h2 a3 h3 a4 h4 a5 h5 a6 h6 a7 h7 a8 h8 a9 h9 hc x0 x1 x2 x3 xo4 xo5 xo6 xo7 = k0_pay3 (k0_pay14 x3 x2) xo6 := by
  unfold out0_B_6
  rw [View.read_writes_eq_canon _ _ _ (cover0_B_6 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, View.ld_unit_zero (S := S1x5000x1) hz3, View.ld_unit_zero (S := S1x5000x256) hz3, View.ld_unit_zero (S := S1x64x256) hz3, View.ld_unit_zero (S := S1x1x64) hz3]

/-- At the first point of a half the body leaves, in the second count block, the zero block plus the point's own contribution. -/
theorem outA7 (c : Dev nD) (i : grid0.Coords) (a2 : Memref sig .tc .vmem S1x5000x256 .f32) (h2 : a2.IsWhole) (a3 : Memref sig .tc .vmem S1x5000x1 .i32) (h3 : a3.IsWhole) (a4 : Memref sig .tc .vmem S1x5000x256 .f32) (h4 : a4.IsWhole) (a5 : Memref sig .tc .vmem S1x5000x1 .i32) (h5 : a5.IsWhole) (a6 : Memref sig .tc .vmem S1x64x256 .f32) (h6 : a6.IsWhole) (a7 : Memref sig .tc .vmem S1x1x64 .f32) (h7 : a7.IsWhole) (a8 : Memref sig .tc .vmem S1x64x256 .f32) (h8 : a8.IsWhole) (a9 : Memref sig .tc .vmem S1x1x64 .f32) (h9 : a9.IsWhole) (hc : cond0_0 i) (x0 : Vec F S1x5000x256 .f32) (x1 : Vec F S1x5000x1 .i32) (x2 : Vec F S1x5000x256 .f32) (x3 : Vec F S1x5000x1 .i32) :
    out0_A_7 c i a2 h2 a3 h3 a4 h4 a5 h5 a6 h6 a7 h7 a8 h8 a9 h9 hc x0 x1 x2 x3 = k0_pay4 (k0_pay12 x3) (k0_pay8 (F := F)) := by
  unfold out0_A_7
  rw [View.read_writes_eq_canon _ _ _ (cover0_A_7 c i a2 h2 a3 h3 a4 h4 a5 h5 a6 h6 a7 h7 a8 h8 a9 h9 hc x0 x1 x2 x3)]
  unfold kernelRun0_A
  dsimp only
  sl_unfold_words
  rw [View.canon_cons_unit_zero (S := S1x1x64) hz3, View.readCov_unit_zero (S := S1x1x64) _ hz3]
  simp only [View.readAt_eq_ld, h2.read_unread, h3.read_unread, h4.read_unread, h5.read_unread, h6.read_unread, h7.read_unread, h8.read_unread, h9.read_unread, View.ld_unit_zero (S := S1x5000x1) hz3, View.ld_unit_zero (S := S1x5000x256) hz3, View.ld_unit_zero (S := S1x64x256) hz3, View.ld_unit_zero (S := S1x1x64) hz3]

/-- At every later point it leaves, in the second count block, what the point before left plus the point's own contribution. -/
theorem outB7 (c : Dev nD) (i : grid0.Coords) (a2 : Memref sig .tc .vmem S1x5000x256 .f32) (h2 : a2.IsWhole) (a3 : Memref sig .tc .vmem S1x5000x1 .i32) (h3 : a3.IsWhole) (a4 : Memref sig .tc .vmem S1x5000x256 .f32) (h4 : a4.IsWhole) (a5 : Memref sig .tc .vmem S1x5000x1 .i32) (h5 : a5.IsWhole) (a6 : Memref sig .tc .vmem S1x64x256 .f32) (h6 : a6.IsWhole) (a7 : Memref sig .tc .vmem S1x1x64 .f32) (h7 : a7.IsWhole) (a8 : Memref sig .tc .vmem S1x64x256 .f32) (h8 : a8.IsWhole) (a9 : Memref sig .tc .vmem S1x1x64 .f32) (h9 : a9.IsWhole) (hc : ¬cond0_0 i) (x0 : Vec F S1x5000x256 .f32) (x1 : Vec F S1x5000x1 .i32) (x2 : Vec F S1x5000x256 .f32) (x3 : Vec F S1x5000x1 .i32) (xo4 : Vec F S1x64x256 .f32) (xo5 : Vec F S1x1x64 .f32) (xo6 : Vec F S1x64x256 .f32) (xo7 : Vec F S1x1x64 .f32) :
    out0_B_7 c i a2 h2 a3 h3 a4 h4 a5 h5 a6 h6 a7 h7 a8 h8 a9 h9 hc x0 x1 x2 x3 xo4 xo5 xo6 xo7 = k0_pay4 (k0_pay12 x3) xo7 := by
  unfold out0_B_7
  rw [View.read_writes_eq_canon _ _ _ (cover0_B_7 c i a2 h2 a3 h3 a4 h4 a5 h5 a6 h6 a7 h7 a8 h8 a9 h9 hc x0 x1 x2 x3 xo4 xo5 xo6 xo7)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, View.ld_unit_zero (S := S1x5000x1) hz3, View.ld_unit_zero (S := S1x5000x256) hz3, View.ld_unit_zero (S := S1x64x256) hz3, View.ld_unit_zero (S := S1x1x64) hz3]

/-! ## The body's arithmetic over the extended reals, entry by entry -/

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The conversion of a zero-extended bit to a float is exact: one for a set bit, zero for a clear one. -/
theorem sitofp_bit (b : BitVec 1) :
    (FloatOps.sitofp (F := Ideal) .f32 (b.setWidth 32) : EReal) = if b = 1#1 then 1 else 0 := by
  by_cases h : b = 1#1
  · subst h
    rw [if_pos rfl]
    show ((((1#1 : BitVec 1).setWidth 32).toInt : ℝ) : EReal) = 1
    rw [show ((1#1 : BitVec 1).setWidth 32).toInt = 1 by decide]
    simp
  · rw [if_neg h, eq_zero_of_ne_one h]
    show ((((0#1 : BitVec 1).setWidth 32).toInt : ℝ) : EReal) = 0
    rw [show ((0#1 : BitVec 1).setWidth 32).toInt = 0 by decide]
    simp

/-- So the float of the widened comparison bit of two words is the indicator of their equality. -/
theorem sitofp_cmp_eq (l w : BitVec 32) :
    (FloatOps.sitofp (F := Ideal) .f32 ((IntOp.cmpi .eq l w).setWidth 32) : EReal) = if l = w then 1 else 0 := by
  rw [sitofp_bit]
  by_cases h : l = w
  · subst h; simp [IntOp.cmpi]
  · have hb : (l == w) = false := beq_eq_false_iff_ne.mpr h
    simp [IntOp.cmpi, hb, h]

/-- The comparison mask at `(n, k)`: row `n`'s label against class `k`'s word. -/
theorem mask9_apply (l : Vec Ideal S1x5000x1 .i32) (n : Fin 5000) (k : Fin 64) :
    k0_pay9 (F := Ideal) l (ix2 n k) = IntOp.cmpi .eq (l (ix3 (0 : Fin 1) n (0 : Fin 1))) (BitVec.ofNat 32 k.val) := by
  unfold k0_pay9
  refine congrArg₂ (IntOp.cmpi .eq) ?_ ?_
  · exact (broadcastTo_a1_ab_apply _ _ n k).trans (shapeCast_1ab_ab_apply l _ n (0 : Fin 1))
  · exact (broadcastTo_1b_ab_apply _ _ n k).trans (iota_single_apply .tc S1x64 32 1 _ _)

theorem mask11_apply (l : Vec Ideal S1x5000x1 .i32) (n : Fin 5000) (k : Fin 64) :
    k0_pay11 (F := Ideal) l (ix2 n k) = IntOp.cmpi .eq (l (ix3 (0 : Fin 1) n (0 : Fin 1))) (BitVec.ofNat 32 k.val) := by
  unfold k0_pay11
  refine congrArg₂ (IntOp.cmpi .eq) ?_ ?_
  · exact (broadcastTo_a1_ab_apply _ _ n k).trans (shapeCast_1ab_ab_apply l _ n (0 : Fin 1))
  · exact (broadcastTo_1b_ab_apply _ _ n k).trans (iota_single_apply .tc S1x64 32 1 _ _)

/-- The one-hot matrix at `(n, k)`. -/
theorem oh9_apply (l : Vec Ideal S1x5000x1 .i32) (n : Fin 5000) (k : Fin 64) :
    (sitofp .f32 (extui 32 (k0_pay9 (F := Ideal) l) natLt_1_32) : FVec Ideal S5000x64 .f32) (ix2 n k)
      = oneHot (l (ix3 (0 : Fin 1) n (0 : Fin 1))) k := by
  show FloatOps.sitofp (F := Ideal) .f32 ((k0_pay9 (F := Ideal) l (ix2 n k)).setWidth 32) = _
  rw [mask9_apply, sitofp_cmp_eq]
  rfl

theorem oh11_apply (l : Vec Ideal S1x5000x1 .i32) (n : Fin 5000) (k : Fin 64) :
    (sitofp .f32 (extui 32 (k0_pay11 (F := Ideal) l) natLt_1_32) : FVec Ideal S5000x64 .f32) (ix2 n k)
      = oneHot (l (ix3 (0 : Fin 1) n (0 : Fin 1))) k := by
  show FloatOps.sitofp (F := Ideal) .f32 ((k0_pay11 (F := Ideal) l (ix2 n k)).setWidth 32) = _
  rw [mask11_apply, sitofp_cmp_eq]
  rfl

/-- The column sums of the one-hot matrix: entry `k` is the number of the block's rows labelled `k`. -/
theorem cnt10_apply (l : Vec Ideal S1x5000x1 .i32) (k : Fin 64) :
    k0_pay10 (F := Ideal) l (ix2 (0 : Fin 1) k) = ∑ n : Fin 5000, oneHot (l (ix3 (0 : Fin 1) n (0 : Fin 1))) k := by
  unfold k0_pay10
  refine (shapeCast_a_1a_apply _ _ (0 : Fin 1) k).trans ?_
  refine (Ideal.multiReduction_add_single _ 0x00000000#32 reduces_S5000x64_S64 _ _ (ix1 k)).trans ?_
  refine Finset.sum_congr rfl fun n _ => ?_
  have e : reduces_S5000x64_S64.lift (ix1 k) n = ix2 (n : Fin 5000) k :=
    funext fun a => Fin.ext (by match a with | ⟨0, _⟩ => rfl | ⟨1, _⟩ => rfl)
  rw [e]
  exact oh9_apply l n k

theorem cnt12_apply (l : Vec Ideal S1x5000x1 .i32) (k : Fin 64) :
    k0_pay12 (F := Ideal) l (ix2 (0 : Fin 1) k) = ∑ n : Fin 5000, oneHot (l (ix3 (0 : Fin 1) n (0 : Fin 1))) k := by
  unfold k0_pay12
  refine (shapeCast_a_1a_apply _ _ (0 : Fin 1) k).trans ?_
  refine (Ideal.multiReduction_add_single _ 0x00000000#32 reduces_S5000x64_S64 _ _ (ix1 k)).trans ?_
  refine Finset.sum_congr rfl fun n _ => ?_
  have e : reduces_S5000x64_S64.lift (ix1 k) n = ix2 (n : Fin 5000) k :=
    funext fun a => Fin.ext (by match a with | ⟨0, _⟩ => rfl | ⟨1, _⟩ => rfl)
  rw [e]
  exact oh11_apply l n k

/-! The product's operand indices: the contracted axis is each operand's rows, the kept axis its columns. -/

theorem lhs_dot_0 (i : S64x256.Idx) (q : dot_S5000x64_S5000x256_S64x256_0_0_1_1_n_n.contr.Idx) :
    (dot_S5000x64_S5000x256_S64x256_0_0_1_1_n_n.lhsIdx i q 0).val = (q ⟨0, by decide⟩).val :=
  dot_S5000x64_S5000x256_S64x256_0_0_1_1_n_n.lhsIdx_val_of_single rfl i q
theorem lhs_dot_1 (i : S64x256.Idx) (q : dot_S5000x64_S5000x256_S64x256_0_0_1_1_n_n.contr.Idx) :
    (dot_S5000x64_S5000x256_S64x256_0_0_1_1_n_n.lhsIdx i q 1).val = (i 0).val := by
  unfold DotDims.lhsIdx
  rw [dif_neg (show ¬(1 : Fin S5000x64.rank) ∈ dot_S5000x64_S5000x256_S64x256_0_0_1_1_n_n.lhsBatch by decide), dif_pos (show (1 : Fin S5000x64.rank) ∈ dot_S5000x64_S5000x256_S64x256_0_0_1_1_n_n.lhsNonContracting by decide)]
  rfl
theorem rhs_dot_0 (i : S64x256.Idx) (q : dot_S5000x64_S5000x256_S64x256_0_0_1_1_n_n.contr.Idx) :
    (dot_S5000x64_S5000x256_S64x256_0_0_1_1_n_n.rhsIdx i q 0).val = (q ⟨0, by decide⟩).val :=
  dot_S5000x64_S5000x256_S64x256_0_0_1_1_n_n.rhsIdx_val_of_single rfl i q
theorem rhs_dot_1 (i : S64x256.Idx) (q : dot_S5000x64_S5000x256_S64x256_0_0_1_1_n_n.contr.Idx) :
    (dot_S5000x64_S5000x256_S64x256_0_0_1_1_n_n.rhsIdx i q 1).val = (i 1).val := by
  unfold DotDims.rhsIdx
  rw [dif_neg (show ¬(1 : Fin S5000x256.rank) ∈ dot_S5000x64_S5000x256_S64x256_0_0_1_1_n_n.rhsBatch by decide), dif_pos (show (1 : Fin S5000x256.rank) ∈ dot_S5000x64_S5000x256_S64x256_0_0_1_1_n_n.rhsNonContracting by decide)]
  rfl

/-- The product of the transposed one-hot matrix with the block's rows, onto zero: entry `(k, d)` is the sum over the
    block's rows of [label = k] times the row's entry `d`. -/
theorem mm_apply (A : FVec Ideal S5000x64 .bf16) (B : FVec Ideal S5000x256 .bf16) (k : Fin 64) (d : Fin 256) :
    matmul dot_S5000x64_S5000x256_S64x256_0_0_1_1_n_n none A B (constant S64x256 .f32 0x00000000#32) (ix2 k d)
      = ∑ n : Fin 5000, A (ix2 n k) * B (ix2 n d) := by
  refine (Ideal.matmul_constant_zero_apply dot_S5000x64_S5000x256_S64x256_0_0_1_1_n_n none A B (ix2 k d)).trans ?_
  rw [← Equiv.sum_comp (contrEquiv1 dot_S5000x64_S5000x256_S64x256_0_0_1_1_n_n 5000 rfl rfl).symm]
  refine Finset.sum_congr rfl fun n _ => ?_
  have hk := contrEquiv1_symm_val dot_S5000x64_S5000x256_S64x256_0_0_1_1_n_n 5000 rfl rfl n
  have el : dot_S5000x64_S5000x256_S64x256_0_0_1_1_n_n.lhsIdx (ix2 k d) ((contrEquiv1 dot_S5000x64_S5000x256_S64x256_0_0_1_1_n_n 5000 rfl rfl).symm n) = ix2 n k := funext fun a => Fin.ext (by
    match a with
    | ⟨0, _⟩ => exact (lhs_dot_0 _ _).trans hk
    | ⟨1, _⟩ => exact lhs_dot_1 _ _)
  have er : dot_S5000x64_S5000x256_S64x256_0_0_1_1_n_n.rhsIdx (ix2 k d) ((contrEquiv1 dot_S5000x64_S5000x256_S64x256_0_0_1_1_n_n 5000 rfl rfl).symm n) = ix2 n d := funext fun a => Fin.ext (by
    match a with
    | ⟨0, _⟩ => exact (rhs_dot_0 _ _).trans hk
    | ⟨1, _⟩ => exact rhs_dot_1 _ _)
  rw [el, er]

theorem sum13_apply (l : Vec Ideal S1x5000x1 .i32) (x : Vec Ideal S1x5000x256 .f32) (k : Fin 64) (d : Fin 256) :
    k0_pay13 (F := Ideal) l x (ix2 k d)
      = ∑ n : Fin 5000, oneHot (l (ix3 (0 : Fin 1) n (0 : Fin 1))) k * x (ix3 (0 : Fin 1) n d) := by
  unfold k0_pay13
  refine (mm_apply _ _ k d).trans ?_
  refine Finset.sum_congr rfl fun n _ => ?_
  exact congrArg₂ (· * ·) (oh9_apply l n k) (shapeCast_1ab_ab_apply x _ n d)

theorem sum14_apply (l : Vec Ideal S1x5000x1 .i32) (x : Vec Ideal S1x5000x256 .f32) (k : Fin 64) (d : Fin 256) :
    k0_pay14 (F := Ideal) l x (ix2 k d)
      = ∑ n : Fin 5000, oneHot (l (ix3 (0 : Fin 1) n (0 : Fin 1))) k * x (ix3 (0 : Fin 1) n d) := by
  unfold k0_pay14
  refine (mm_apply _ _ k d).trans ?_
  refine Finset.sum_congr rfl fun n _ => ?_
  exact congrArg₂ (· * ·) (oh11_apply l n k) (shapeCast_1ab_ab_apply x _ n d)

/-! The four stores: what the block held plus the point's contribution, entry by entry; and the zero block. -/

theorem pay1_apply (M : FVec Ideal S64x256 .f32) (acc : Vec Ideal S1x64x256 .f32) (k : Fin 64) (d : Fin 256) :
    k0_pay1 (F := Ideal) M acc (ix3 (0 : Fin 1) k d) = acc (ix3 (0 : Fin 1) k d) + M (ix2 k d) := by
  unfold k0_pay1
  refine (shapeCast_ab_1ab_apply _ _ (0 : Fin 1) k d).trans ?_
  exact congrArg (· + M (ix2 k d)) (shapeCast_1ab_ab_apply acc _ k d)

theorem pay3_apply (M : FVec Ideal S64x256 .f32) (acc : Vec Ideal S1x64x256 .f32) (k : Fin 64) (d : Fin 256) :
    k0_pay3 (F := Ideal) M acc (ix3 (0 : Fin 1) k d) = acc (ix3 (0 : Fin 1) k d) + M (ix2 k d) := by
  unfold k0_pay3
  refine (shapeCast_ab_1ab_apply _ _ (0 : Fin 1) k d).trans ?_
  exact congrArg (· + M (ix2 k d)) (shapeCast_1ab_ab_apply acc _ k d)

theorem pay2_apply (M : FVec Ideal S1x64 .f32) (acc : Vec Ideal S1x1x64 .f32) (k : Fin 64) :
    k0_pay2 (F := Ideal) M acc (ix3 (0 : Fin 1) (0 : Fin 1) k) = acc (ix3 (0 : Fin 1) (0 : Fin 1) k) + M (ix2 (0 : Fin 1) k) := by
  unfold k0_pay2
  refine (shapeCast_ab_1ab_apply _ _ (0 : Fin 1) (0 : Fin 1) k).trans ?_
  exact congrArg (· + M (ix2 (0 : Fin 1) k)) (shapeCast_1ab_ab_apply acc _ (0 : Fin 1) k)

theorem pay4_apply (M : FVec Ideal S1x64 .f32) (acc : Vec Ideal S1x1x64 .f32) (k : Fin 64) :
    k0_pay4 (F := Ideal) M acc (ix3 (0 : Fin 1) (0 : Fin 1) k) = acc (ix3 (0 : Fin 1) (0 : Fin 1) k) + M (ix2 (0 : Fin 1) k) := by
  unfold k0_pay4
  refine (shapeCast_ab_1ab_apply _ _ (0 : Fin 1) (0 : Fin 1) k).trans ?_
  exact congrArg (· + M (ix2 (0 : Fin 1) k)) (shapeCast_1ab_ab_apply acc _ (0 : Fin 1) k)

theorem zero5_apply (i : S1x64x256.Idx) : k0_pay5 (F := Ideal) i = 0 := Ideal.ofBits_zero_f32
theorem zero6_apply (i : S1x1x64.Idx) : k0_pay6 (F := Ideal) i = 0 := Ideal.ofBits_zero_f32
theorem zero7_apply (i : S1x64x256.Idx) : k0_pay7 (F := Ideal) i = 0 := Ideal.ofBits_zero_f32
theorem zero8_apply (i : S1x1x64.Idx) : k0_pay8 (F := Ideal) i = 0 := Ideal.ofBits_zero_f32

end Cert.KernelIdeal.ProtoPieces

end
-- ==== Proof.ProtoRegion.lean ====
/-
  The first region: what its four result arrays hold when it ends, as functions of the arrays it was entered with.
  Grid point (o, i) reads rows 5000·i … 5000·i + 4999 of half o of a feature array and of a label array, and adds, into
  block o of a sum array, the product of the transposed one-hot matrix of the labels with the rows, and into block o of a
  count array the column sums of the one-hot matrix; the first point of each half starts from zero. Block o is written
  back after the half's tenth point. So entry (o, k, d) of a sum array ends at the sum over the half's 50000 rows of
  [label = k] · feature, and entry (o, 0, k) of a count array at the number of the half's rows labelled k.
-/
import proofs.«415252_j44135083934242_3_alg».proof.Proof.Spec
import proofs.«415252_j44135083934242_3_alg».proof.Proof.Gen.KernelIdeal.Frame
import proofs.«415252_j44135083934242_3_alg».proof.Proof.ProtoPieces
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.ProtoRegion

open Cert.KernelIdeal Cert.KernelIdeal.Gen Cert.Spec Cert.KernelIdeal.ProtoPieces

variable (V : (c : Dev nD) → (b : Ref sig .tc) → Buf (Elt Ideal) ((c : Thread nD τ).loc b))

/-! ## The blocks a point reads -/

/-- The printed index maps, decided over the twenty points: point `t` is half `t / 10`, tile `t % 10`; an input block sits
    at block index (half, tile, 0), a result block at (half, 0, 0). -/
theorem idx_in : ∀ t : Fin cfg0.N,
    (win0_0.index t (0 : Fin 3) = t.val / 10 ∧ win0_0.index t (1 : Fin 3) = t.val % 10 ∧ win0_0.index t (2 : Fin 3) = 0)
    ∧ (win0_1.index t (0 : Fin 3) = t.val / 10 ∧ win0_1.index t (1 : Fin 3) = t.val % 10 ∧ win0_1.index t (2 : Fin 3) = 0)
    ∧ (win0_2.index t (0 : Fin 3) = t.val / 10 ∧ win0_2.index t (1 : Fin 3) = t.val % 10 ∧ win0_2.index t (2 : Fin 3) = 0)
    ∧ (win0_3.index t (0 : Fin 3) = t.val / 10 ∧ win0_3.index t (1 : Fin 3) = t.val % 10 ∧ win0_3.index t (2 : Fin 3) = 0) :=
  (by decide +kernel : ∀ t : Fin grid0.N, _)

theorem idx_out : ∀ t : Fin cfg0.N,
    (win0_4.index t (0 : Fin 3) = t.val / 10 ∧ win0_4.index t (1 : Fin 3) = 0 ∧ win0_4.index t (2 : Fin 3) = 0)
    ∧ (win0_5.index t (0 : Fin 3) = t.val / 10 ∧ win0_5.index t (1 : Fin 3) = 0 ∧ win0_5.index t (2 : Fin 3) = 0)
    ∧ (win0_6.index t (0 : Fin 3) = t.val / 10 ∧ win0_6.index t (1 : Fin 3) = 0 ∧ win0_6.index t (2 : Fin 3) = 0)
    ∧ (win0_7.index t (0 : Fin 3) = t.val / 10 ∧ win0_7.index t (1 : Fin 3) = 0 ∧ win0_7.index t (2 : Fin 3) = 0) :=
  (by decide +kernel : ∀ t : Fin grid0.N, _)

/-- The four input blocks at a point, at their literal types. -/
abbrev fA (c : Dev nD) (t : Fin cfg0.N) : Vec Ideal S1x5000x256 .f32 := iblk0 V c 0 t
abbrev lA (c : Dev nD) (t : Fin cfg0.N) : Vec Ideal S1x5000x1 .i32 := iblk0 V c 1 t
abbrev fR (c : Dev nD) (t : Fin cfg0.N) : Vec Ideal S1x5000x256 .f32 := iblk0 V c 2 t
abbrev lR (c : Dev nD) (t : Fin cfg0.N) : Vec Ideal S1x5000x1 .i32 := iblk0 V c 3 t

/-- Row `n` of the feature block at point (o, i) is row 5000·i + n of half o of the array. -/
theorem fA_apply (c : Dev nD) (t : Fin cfg0.N) (o : Fin 2) (i : Fin 10) (ht : t.val = 10 * o.val + i.val) (n : Fin 5000) (d : Fin 256) :
    fA V c t (ix3 (0 : Fin 1) n d) = V c main_v0 (ix3 o (row i n) d) := by
  obtain ⟨⟨e0, e1, e2⟩, -⟩ := idx_in t
  unfold fA iblk0
  rw [View.read_apply]
  show V c main_v0 _ = V c main_v0 _
  refine congrArg (V c main_v0) (funext fun a => Fin.ext ?_)
  match a with
  | ⟨0, _⟩ => show win0_0.index t (0 : Fin 3) * 1 + 1 * 0 = o.val; rw [e0]; omega
  | ⟨1, _⟩ => show win0_0.index t (1 : Fin 3) * 5000 + 1 * n.val = 5000 * i.val + n.val; rw [e1]; omega
  | ⟨2, _⟩ => show win0_0.index t (2 : Fin 3) * 256 + 1 * d.val = d.val; rw [e2]; omega

/-- Row `n` of the label block at point (o, i) is the label of row 5000·i + n of half o. -/
theorem lA_apply (c : Dev nD) (t : Fin cfg0.N) (o : Fin 2) (i : Fin 10) (ht : t.val = 10 * o.val + i.val) (n : Fin 5000) :
    lA V c t (ix3 (0 : Fin 1) n (0 : Fin 1)) = V c main_v2 (ix3 o (row i n) (0 : Fin 1)) := by
  obtain ⟨-, ⟨e0, e1, e2⟩, -⟩ := idx_in t
  unfold lA iblk0
  rw [View.read_apply]
  show V c main_v2 _ = V c main_v2 _
  refine congrArg (V c main_v2) (funext fun a => Fin.ext ?_)
  match a with
  | ⟨0, _⟩ => show win0_1.index t (0 : Fin 3) * 1 + 1 * 0 = o.val; rw [e0]; omega
  | ⟨1, _⟩ => show win0_1.index t (1 : Fin 3) * 5000 + 1 * n.val = 5000 * i.val + n.val; rw [e1]; omega
  | ⟨2, _⟩ => show win0_1.index t (2 : Fin 3) * 1 + 1 * 0 = 0; rw [e2]

theorem fR_apply (c : Dev nD) (t : Fin cfg0.N) (o : Fin 2) (i : Fin 10) (ht : t.val = 10 * o.val + i.val) (n : Fin 5000) (d : Fin 256) :
    fR V c t (ix3 (0 : Fin 1) n d) = V c main_v1 (ix3 o (row i n) d) := by
  obtain ⟨-, -, ⟨e0, e1, e2⟩, -⟩ := idx_in t
  unfold fR iblk0
  rw [View.read_apply]
  show V c main_v1 _ = V c main_v1 _
  refine congrArg (V c main_v1) (funext fun a => Fin.ext ?_)
  match a with
  | ⟨0, _⟩ => show win0_2.index t (0 : Fin 3) * 1 + 1 * 0 = o.val; rw [e0]; omega
  | ⟨1, _⟩ => show win0_2.index t (1 : Fin 3) * 5000 + 1 * n.val = 5000 * i.val + n.val; rw [e1]; omega
  | ⟨2, _⟩ => show win0_2.index t (2 : Fin 3) * 256 + 1 * d.val = d.val; rw [e2]; omega

theorem lR_apply (c : Dev nD) (t : Fin cfg0.N) (o : Fin 2) (i : Fin 10) (ht : t.val = 10 * o.val + i.val) (n : Fin 5000) :
    lR V c t (ix3 (0 : Fin 1) n (0 : Fin 1)) = V c main_v3 (ix3 o (row i n) (0 : Fin 1)) := by
  obtain ⟨-, -, -, ⟨e0, e1, e2⟩⟩ := idx_in t
  unfold lR iblk0
  rw [View.read_apply]
  show V c main_v3 _ = V c main_v3 _
  refine congrArg (V c main_v3) (funext fun a => Fin.ext ?_)
  match a with
  | ⟨0, _⟩ => show win0_3.index t (0 : Fin 3) * 1 + 1 * 0 = o.val; rw [e0]; omega
  | ⟨1, _⟩ => show win0_3.index t (1 : Fin 3) * 5000 + 1 * n.val = 5000 * i.val + n.val; rw [e1]; omega
  | ⟨2, _⟩ => show win0_3.index t (2 : Fin 3) * 1 + 1 * 0 = 0; rw [e2]

/-! ## What the four result blocks hold after a point -/

/-- After the first point of a half: zero plus the point's contributions. -/
theorem at_first (c : Dev nD) (t : Fin cfg0.N) (h0 : t.val % 10 = 0) :
    outsAt0 V c t.val t.isLt
      = (k0_pay1 (k0_pay13 (lA V c t) (fA V c t)) (k0_pay5 (F := Ideal)), k0_pay2 (k0_pay10 (lA V c t)) (k0_pay6 (F := Ideal)),
         k0_pay3 (k0_pay14 (lR V c t) (fR V c t)) (k0_pay7 (F := Ideal)), k0_pay4 (k0_pay12 (lR V c t)) (k0_pay8 (F := Ideal))) := by
  rw [outsAt0_A V c t h0]
  refine congrArg₂ Prod.mk ?_ (congrArg₂ Prod.mk ?_ (congrArg₂ Prod.mk ?_ ?_))
  · exact outA4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t)
  · exact outA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t)
  · exact outA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t)
  · exact outA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t)

/-- After any later point: what the point before left plus the point's contributions. -/
theorem at_later (c : Dev nD) (t : Fin cfg0.N) (h0 : ¬t.val % 10 = 0) :
    outsAt0 V c t.val t.isLt
      = (k0_pay1 (k0_pay13 (lA V c t) (fA V c t)) (outsAt0 V c (t.val - 1) (Nat.lt_of_le_of_lt (Nat.sub_le _ _) t.isLt)).1,
         k0_pay2 (k0_pay10 (lA V c t)) (outsAt0 V c (t.val - 1) (Nat.lt_of_le_of_lt (Nat.sub_le _ _) t.isLt)).2.1,
         k0_pay3 (k0_pay14 (lR V c t) (fR V c t)) (outsAt0 V c (t.val - 1) (Nat.lt_of_le_of_lt (Nat.sub_le _ _) t.isLt)).2.2.1,
         k0_pay4 (k0_pay12 (lR V c t)) (outsAt0 V c (t.val - 1) (Nat.lt_of_le_of_lt (Nat.sub_le _ _) t.isLt)).2.2.2) := by
  rw [outsAt0_B V c t h0]
  refine congrArg₂ Prod.mk ?_ (congrArg₂ Prod.mk ?_ (congrArg₂ Prod.mk ?_ ?_))
  · exact outB4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2
  · exact outB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2
  · exact outB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2
  · exact outB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2

/-- The bound proofs of a point do not matter. -/
theorem outs_congr (c : Dev nD) (u v : ℕ) (hu : u < cfg0.N) (hv : v < cfg0.N) (e : u = v) :
    outsAt0 V c u hu = outsAt0 V c v hv := by subst e; rfl

/-! ## The running sums and counts of a half -/

/-- After tile `j` of half `o`, entry (k, d) of the first sum block is the sum over the tiles so far of the tile's rows
    labelled `k`, at column `d`. -/
theorem sumA_acc (c : Dev nD) (o : Fin 2) (k : Fin 64) (d : Fin 256) :
    ∀ (j : ℕ) (hj : j < 10) (h : 10 * o.val + j < cfg0.N),
      (outsAt0 V c (10 * o.val + j) h).1 (ix3 (0 : Fin 1) k d)
        = ∑ s ∈ Finset.range (j + 1), if hs : s < 10 then
            ∑ n : Fin 5000, oneHot (V c main_v2 (ix3 o (row ⟨s, hs⟩ n) (0 : Fin 1))) k * V c main_v0 (ix3 o (row ⟨s, hs⟩ n) d) else 0
  | 0, hj, h => by
    have e := at_first V c ⟨10 * o.val + 0, h⟩ (by show (10 * o.val + 0) % 10 = 0; omega)
    rw [e]
    dsimp only
    refine (pay1_apply _ _ k d).trans ?_
    rw [zero5_apply, zero_add, Finset.sum_range_one, dif_pos (by omega : (0 : ℕ) < 10)]
    refine (sum13_apply _ _ k d).trans (Finset.sum_congr rfl fun n _ => ?_)
    exact congrArg₂ (· * ·) (congrArg (oneHot · k) (lA_apply V c _ o ⟨0, by omega⟩ rfl n)) (fA_apply V c _ o ⟨0, by omega⟩ rfl n d)
  | j + 1, hj, h => by
    have e := at_later V c ⟨10 * o.val + (j + 1), h⟩ (by show ¬(10 * o.val + (j + 1)) % 10 = 0; omega)
    rw [e]
    dsimp only
    refine (pay1_apply _ _ k d).trans ?_
    rw [Finset.sum_range_succ _ (j + 1), dif_pos hj]
    refine congrArg₂ (· + ·) ?_ ?_
    · exact (congrArg (fun z => z.1 (ix3 (0 : Fin 1) k d)) (outs_congr V c _ _ _ (by omega) (by show 10 * o.val + (j + 1) - 1 = 10 * o.val + j; omega))).trans
        (sumA_acc c o k d j (by omega) (by omega))
    · refine (sum13_apply _ _ k d).trans (Finset.sum_congr rfl fun n _ => ?_)
      exact congrArg₂ (· * ·) (congrArg (oneHot · k) (lA_apply V c _ o ⟨j + 1, hj⟩ rfl n)) (fA_apply V c _ o ⟨j + 1, hj⟩ rfl n d)

/-- After tile `j` of half `o`, entry `k` of the first count block is the number of rows labelled `k` in the tiles so far. -/
theorem cntA_acc (c : Dev nD) (o : Fin 2) (k : Fin 64) :
    ∀ (j : ℕ) (hj : j < 10) (h : 10 * o.val + j < cfg0.N),
      (outsAt0 V c (10 * o.val + j) h).2.1 (ix3 (0 : Fin 1) (0 : Fin 1) k)
        = ∑ s ∈ Finset.range (j + 1), if hs : s < 10 then
            ∑ n : Fin 5000, oneHot (V c main_v2 (ix3 o (row ⟨s, hs⟩ n) (0 : Fin 1))) k else 0
  | 0, hj, h => by
    have e := at_first V c ⟨10 * o.val + 0, h⟩ (by show (10 * o.val + 0) % 10 = 0; omega)
    rw [e]
    dsimp only
    refine (pay2_apply _ _ k).trans ?_
    rw [zero6_apply, zero_add, Finset.sum_range_one, dif_pos (by omega : (0 : ℕ) < 10)]
    refine (cnt10_apply _ k).trans (Finset.sum_congr rfl fun n _ => ?_)
    exact congrArg (oneHot · k) (lA_apply V c _ o ⟨0, by omega⟩ rfl n)
  | j + 1, hj, h => by
    have e := at_later V c ⟨10 * o.val + (j + 1), h⟩ (by show ¬(10 * o.val + (j + 1)) % 10 = 0; omega)
    rw [e]
    dsimp only
    refine (pay2_apply _ _ k).trans ?_
    rw [Finset.sum_range_succ _ (j + 1), dif_pos hj]
    refine congrArg₂ (· + ·) ?_ ?_
    · exact (congrArg (fun z => z.2.1 (ix3 (0 : Fin 1) (0 : Fin 1) k)) (outs_congr V c _ _ _ (by omega) (by show 10 * o.val + (j + 1) - 1 = 10 * o.val + j; omega))).trans
        (cntA_acc c o k j (by omega) (by omega))
    · refine (cnt10_apply _ k).trans (Finset.sum_congr rfl fun n _ => ?_)
      exact congrArg (oneHot · k) (lA_apply V c _ o ⟨j + 1, hj⟩ rfl n)

/-- After tile `j` of half `o`, entry (k, d) of the second sum block is the sum over the tiles so far of the tile's rows
    labelled `k`, at column `d`. -/
theorem sumR_acc (c : Dev nD) (o : Fin 2) (k : Fin 64) (d : Fin 256) :
    ∀ (j : ℕ) (hj : j < 10) (h : 10 * o.val + j < cfg0.N),
      (outsAt0 V c (10 * o.val + j) h).2.2.1 (ix3 (0 : Fin 1) k d)
        = ∑ s ∈ Finset.range (j + 1), if hs : s < 10 then
            ∑ n : Fin 5000, oneHot (V c main_v3 (ix3 o (row ⟨s, hs⟩ n) (0 : Fin 1))) k * V c main_v1 (ix3 o (row ⟨s, hs⟩ n) d) else 0
  | 0, hj, h => by
    have e := at_first V c ⟨10 * o.val + 0, h⟩ (by show (10 * o.val + 0) % 10 = 0; omega)
    rw [e]
    dsimp only
    refine (pay3_apply _ _ k d).trans ?_
    rw [zero7_apply, zero_add, Finset.sum_range_one, dif_pos (by omega : (0 : ℕ) < 10)]
    refine (sum14_apply _ _ k d).trans (Finset.sum_congr rfl fun n _ => ?_)
    exact congrArg₂ (· * ·) (congrArg (oneHot · k) (lR_apply V c _ o ⟨0, by omega⟩ rfl n)) (fR_apply V c _ o ⟨0, by omega⟩ rfl n d)
  | j + 1, hj, h => by
    have e := at_later V c ⟨10 * o.val + (j + 1), h⟩ (by show ¬(10 * o.val + (j + 1)) % 10 = 0; omega)
    rw [e]
    dsimp only
    refine (pay3_apply _ _ k d).trans ?_
    rw [Finset.sum_range_succ _ (j + 1), dif_pos hj]
    refine congrArg₂ (· + ·) ?_ ?_
    · exact (congrArg (fun z => z.2.2.1 (ix3 (0 : Fin 1) k d)) (outs_congr V c _ _ _ (by omega) (by show 10 * o.val + (j + 1) - 1 = 10 * o.val + j; omega))).trans
        (sumR_acc c o k d j (by omega) (by omega))
    · refine (sum14_apply _ _ k d).trans (Finset.sum_congr rfl fun n _ => ?_)
      exact congrArg₂ (· * ·) (congrArg (oneHot · k) (lR_apply V c _ o ⟨j + 1, hj⟩ rfl n)) (fR_apply V c _ o ⟨j + 1, hj⟩ rfl n d)

/-- After tile `j` of half `o`, entry `k` of the second count block is the number of rows labelled `k` in the tiles so far. -/
theorem cntR_acc (c : Dev nD) (o : Fin 2) (k : Fin 64) :
    ∀ (j : ℕ) (hj : j < 10) (h : 10 * o.val + j < cfg0.N),
      (outsAt0 V c (10 * o.val + j) h).2.2.2 (ix3 (0 : Fin 1) (0 : Fin 1) k)
        = ∑ s ∈ Finset.range (j + 1), if hs : s < 10 then
            ∑ n : Fin 5000, oneHot (V c main_v3 (ix3 o (row ⟨s, hs⟩ n) (0 : Fin 1))) k else 0
  | 0, hj, h => by
    have e := at_first V c ⟨10 * o.val + 0, h⟩ (by show (10 * o.val + 0) % 10 = 0; omega)
    rw [e]
    dsimp only
    refine (pay4_apply _ _ k).trans ?_
    rw [zero8_apply, zero_add, Finset.sum_range_one, dif_pos (by omega : (0 : ℕ) < 10)]
    refine (cnt12_apply _ k).trans (Finset.sum_congr rfl fun n _ => ?_)
    exact congrArg (oneHot · k) (lR_apply V c _ o ⟨0, by omega⟩ rfl n)
  | j + 1, hj, h => by
    have e := at_later V c ⟨10 * o.val + (j + 1), h⟩ (by show ¬(10 * o.val + (j + 1)) % 10 = 0; omega)
    rw [e]
    dsimp only
    refine (pay4_apply _ _ k).trans ?_
    rw [Finset.sum_range_succ _ (j + 1), dif_pos hj]
    refine congrArg₂ (· + ·) ?_ ?_
    · exact (congrArg (fun z => z.2.2.2 (ix3 (0 : Fin 1) (0 : Fin 1) k)) (outs_congr V c _ _ _ (by omega) (by show 10 * o.val + (j + 1) - 1 = 10 * o.val + j; omega))).trans
        (cntR_acc c o k j (by omega) (by omega))
    · refine (cnt12_apply _ k).trans (Finset.sum_congr rfl fun n _ => ?_)
      exact congrArg (oneHot · k) (lR_apply V c _ o ⟨j + 1, hj⟩ rfl n)

/-! ## From the blocks to the arrays -/

/-- The last point of half `o`, the one after which the half's blocks are written back, is a point of the grid. -/
theorem lastLt (o : Fin 2) : 10 * o.val + 9 < cfg0.N := by rw [show cfg0.N = 20 from N_0]; omega
def lastPt (o : Fin 2) : Fin cfg0.N := ⟨10 * o.val + 9, lastLt o⟩

/-- Entry (o, ·, ·) of the first sum array as the write-backs leave it: what the last point of half `o` left there. -/
def blk4 (c : Dev nD) (o : Fin 2) (k : Fin 64) (d : Fin 256) : EReal :=
  (outsAt0 V c (10 * o.val + 9) (lastLt o)).1 (ix3 (0 : Fin 1) k d)
def arr4 (c : Dev nD) : Buf (Elt Ideal) ((c : Thread nD τ).loc main_v4_0) := fun i =>
  blk4 V c ⟨(i 0).val, (i 0).isLt⟩ ⟨(i 1).val, (i 1).isLt⟩ ⟨(i 2).val, (i 2).isLt⟩

/-- What the last point of a half writes back is the half's block of those entries. -/
theorem flushed4 (c : Dev nD) (t : Fin cfg0.N) (hf : (cfg0.win 4).flush t = true) :
    (dat0 (F := Ideal) V c).flushed 4 t = ((cfg0.win 4).blk t).view.read (Elt Ideal) (arr4 V c) := by
  have h9 : t.val % 10 = 9 := (flush0_4 t).mp hf
  have hN : t.val < 20 := lt_of_lt_of_eq t.isLt N_0
  obtain ⟨⟨e0, e1, e2⟩, -⟩ := idx_out t
  show (cfg0.win 4).cut (grid0.coords t) ((dat0 (F := Ideal) V c).after 4 t) = _
  rw [after0_4]
  funext y
  rw [View.read_apply, cast_eq]
  have hy0 : (y 0).val = 0 := by have : (y 0).val < 1 := (y 0).isLt; omega
  have hy1 : (y 1).val < 64 := (y 1).isLt
  have hy2 : (y 2).val < 256 := (y 2).isLt
  have a0 : (((cfg0.win 4).blk t).view.emb y 0).val = t.val / 10 := by
    show win0_4.index t (0 : Fin 3) * 1 + 1 * (y 0).val = _; rw [e0, hy0]; omega
  have a1 : (((cfg0.win 4).blk t).view.emb y 1).val = (y 1).val := by
    show win0_4.index t (1 : Fin 3) * 64 + 1 * (y 1).val = _; rw [e1]; omega
  have a2 : (((cfg0.win 4).blk t).view.emb y 2).val = (y 2).val := by
    show win0_4.index t (2 : Fin 3) * 256 + 1 * (y 2).val = _; rw [e2]; omega
  have eR : arr4 V c (((cfg0.win 4).blk t).view.emb y) = blk4 V c ⟨t.val / 10, by omega⟩ ⟨(y 1).val, hy1⟩ ⟨(y 2).val, hy2⟩ :=
    congr (congr (congrArg (blk4 V c) (Fin.ext a0)) (Fin.ext a1)) (Fin.ext a2)
  rw [eR]
  unfold blk4
  refine Eq.trans ?_ (congrArg (fun z => z.1 (ix3 (0 : Fin 1) (⟨(y 1).val, hy1⟩ : Fin 64) (⟨(y 2).val, hy2⟩ : Fin 256)))
    (outs_congr V c t.val _ t.isLt _ (by show t.val = 10 * (t.val / 10) + 9; omega)))
  show (outsAt0 V c t.val t.isLt).1 ((cfg0.win 4).xinj (grid0.coords t) y) = _
  refine congrArg (outsAt0 V c t.val t.isLt).1 (funext fun a => Fin.ext ?_)
  match a with
  | ⟨0, _⟩ => exact hy0
  | ⟨1, _⟩ => rfl
  | ⟨2, _⟩ => rfl

/-- An entry of the array is in point `t`'s block exactly when, on each axis, it lies in the block's range. -/
theorem mem_blk4 (t : Fin cfg0.N) (i : T2x64x256.Idx) :
    i ∈ ((cfg0.win 4).blk t).view.set ↔ ∀ a : Fin 3, win0_4.index t a * S1x64x256.size a ≤ (i a).val ∧ (i a).val < win0_4.index t a * S1x64x256.size a + S1x64x256.size a := by
  show i ∈ ((View.whole main_v4_0).slice (win0_4.rect t)).set ↔ _
  rw [View.set_slice_whole, Rect.mem_set_unit]
  exact Iff.rfl

/-- Every entry of the array is in the block written back after its half's last point. -/
theorem cover4 (i : T2x64x256.Idx) : ∃ t : Fin cfg0.N, (cfg0.win 4).flush t = true ∧ i ∈ ((cfg0.win 4).blk t).view.set := by
  have h0 : (i 0).val < 2 := (i 0).isLt
  have h1 : (i 1).val < 64 := (i 1).isLt
  have h2 : (i 2).val < 256 := (i 2).isLt
  have hv : (lastPt ⟨(i 0).val, h0⟩).val = 10 * (i 0).val + 9 := rfl
  obtain ⟨⟨e0, e1, e2⟩, -⟩ := idx_out (lastPt ⟨(i 0).val, h0⟩)
  refine ⟨lastPt ⟨(i 0).val, h0⟩, (flush0_4 _).mpr (by rw [hv]; omega), ?_⟩
  rw [mem_blk4]
  intro a
  match a with
  | ⟨0, _⟩ => show win0_4.index _ (0 : Fin 3) * 1 ≤ (i 0).val ∧ (i 0).val < win0_4.index _ (0 : Fin 3) * 1 + 1; rw [e0, hv]; omega
  | ⟨1, _⟩ => show win0_4.index _ (1 : Fin 3) * 64 ≤ (i 1).val ∧ (i 1).val < win0_4.index _ (1 : Fin 3) * 64 + 64; rw [e1]; omega
  | ⟨2, _⟩ => show win0_4.index _ (2 : Fin 3) * 256 ≤ (i 2).val ∧ (i 2).val < win0_4.index _ (2 : Fin 3) * 256 + 256; rw [e2]; omega

/-- So the array ends at those entries. -/
theorem final4 (c : Dev nD) : (dat0 (F := Ideal) V c).arrAt 4 cfg0.N = arr4 V c :=
  (dat0 (F := Ideal) V c).arrAt_eq_of_cover 4 (arr4 V c) (flushed4 V c) cover4

/-- Entry (o, ·, ·) of the first count array as the write-backs leave it: what the last point of half `o` left there. -/
def blk5 (c : Dev nD) (o : Fin 2) (k : Fin 1) (d : Fin 64) : EReal :=
  (outsAt0 V c (10 * o.val + 9) (lastLt o)).2.1 (ix3 (0 : Fin 1) k d)
def arr5 (c : Dev nD) : Buf (Elt Ideal) ((c : Thread nD τ).loc main_v4_1) := fun i =>
  blk5 V c ⟨(i 0).val, (i 0).isLt⟩ ⟨(i 1).val, (i 1).isLt⟩ ⟨(i 2).val, (i 2).isLt⟩

/-- What the last point of a half writes back is the half's block of those entries. -/
theorem flushed5 (c : Dev nD) (t : Fin cfg0.N) (hf : (cfg0.win 5).flush t = true) :
    (dat0 (F := Ideal) V c).flushed 5 t = ((cfg0.win 5).blk t).view.read (Elt Ideal) (arr5 V c) := by
  have h9 : t.val % 10 = 9 := (flush0_5 t).mp hf
  have hN : t.val < 20 := lt_of_lt_of_eq t.isLt N_0
  obtain ⟨-, ⟨e0, e1, e2⟩, -⟩ := idx_out t
  show (cfg0.win 5).cut (grid0.coords t) ((dat0 (F := Ideal) V c).after 5 t) = _
  rw [after0_5]
  funext y
  rw [View.read_apply, cast_eq]
  have hy0 : (y 0).val = 0 := by have : (y 0).val < 1 := (y 0).isLt; omega
  have hy1 : (y 1).val < 1 := (y 1).isLt
  have hy2 : (y 2).val < 64 := (y 2).isLt
  have a0 : (((cfg0.win 5).blk t).view.emb y 0).val = t.val / 10 := by
    show win0_5.index t (0 : Fin 3) * 1 + 1 * (y 0).val = _; rw [e0, hy0]; omega
  have a1 : (((cfg0.win 5).blk t).view.emb y 1).val = (y 1).val := by
    show win0_5.index t (1 : Fin 3) * 1 + 1 * (y 1).val = _; rw [e1]; omega
  have a2 : (((cfg0.win 5).blk t).view.emb y 2).val = (y 2).val := by
    show win0_5.index t (2 : Fin 3) * 64 + 1 * (y 2).val = _; rw [e2]; omega
  have eR : arr5 V c (((cfg0.win 5).blk t).view.emb y) = blk5 V c ⟨t.val / 10, by omega⟩ ⟨(y 1).val, hy1⟩ ⟨(y 2).val, hy2⟩ :=
    congr (congr (congrArg (blk5 V c) (Fin.ext a0)) (Fin.ext a1)) (Fin.ext a2)
  rw [eR]
  unfold blk5
  refine Eq.trans ?_ (congrArg (fun z => z.2.1 (ix3 (0 : Fin 1) (⟨(y 1).val, hy1⟩ : Fin 1) (⟨(y 2).val, hy2⟩ : Fin 64)))
    (outs_congr V c t.val _ t.isLt _ (by show t.val = 10 * (t.val / 10) + 9; omega)))
  show (outsAt0 V c t.val t.isLt).2.1 ((cfg0.win 5).xinj (grid0.coords t) y) = _
  refine congrArg (outsAt0 V c t.val t.isLt).2.1 (funext fun a => Fin.ext ?_)
  match a with
  | ⟨0, _⟩ => exact hy0
  | ⟨1, _⟩ => rfl
  | ⟨2, _⟩ => rfl

/-- An entry of the array is in point `t`'s block exactly when, on each axis, it lies in the block's range. -/
theorem mem_blk5 (t : Fin cfg0.N) (i : T2x1x64.Idx) :
    i ∈ ((cfg0.win 5).blk t).view.set ↔ ∀ a : Fin 3, win0_5.index t a * S1x1x64.size a ≤ (i a).val ∧ (i a).val < win0_5.index t a * S1x1x64.size a + S1x1x64.size a := by
  show i ∈ ((View.whole main_v4_1).slice (win0_5.rect t)).set ↔ _
  rw [View.set_slice_whole, Rect.mem_set_unit]
  exact Iff.rfl

/-- Every entry of the array is in the block written back after its half's last point. -/
theorem cover5 (i : T2x1x64.Idx) : ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 64 := (i 2).isLt
  have hv : (lastPt ⟨(i 0).val, h0⟩).val = 10 * (i 0).val + 9 := rfl
  obtain ⟨-, ⟨e0, e1, e2⟩, -⟩ := idx_out (lastPt ⟨(i 0).val, h0⟩)
  refine ⟨lastPt ⟨(i 0).val, h0⟩, (flush0_5 _).mpr (by rw [hv]; omega), ?_⟩
  rw [mem_blk5]
  intro a
  match a with
  | ⟨0, _⟩ => show win0_5.index _ (0 : Fin 3) * 1 ≤ (i 0).val ∧ (i 0).val < win0_5.index _ (0 : Fin 3) * 1 + 1; rw [e0, hv]; omega
  | ⟨1, _⟩ => show win0_5.index _ (1 : Fin 3) * 1 ≤ (i 1).val ∧ (i 1).val < win0_5.index _ (1 : Fin 3) * 1 + 1; rw [e1]; omega
  | ⟨2, _⟩ => show win0_5.index _ (2 : Fin 3) * 64 ≤ (i 2).val ∧ (i 2).val < win0_5.index _ (2 : Fin 3) * 64 + 64; rw [e2]; omega

/-- So the array ends at those entries. -/
theorem final5 (c : Dev nD) : (dat0 (F := Ideal) V c).arrAt 5 cfg0.N = arr5 V c :=
  (dat0 (F := Ideal) V c).arrAt_eq_of_cover 5 (arr5 V c) (flushed5 V c) cover5

/-- Entry (o, ·, ·) of the second sum array as the write-backs leave it: what the last point of half `o` left there. -/
def blk6 (c : Dev nD) (o : Fin 2) (k : Fin 64) (d : Fin 256) : EReal :=
  (outsAt0 V c (10 * o.val + 9) (lastLt o)).2.2.1 (ix3 (0 : Fin 1) k d)
def arr6 (c : Dev nD) : Buf (Elt Ideal) ((c : Thread nD τ).loc main_v4_2) := fun i =>
  blk6 V c ⟨(i 0).val, (i 0).isLt⟩ ⟨(i 1).val, (i 1).isLt⟩ ⟨(i 2).val, (i 2).isLt⟩

/-- What the last point of a half writes back is the half's block of those entries. -/
theorem flushed6 (c : Dev nD) (t : Fin cfg0.N) (hf : (cfg0.win 6).flush t = true) :
    (dat0 (F := Ideal) V c).flushed 6 t = ((cfg0.win 6).blk t).view.read (Elt Ideal) (arr6 V c) := by
  have h9 : t.val % 10 = 9 := (flush0_6 t).mp hf
  have hN : t.val < 20 := lt_of_lt_of_eq t.isLt N_0
  obtain ⟨-, -, ⟨e0, e1, e2⟩, -⟩ := idx_out t
  show (cfg0.win 6).cut (grid0.coords t) ((dat0 (F := Ideal) V c).after 6 t) = _
  rw [after0_6]
  funext y
  rw [View.read_apply, cast_eq]
  have hy0 : (y 0).val = 0 := by have : (y 0).val < 1 := (y 0).isLt; omega
  have hy1 : (y 1).val < 64 := (y 1).isLt
  have hy2 : (y 2).val < 256 := (y 2).isLt
  have a0 : (((cfg0.win 6).blk t).view.emb y 0).val = t.val / 10 := by
    show win0_6.index t (0 : Fin 3) * 1 + 1 * (y 0).val = _; rw [e0, hy0]; omega
  have a1 : (((cfg0.win 6).blk t).view.emb y 1).val = (y 1).val := by
    show win0_6.index t (1 : Fin 3) * 64 + 1 * (y 1).val = _; rw [e1]; omega
  have a2 : (((cfg0.win 6).blk t).view.emb y 2).val = (y 2).val := by
    show win0_6.index t (2 : Fin 3) * 256 + 1 * (y 2).val = _; rw [e2]; omega
  have eR : arr6 V c (((cfg0.win 6).blk t).view.emb y) = blk6 V c ⟨t.val / 10, by omega⟩ ⟨(y 1).val, hy1⟩ ⟨(y 2).val, hy2⟩ :=
    congr (congr (congrArg (blk6 V c) (Fin.ext a0)) (Fin.ext a1)) (Fin.ext a2)
  rw [eR]
  unfold blk6
  refine Eq.trans ?_ (congrArg (fun z => z.2.2.1 (ix3 (0 : Fin 1) (⟨(y 1).val, hy1⟩ : Fin 64) (⟨(y 2).val, hy2⟩ : Fin 256)))
    (outs_congr V c t.val _ t.isLt _ (by show t.val = 10 * (t.val / 10) + 9; omega)))
  show (outsAt0 V c t.val t.isLt).2.2.1 ((cfg0.win 6).xinj (grid0.coords t) y) = _
  refine congrArg (outsAt0 V c t.val t.isLt).2.2.1 (funext fun a => Fin.ext ?_)
  match a with
  | ⟨0, _⟩ => exact hy0
  | ⟨1, _⟩ => rfl
  | ⟨2, _⟩ => rfl

/-- An entry of the array is in point `t`'s block exactly when, on each axis, it lies in the block's range. -/
theorem mem_blk6 (t : Fin cfg0.N) (i : T2x64x256.Idx) :
    i ∈ ((cfg0.win 6).blk t).view.set ↔ ∀ a : Fin 3, win0_6.index t a * S1x64x256.size a ≤ (i a).val ∧ (i a).val < win0_6.index t a * S1x64x256.size a + S1x64x256.size a := by
  show i ∈ ((View.whole main_v4_2).slice (win0_6.rect t)).set ↔ _
  rw [View.set_slice_whole, Rect.mem_set_unit]
  exact Iff.rfl

/-- Every entry of the array is in the block written back after its half's last point. -/
theorem cover6 (i : T2x64x256.Idx) : ∃ t : Fin cfg0.N, (cfg0.win 6).flush t = true ∧ i ∈ ((cfg0.win 6).blk t).view.set := by
  have h0 : (i 0).val < 2 := (i 0).isLt
  have h1 : (i 1).val < 64 := (i 1).isLt
  have h2 : (i 2).val < 256 := (i 2).isLt
  have hv : (lastPt ⟨(i 0).val, h0⟩).val = 10 * (i 0).val + 9 := rfl
  obtain ⟨-, -, ⟨e0, e1, e2⟩, -⟩ := idx_out (lastPt ⟨(i 0).val, h0⟩)
  refine ⟨lastPt ⟨(i 0).val, h0⟩, (flush0_6 _).mpr (by rw [hv]; omega), ?_⟩
  rw [mem_blk6]
  intro a
  match a with
  | ⟨0, _⟩ => show win0_6.index _ (0 : Fin 3) * 1 ≤ (i 0).val ∧ (i 0).val < win0_6.index _ (0 : Fin 3) * 1 + 1; rw [e0, hv]; omega
  | ⟨1, _⟩ => show win0_6.index _ (1 : Fin 3) * 64 ≤ (i 1).val ∧ (i 1).val < win0_6.index _ (1 : Fin 3) * 64 + 64; rw [e1]; omega
  | ⟨2, _⟩ => show win0_6.index _ (2 : Fin 3) * 256 ≤ (i 2).val ∧ (i 2).val < win0_6.index _ (2 : Fin 3) * 256 + 256; rw [e2]; omega

/-- So the array ends at those entries. -/
theorem final6 (c : Dev nD) : (dat0 (F := Ideal) V c).arrAt 6 cfg0.N = arr6 V c :=
  (dat0 (F := Ideal) V c).arrAt_eq_of_cover 6 (arr6 V c) (flushed6 V c) cover6

/-- Entry (o, ·, ·) of the second count array as the write-backs leave it: what the last point of half `o` left there. -/
def blk7 (c : Dev nD) (o : Fin 2) (k : Fin 1) (d : Fin 64) : EReal :=
  (outsAt0 V c (10 * o.val + 9) (lastLt o)).2.2.2 (ix3 (0 : Fin 1) k d)
def arr7 (c : Dev nD) : Buf (Elt Ideal) ((c : Thread nD τ).loc main_v4_3) := fun i =>
  blk7 V c ⟨(i 0).val, (i 0).isLt⟩ ⟨(i 1).val, (i 1).isLt⟩ ⟨(i 2).val, (i 2).isLt⟩

/-- What the last point of a half writes back is the half's block of those entries. -/
theorem flushed7 (c : Dev nD) (t : Fin cfg0.N) (hf : (cfg0.win 7).flush t = true) :
    (dat0 (F := Ideal) V c).flushed 7 t = ((cfg0.win 7).blk t).view.read (Elt Ideal) (arr7 V c) := by
  have h9 : t.val % 10 = 9 := (flush0_7 t).mp hf
  have hN : t.val < 20 := lt_of_lt_of_eq t.isLt N_0
  obtain ⟨-, -, -, ⟨e0, e1, e2⟩⟩ := idx_out t
  show (cfg0.win 7).cut (grid0.coords t) ((dat0 (F := Ideal) V c).after 7 t) = _
  rw [after0_7]
  funext y
  rw [View.read_apply, cast_eq]
  have hy0 : (y 0).val = 0 := by have : (y 0).val < 1 := (y 0).isLt; omega
  have hy1 : (y 1).val < 1 := (y 1).isLt
  have hy2 : (y 2).val < 64 := (y 2).isLt
  have a0 : (((cfg0.win 7).blk t).view.emb y 0).val = t.val / 10 := by
    show win0_7.index t (0 : Fin 3) * 1 + 1 * (y 0).val = _; rw [e0, hy0]; omega
  have a1 : (((cfg0.win 7).blk t).view.emb y 1).val = (y 1).val := by
    show win0_7.index t (1 : Fin 3) * 1 + 1 * (y 1).val = _; rw [e1]; omega
  have a2 : (((cfg0.win 7).blk t).view.emb y 2).val = (y 2).val := by
    show win0_7.index t (2 : Fin 3) * 64 + 1 * (y 2).val = _; rw [e2]; omega
  have eR : arr7 V c (((cfg0.win 7).blk t).view.emb y) = blk7 V c ⟨t.val / 10, by omega⟩ ⟨(y 1).val, hy1⟩ ⟨(y 2).val, hy2⟩ :=
    congr (congr (congrArg (blk7 V c) (Fin.ext a0)) (Fin.ext a1)) (Fin.ext a2)
  rw [eR]
  unfold blk7
  refine Eq.trans ?_ (congrArg (fun z => z.2.2.2 (ix3 (0 : Fin 1) (⟨(y 1).val, hy1⟩ : Fin 1) (⟨(y 2).val, hy2⟩ : Fin 64)))
    (outs_congr V c t.val _ t.isLt _ (by show t.val = 10 * (t.val / 10) + 9; omega)))
  show (outsAt0 V c t.val t.isLt).2.2.2 ((cfg0.win 7).xinj (grid0.coords t) y) = _
  refine congrArg (outsAt0 V c t.val t.isLt).2.2.2 (funext fun a => Fin.ext ?_)
  match a with
  | ⟨0, _⟩ => exact hy0
  | ⟨1, _⟩ => rfl
  | ⟨2, _⟩ => rfl

/-- An entry of the array is in point `t`'s block exactly when, on each axis, it lies in the block's range. -/
theorem mem_blk7 (t : Fin cfg0.N) (i : T2x1x64.Idx) :
    i ∈ ((cfg0.win 7).blk t).view.set ↔ ∀ a : Fin 3, win0_7.index t a * S1x1x64.size a ≤ (i a).val ∧ (i a).val < win0_7.index t a * S1x1x64.size a + S1x1x64.size a := by
  show i ∈ ((View.whole main_v4_3).slice (win0_7.rect t)).set ↔ _
  rw [View.set_slice_whole, Rect.mem_set_unit]
  exact Iff.rfl

/-- Every entry of the array is in the block written back after its half's last point. -/
theorem cover7 (i : T2x1x64.Idx) : ∃ t : Fin cfg0.N, (cfg0.win 7).flush t = true ∧ i ∈ ((cfg0.win 7).blk t).view.set := by
  have h0 : (i 0).val < 2 := (i 0).isLt
  have h1 : (i 1).val < 1 := (i 1).isLt
  have h2 : (i 2).val < 64 := (i 2).isLt
  have hv : (lastPt ⟨(i 0).val, h0⟩).val = 10 * (i 0).val + 9 := rfl
  obtain ⟨-, -, -, ⟨e0, e1, e2⟩⟩ := idx_out (lastPt ⟨(i 0).val, h0⟩)
  refine ⟨lastPt ⟨(i 0).val, h0⟩, (flush0_7 _).mpr (by rw [hv]; omega), ?_⟩
  rw [mem_blk7]
  intro a
  match a with
  | ⟨0, _⟩ => show win0_7.index _ (0 : Fin 3) * 1 ≤ (i 0).val ∧ (i 0).val < win0_7.index _ (0 : Fin 3) * 1 + 1; rw [e0, hv]; omega
  | ⟨1, _⟩ => show win0_7.index _ (1 : Fin 3) * 1 ≤ (i 1).val ∧ (i 1).val < win0_7.index _ (1 : Fin 3) * 1 + 1; rw [e1]; omega
  | ⟨2, _⟩ => show win0_7.index _ (2 : Fin 3) * 64 ≤ (i 2).val ∧ (i 2).val < win0_7.index _ (2 : Fin 3) * 64 + 64; rw [e2]; omega

/-- So the array ends at those entries. -/
theorem final7 (c : Dev nD) : (dat0 (F := Ideal) V c).arrAt 7 cfg0.N = arr7 V c :=
  (dat0 (F := Ideal) V c).arrAt_eq_of_cover 7 (arr7 V c) (flushed7 V c) cover7

/-! ## The four results -/

/-- The first feature array's class sums, half by half. -/
theorem sumA (c : Dev nD) (o : Fin 2) (k : Fin 64) (d : Fin 256) :
    ((dat0 (F := Ideal) V c).arrAt 4 cfg0.N : Buf (Elt Ideal) ((c : Thread nD τ).loc main_v4_0)) (ix3 o k d)
      = ∑ i : Fin 10, ∑ n : Fin 5000, oneHot (V c main_v2 (ix3 o (row i n) 0)) k * V c main_v0 (ix3 o (row i n) d) := by
  refine (congrFun (final4 V c) (ix3 o k d)).trans ?_
  show blk4 V c o k d = _
  unfold blk4
  refine (sumA_acc V c o k d 9 (by omega) _).trans ?_
  rw [Finset.sum_range]
  refine Finset.sum_congr rfl fun i _ => ?_
  rw [dif_pos i.isLt]

/-- The first label array's class counts, half by half. -/
theorem cntA (c : Dev nD) (o : Fin 2) (k : Fin 64) :
    ((dat0 (F := Ideal) V c).arrAt 5 cfg0.N : Buf (Elt Ideal) ((c : Thread nD τ).loc main_v4_1)) (ix3 o 0 k)
      = ∑ i : Fin 10, ∑ n : Fin 5000, oneHot (V c main_v2 (ix3 o (row i n) 0)) k := by
  refine (congrFun (final5 V c) (ix3 o 0 k)).trans ?_
  show blk5 V c o 0 k = _
  unfold blk5
  refine (cntA_acc V c o k 9 (by omega) _).trans ?_
  rw [Finset.sum_range]
  refine Finset.sum_congr rfl fun i _ => ?_
  rw [dif_pos i.isLt]

/-- The second feature array's class sums, half by half. -/
theorem sumR (c : Dev nD) (o : Fin 2) (k : Fin 64) (d : Fin 256) :
    ((dat0 (F := Ideal) V c).arrAt 6 cfg0.N : Buf (Elt Ideal) ((c : Thread nD τ).loc main_v4_2)) (ix3 o k d)
      = ∑ i : Fin 10, ∑ n : Fin 5000, oneHot (V c main_v3 (ix3 o (row i n) 0)) k * V c main_v1 (ix3 o (row i n) d) := by
  refine (congrFun (final6 V c) (ix3 o k d)).trans ?_
  show blk6 V c o k d = _
  unfold blk6
  refine (sumR_acc V c o k d 9 (by omega) _).trans ?_
  rw [Finset.sum_range]
  refine Finset.sum_congr rfl fun i _ => ?_
  rw [dif_pos i.isLt]

/-- The second label array's class counts, half by half. -/
theorem cntR (c : Dev nD) (o : Fin 2) (k : Fin 64) :
    ((dat0 (F := Ideal) V c).arrAt 7 cfg0.N : Buf (Elt Ideal) ((c : Thread nD τ).loc main_v4_3)) (ix3 o 0 k)
      = ∑ i : Fin 10, ∑ n : Fin 5000, oneHot (V c main_v3 (ix3 o (row i n) 0)) k := by
  refine (congrFun (final7 V c) (ix3 o 0 k)).trans ?_
  show blk7 V c o 0 k = _
  unfold blk7
  refine (cntR_acc V c o k 9 (by omega) _).trans ?_
  rw [Finset.sum_range]
  refine Finset.sum_congr rfl fun i _ => ?_
  rw [dif_pos i.isLt]

end Cert.KernelIdeal.ProtoRegion

end
-- ==== Proof.TailPieces.lean ====
/-
  The second region's body, read off the run at each of its two control cases: what it leaves in the one-element result
  buffer, as the final store's payload applied to what its loads read. The first point (where the result is reset) stores
  zero, reads it back and adds the point's partial sum; every later point reads what the point before left and adds its
  partial sum. The partial sum is a function of the two whole 64 × 256 arrays and of their sixteen rows 16·t … 16·t + 15,
  which the body loads a second time through a rectangle whose row offset it computes from the grid coordinate.
-/
import proofs.«415252_j44135083934242_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.TailPieces

open Cert.KernelIdeal Cert.KernelIdeal.Gen

variable {F : FTy → Type} [FloatOps F]

/-- The offsets (0, 0), however the zeros are spelt. -/
theorem hz2 : (![0, 0] : Fin 2 → Nat) = fun _ => 0 := funext fun a => by fin_cases a <;> rfl

/-- Rows 16·t … 16·t + 15 of a 64 × 256 array, as the body loads them at the point whose grid coordinates are `i`. -/
abbrev rows (i : grid1.Coords) (x : Vec F S64x256 .f32) : Vec F S16x256 .f32 :=
  View.ld x (Rect.unit (s := S64x256) (k1_off1 i) S16x256.size (k1_off1_inb i))

/-- A later point (the reset not taken): over the running total `xo` the body leaves the final store's payload of the two
    arrays `x0`, `x1`, their sixteen rows, and `xo`. -/
theorem out_B (c : Dev nD) (i : grid1.Coords) (a1 : Memref sig .tc .vmem S64x256 .f32) (h1 : a1.IsWhole)
    (a2 : Memref sig .tc .vmem S64x256 .f32) (h2 : a2.IsWhole) (a3 : Memref sig .tc .vmem S1x1 .f32) (h3 : a3.IsWhole)
    (hc : ¬cond1_0 i) (x0 x1 : Vec F S64x256 .f32) (xo : Vec F S1x1 .f32) :
    out1_B_2 c i a1 h1 a2 h2 a3 h3 hc x0 x1 xo
      = k1_pay1 (k1_pay4 (rows i x0) (rows i x1)) (k1_pay5 i x0 x1 (rows i x0)) xo := by
  unfold out1_B_2
  rw [View.read_writes_eq_canon _ _ _ (cover1_B_2 c i a1 h1 a2 h2 a3 h3 hc x0 x1 xo)]
  unfold kernelRun1_B
  dsimp only
  sl_unfold_words
  rw [View.canon_unit_zero hz2]
  simp only [View.readAt_eq_ld, h1.read_unread, h2.read_unread, h3.read_unread, View.ld_unit_zero (S := S64x256) hz2,
    View.ld_unit_zero (S := S1x1) hz2]
  rfl

/-- The first point (the reset taken): the body stores the zero, reads it back, and leaves the final store's payload of
    the two arrays, their sixteen rows, and that zero. -/
theorem out_A (c : Dev nD) (i : grid1.Coords) (a1 : Memref sig .tc .vmem S64x256 .f32) (h1 : a1.IsWhole)
    (a2 : Memref sig .tc .vmem S64x256 .f32) (h2 : a2.IsWhole) (a3 : Memref sig .tc .vmem S1x1 .f32) (h3 : a3.IsWhole)
    (hc : cond1_0 i) (x0 x1 : Vec F S64x256 .f32) :
    out1_A_2 c i a1 h1 a2 h2 a3 h3 hc x0 x1
      = k1_pay1 (k1_pay4 (rows i x0) (rows i x1)) (k1_pay5 i x0 x1 (rows i x0)) (k1_pay2 (F := F)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S1x1) hz2, View.readCov_unit_zero (S := S1x1) _ hz2]
  simp only [View.readAt_eq_ld, h1.read_unread, h2.read_unread, View.ld_unit_zero (S := S64x256) hz2]
  rfl

end Cert.KernelIdeal.TailPieces

end
-- ==== Proof.TailValue.lean ====
/-
  The second region's arithmetic, over the extended reals: the final store's payload at the result's one entry, when the
  body runs at tile t on the two 64 × 256 arrays A and R and on their rows 16·t … 16·t + 15, is the running total it read
  plus  Σ_{k < 16} (Σ_{d < 256} (0 - log (pos / (neg + ε)))) · (1/256)  of the classes 16·t + k — the tile's part of the
  loss as the specification states it (`Cert.Spec.kpart`). The steps: the layout operations read at an index (a unit axis
  added in the middle, in front or at the end; a unit axis broadcast), the three sums over one axis as `Fin`-indexed sums,
  the off-diagonal mask (the 32-bit words of 16·t + k and of j differ exactly when the classes do, and the zero-extended
  bit converts to exactly 0 or 1), then the payloads one after the other.
-/
import proofs.«415252_j44135083934242_3_alg».proof.Proof.Spec
import proofs.«415252_j44135083934242_3_alg».proof.Proof.Gen.KernelIdeal.Skeleton
import Idealize.ShloMosaic.Lib.Pipeline.Value
import Idealize.ShloMosaic.Lib.ValueLayout
import Idealize.ShloMosaic.PureOps.Ideal.Laws

noncomputable section

open Idealize.ShloMosaic Idealize.ShloMosaic.ValueIdx

namespace Cert.KernelIdeal.TailValue

open Cert.KernelIdeal Cert.KernelIdeal.Gen Cert.Spec

/-! ## Layout operations of the body, read at an index -/

section Layout
variable {α : Type}

/-- [16, 256] viewed [16, 1, 256]: entry (k, ·, d) is entry (k, d). -/
theorem cast_mid (x : S16x256.Idx → α) (h : S16x256.ShapeCasts S16x1x256) (k : Fin 16) (u : Fin 1) (d : Fin 256) :
    shapeCast S16x1x256 x h (ix3 k u d) = x (ix2 k d) :=
  shapeCast_apply x h _ _ (by
    have hu : u.val = 0 := by omega
    rw [Shape.rowMajor_val_three, Shape.rowMajor_val_two]
    show k.val * 256 + d.val = (k.val * 1 + u.val) * 256 + d.val
    rw [hu]; omega)

/-- [64, 256] viewed [1, 64, 256]: entry (·, j, d) is entry (j, d). -/
theorem cast_lead (x : S64x256.Idx → α) (h : S64x256.ShapeCasts S1x64x256) (u : Fin 1) (j : Fin 64) (d : Fin 256) :
    shapeCast S1x64x256 x h (ix3 u j d) = x (ix2 j d) :=
  shapeCast_ab_1ab_apply x h u j d

/-- [16, 64] viewed [16, 64, 1]: entry (k, j, ·) is entry (k, j). -/
theorem cast_last (x : S16x64.Idx → α) (h : S16x64.ShapeCasts S16x64x1) (k : Fin 16) (j : Fin 64) (u : Fin 1) :
    shapeCast S16x64x1 x h (ix3 k j u) = x (ix2 k j) :=
  shapeCast_apply x h _ _ (by
    have hu : u.val = 0 := by omega
    rw [Shape.rowMajor_val_three, Shape.rowMajor_val_two]
    show k.val * 64 + j.val = (k.val * 64 + j.val) * 1 + u.val
    rw [hu]; omega)

/-- [16] viewed [16, 1]: entry (k, ·) is entry k. -/
theorem cast_col (x : S16.Idx → α) (h : S16.ShapeCasts S16x1) (k : Fin 16) (u : Fin 1) :
    shapeCast S16x1 x h (ix2 k u) = x (ix1 k) :=
  shapeCast_apply x h _ _ (by
    have hu : u.val = 0 := by omega
    rw [Shape.rowMajor_val_two, Shape.rowMajor_val_one]
    show k.val = k.val * 1 + u.val
    rw [hu]; omega)

/-- [1] viewed [1, 1]. -/
theorem cast_one (x : S1.Idx → α) (h : S1.ShapeCasts S1x1) (u v : Fin 1) :
    shapeCast S1x1 x h (ix2 u v) = x (ix1 v) :=
  shapeCast_a_1a_apply x h u v

/-- [16, 1, 256] broadcast to [16, 64, 256] does not depend on the middle coordinate. -/
theorem bc_mid (x : S16x1x256.Idx → α) (h : S16x1x256.Broadcasts S16x64x256) (k : Fin 16) (j : Fin 64) (d : Fin 256) :
    broadcastTo S16x64x256 x h (ix3 k j d) = x (ix3 k (0 : Fin 1) d) := by
  refine broadcastTo_apply x h (ix3 k j d) (ix3 k (0 : Fin 1) d) fun ax => ?_
  match ax with
  | ⟨0, _⟩ => rfl
  | ⟨1, _⟩ => rfl
  | ⟨2, _⟩ => rfl

/-- [1, 64, 256] broadcast to [16, 64, 256] does not depend on the first coordinate. -/
theorem bc_lead (x : S1x64x256.Idx → α) (h : S1x64x256.Broadcasts S16x64x256) (k : Fin 16) (j : Fin 64) (d : Fin 256) :
    broadcastTo S16x64x256 x h (ix3 k j d) = x (ix3 (0 : Fin 1) j d) := by
  refine broadcastTo_apply x h (ix3 k j d) (ix3 (0 : Fin 1) j d) fun ax => ?_
  match ax with
  | ⟨0, _⟩ => rfl
  | ⟨1, _⟩ => rfl
  | ⟨2, _⟩ => rfl

/-- [16, 64, 1] broadcast to [16, 64, 256] does not depend on the last coordinate. -/
theorem bc_last (x : S16x64x1.Idx → α) (h : S16x64x1.Broadcasts S16x64x256) (k : Fin 16) (j : Fin 64) (d : Fin 256) :
    broadcastTo S16x64x256 x h (ix3 k j d) = x (ix3 k j (0 : Fin 1)) := by
  refine broadcastTo_apply x h (ix3 k j d) (ix3 k j (0 : Fin 1)) fun ax => ?_
  match ax with
  | ⟨0, _⟩ => rfl
  | ⟨1, _⟩ => rfl
  | ⟨2, _⟩ => rfl

end Layout

/-! ## The three sums over one axis -/

/-- The sum over the middle axis of a [16, 64, 256] vector, at (k, d): Σ_j of its entries (k, j, d). -/
theorem red_mid (src : FVec Ideal S16x64x256 .f32) (h : S16x64x256.Reduces [1] S16x256) (hφ : FKind.Formats .f32)
    (hacc : (0x00000000#32 : BitVec (FTy.bits .f32)) = FKind.add.neutral .f32 hφ) (k : Fin 16) (d : Fin 256) :
    multiReduction .add [1] S16x256 src 0x00000000#32 h hφ hacc (ix2 k d) = ∑ j : Fin 64, src (ix3 k j d) :=
  (Ideal.multiReduction_add_single src _ h hφ hacc (ix2 k d)).trans
    (Finset.sum_congr rfl fun j _ => congrArg src (funext fun a => by
      match a with
      | ⟨0, _⟩ => exact Fin.ext rfl
      | ⟨1, _⟩ => exact Fin.ext rfl
      | ⟨2, _⟩ => exact Fin.ext rfl))

/-- The sum over the columns of a [16, 256] vector, at k: Σ_d of its entries (k, d). -/
theorem red_row (src : FVec Ideal S16x256 .f32) (h : S16x256.Reduces [1] S16) (hφ : FKind.Formats .f32)
    (hacc : (0x00000000#32 : BitVec (FTy.bits .f32)) = FKind.add.neutral .f32 hφ) (k : Fin 16) :
    multiReduction .add [1] S16 src 0x00000000#32 h hφ hacc (ix1 k) = ∑ d : Fin 256, src (ix2 k d) :=
  (Ideal.multiReduction_add_single src _ h hφ hacc (ix1 k)).trans
    (Finset.sum_congr rfl fun j _ => congrArg src (funext fun a => by
      match a with
      | ⟨0, _⟩ => exact Fin.ext rfl
      | ⟨1, _⟩ => exact Fin.ext rfl))

/-- The sum over the rows of a [16, 1] vector: Σ_k of its entries (k, ·). -/
theorem red_col (src : FVec Ideal S16x1 .f32) (h : S16x1.Reduces [0] S1) (hφ : FKind.Formats .f32)
    (hacc : (0x00000000#32 : BitVec (FTy.bits .f32)) = FKind.add.neutral .f32 hφ) (u : Fin 1) :
    multiReduction .add [0] S1 src 0x00000000#32 h hφ hacc (ix1 u) = ∑ k : Fin 16, src (ix2 k u) :=
  (Ideal.multiReduction_add_single src _ h hφ hacc (ix1 u)).trans
    (Finset.sum_congr rfl fun j _ => congrArg src (funext fun a => by
      match a with
      | ⟨0, _⟩ => exact Fin.ext rfl
      | ⟨1, _⟩ => exact Fin.ext rfl))

/-! ## Pointwise operations at an index, and the mask -/

/-- The exponential and the logarithm act entry by entry. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-- The words of 16·t + k and of j, compared for inequality and zero-extended: 0 when class 16·t + k is j, else 1
    (no wrap-around: t < 4, k < 16, j < 64). -/
theorem mask_word : ∀ (t : Fin 4) (k : Fin 16) (j : Fin 64),
    (IntOp.cmpi .ne (IntOp.addi (Scalar.muli (BitVec.ofNat 32 t.val) 16#32) (BitVec.ofNat 32 k.val)) (BitVec.ofNat 32 j.val)).setWidth 32
      = if cls t k = j then 0#32 else 1#32 := by decide +kernel

/-- The mask entry (k, j) at tile t, converted to a float: 0 on the diagonal, 1 off it. -/
theorem mask_val (i : grid1.Coords) (t : Fin 4) (hi : (i 0).val = t.val) (h0 : S16x64.Iotas .tc 32 [0]) (h1 : S16x64.Iotas .tc 32 [1])
    (hlt : 1 < 32) (k : Fin 16) (j : Fin 64) :
    (sitofp .f32 (extui 32 (cmpi .ne (addi (broadcast S16x64 (Scalar.muli (BitVec.ofNat 32 (i 0).val) 16#32))
      (iota .tc S16x64 32 [0] h0)) (iota .tc S16x64 32 [1] h1)) hlt) : FVec Ideal S16x64 .f32) (ix2 k j) = offDiag (cls t k) j := by
  show ((((IntOp.cmpi .ne (IntOp.addi (Scalar.muli (BitVec.ofNat 32 (i 0).val) 16#32) (iota .tc S16x64 32 [0] h0 (ix2 k j)))
    (iota .tc S16x64 32 [1] h1 (ix2 k j))).setWidth 32).toInt : ℝ) : EReal) = _
  rw [iota_single_apply, iota_single_apply, hi]
  show ((((IntOp.cmpi .ne (IntOp.addi (Scalar.muli (BitVec.ofNat 32 t.val) 16#32) (BitVec.ofNat 32 k.val))
    (BitVec.ofNat 32 j.val)).setWidth 32).toInt : ℝ) : EReal) = _
  rw [mask_word]
  unfold offDiag
  split
  · simp
  · simp

/-! ## The payloads -/

/-- The positive term: exp (A_k,d · R_k,d · 2) over the tile's rows. -/
theorem pay4_apply (ak rk : Vec Ideal S16x256 .f32) (k : Fin 16) (d : Fin 256) :
    k1_pay4 (F := Ideal) ak rk (ix2 k d) = Ideal.exp (ak (ix2 k d) * rk (ix2 k d) * two) := by
  simp only [k1_pay4, k1_pay3, shapeCast_self]
  rfl

/-- The masked pair terms: (exp (A_k,d · A_j,d · 2) + exp (A_k,d · R_j,d · 2)) · [class of k ≠ j]. -/
theorem pay5_apply (i : grid1.Coords) (t : Fin 4) (hi : (i 0).val = t.val) (a r : Vec Ideal S64x256 .f32) (ak : Vec Ideal S16x256 .f32)
    (k : Fin 16) (j : Fin 64) (d : Fin 256) :
    k1_pay5 (F := Ideal) i a r ak (ix3 k j d)
      = (Ideal.exp (ak (ix2 k d) * a (ix2 j d) * two) + Ideal.exp (ak (ix2 k d) * r (ix2 j d) * two)) * offDiag (cls t k) j := by
  simp only [k1_pay5, k1_pay3, shapeCast_self]
  simp only [mulf_apply, addf_apply, exp_apply, broadcast_apply, bc_mid, bc_lead, bc_last, cast_mid, cast_lead, cast_last,
    mask_val i t hi]
  rfl

/-- The final store's payload at the result's entry, over any positive-term and pair-term vectors. -/
theorem pay1_apply (v18 : FVec Ideal S16x256 .f32) (v44 : FVec Ideal S16x64x256 .f32) (xo : Vec Ideal S1x1 .f32) :
    k1_pay1 (F := Ideal) v18 v44 xo (ix2 0 0)
      = xo (ix2 0 0) + ∑ k : Fin 16, (∑ d : Fin 256,
          (0 - Ideal.log (Ideal.div (v18 (ix2 k d)) ((∑ j : Fin 64, v44 (ix3 k j d)) + c126 * v18 (ix2 k d) + eps)))) * inv256 := by
  simp only [k1_pay1, shapeCast_self]
  rw [addf_apply, cast_one]
  refine congrArg (xo (ix2 0 0) + ·) ?_
  refine (red_col _ _ _ _ 0).trans (Finset.sum_congr rfl fun k _ => ?_)
  rw [mulf_apply, cast_col]
  refine congrArg₂ (· * ·) ?_ rfl
  refine (red_row _ _ _ _ k).trans (Finset.sum_congr rfl fun d _ => ?_)
  have hM := red_mid v44 reduces_S16x64x256_S16x256 (.inl rfl) rfl k d
  rw [subf_apply, log_apply, divf_apply, addf_apply, addf_apply, mulf_apply, hM]
  show Ideal.ofBits .f32 0x00000000#32
      - Ideal.log (Ideal.div (v18 (ix2 k d)) ((∑ j : Fin 64, v44 (ix3 k j d)) + c126 * v18 (ix2 k d) + eps)) = _
  rw [Ideal.ofBits_zero_f32]

/-- The tile's step: the running total read, plus the tile's part of the loss. -/
theorem tile_apply (i : grid1.Coords) (t : Fin 4) (hi : (i 0).val = t.val) (a r : Vec Ideal S64x256 .f32)
    (ak rk : Vec Ideal S16x256 .f32) (hak : ∀ k d, ak (ix2 k d) = a (ix2 (cls t k) d))
    (hrk : ∀ k d, rk (ix2 k d) = r (ix2 (cls t k) d)) (xo : Vec Ideal S1x1 .f32) :
    k1_pay1 (F := Ideal) (k1_pay4 ak rk) (k1_pay5 i a r ak) xo (ix2 0 0) = xo (ix2 0 0) + kpart a r t := by
  rw [pay1_apply]
  refine congrArg (xo (ix2 0 0) + ·) ?_
  unfold kpart
  refine Finset.sum_congr rfl fun k _ => congrArg (· * inv256) (Finset.sum_congr rfl fun d _ => ?_)
  unfold kterm kneg kpos kpair
  rw [pay4_apply, hak, hrk]
  simp only [pay5_apply i t hi, hak]

end Cert.KernelIdeal.TailValue

end
-- ==== Proof.TailRegion.lean ====
/-
  The second region: what its one-element result array holds when it ends, as a function of the two 64 × 256 arrays it was
  entered with. Grid point t takes classes 16·t … 16·t + 15, computes for each of them and each column the term
  0 - log (pos / (neg + ε)) of the loss, sums a class's terms over the columns, scales by 1/256, sums the sixteen
  classes, and adds that to the result, which the first point starts from zero; the result is written back after the
  fourth point.

  Each input window's block is its whole array at every point; the rows the body loads a second time are rows
  16·t … 16·t + 15 of it. So the first point leaves 0 + (tile 0's part), each later point what the point before left plus
  its tile's part, and the one write-back, after point 3, writes the whole one-element array.
-/
import proofs.«415252_j44135083934242_3_alg».proof.Proof.Spec
import proofs.«415252_j44135083934242_3_alg».proof.Proof.Gen.KernelIdeal.Frame
import proofs.«415252_j44135083934242_3_alg».proof.Proof.TailPieces
import proofs.«415252_j44135083934242_3_alg».proof.Proof.TailValue
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.TailRegion

open Cert.KernelIdeal Cert.KernelIdeal.Gen Cert.Spec

variable (V : (c : Dev nD) → (b : Ref sig .tc) → Buf (Elt Ideal) ((c : Thread nD τ).loc b))

/-! ## The arrays and the blocks, at their literal types -/

/-- The first array (A) as the region finds it. -/
abbrev arrA (c : Dev nD) : Vec Ideal S64x256 .f32 := V c main_v22
/-- The second array (R) as the region finds it. -/
abbrev arrR (c : Dev nD) : Vec Ideal S64x256 .f32 := V c main_v30
/-- Window 0's block at point `t`. -/
abbrev blkA (c : Dev nD) (t : Fin cfg1.N) : Vec Ideal S64x256 .f32 := iblk1 V c 0 t
/-- Window 1's block at point `t`. -/
abbrev blkR (c : Dev nD) (t : Fin cfg1.N) : Vec Ideal S64x256 .f32 := iblk1 V c 1 t

/-- Window 0's block is the whole of A at every point (block index (0, 0), block size the array's). -/
theorem blkA_eq (c : Dev nD) (t : Fin cfg1.N) : blkA V c t = arrA V c := by
  have hi : win1_0.index t 0 = 0 ∧ win1_0.index t 1 = 0 := by
    rcases fin_N1 t with rfl | rfl | rfl | rfl <;> decide
  funext j
  show iblk1 V c 0 t j = V c main_v22 j
  unfold iblk1
  rw [View.read_apply]
  show V c main_v22 _ = V c main_v22 j
  congr 1
  funext a
  apply Fin.ext
  match a with
  | ⟨0, _⟩ => show win1_0.index t 0 * 64 + 1 * (j 0).val = (j 0).val; rw [hi.1]; omega
  | ⟨1, _⟩ => show win1_0.index t 1 * 256 + 1 * (j 1).val = (j 1).val; rw [hi.2]; omega

/-- Window 1's block is the whole of R at every point. -/
theorem blkR_eq (c : Dev nD) (t : Fin cfg1.N) : blkR V c t = arrR V c := by
  have hi : win1_1.index t 0 = 0 ∧ win1_1.index t 1 = 0 := by
    rcases fin_N1 t with rfl | rfl | rfl | rfl <;> decide
  funext j
  show iblk1 V c 1 t j = V c main_v30 j
  unfold iblk1
  rw [View.read_apply]
  show V c main_v30 _ = V c main_v30 j
  congr 1
  funext a
  apply Fin.ext
  match a with
  | ⟨0, _⟩ => show win1_1.index t 0 * 64 + 1 * (j 0).val = (j 0).val; rw [hi.1]; omega
  | ⟨1, _⟩ => show win1_1.index t 1 * 256 + 1 * (j 1).val = (j 1).val; rw [hi.2]; omega

/-- The rows the body loads through its computed offset are rows 16·t … 16·t + 15: row k of them is row 16·t + k. -/
theorem rows_apply (i : grid1.Coords) (t : Fin 4) (hi : (i 0).val = t.val) (x : Vec Ideal S64x256 .f32) (k : Fin 16) (d : Fin 256) :
    TailPieces.rows i x (ix2 k d) = x (ix2 (cls t k) d) := by
  show x _ = x _
  congr 1
  funext a
  apply Fin.ext
  match a with
  | ⟨0, _⟩ =>
    show k1_off1 i 0 + 1 * k.val = 16 * t.val + k.val
    rw [k1_off1_eq i]
    show 16 * (i 0).val + 1 * k.val = _
    rw [hi]; omega
  | ⟨1, _⟩ =>
    show k1_off1 i 1 + 1 * d.val = d.val
    rw [k1_off1_eq i]
    show 0 + 1 * d.val = _
    omega

/-- A point's one grid coordinate is its position. -/
theorem coords_val : ∀ t : Fin cfg1.N, ((grid1.coords t) 0).val = t.val :=
  (by decide +kernel : ∀ t : Fin grid1.N, ((grid1.coords t) 0).val = t.val)

/-! ## What each point leaves in the result's entry -/

/-- The first point: zero plus its tile's part. -/
theorem step_A (c : Dev nD) (t : Fin cfg1.N) (tt : Fin 4) (htt : t.val = tt.val) (h0 : t.val % 4 = 0) :
    outsAt1 V c t.val t.isLt (ix2 0 0) = 0 + kpart (arrA V c) (arrR V c) tt := by
  rw [outsAt1_A V c t h0]
  refine (congrFun (TailPieces.out_A (F := Ideal) c (grid1.coords t) (ms1_0 t) (hs1_0 t) (ms1_1 t) (hs1_1 t) (ms1_2 t) (hs1_2 t)
    ((hcond1_0 t).mpr h0) (blkA V c t) (blkR V c t)) (ix2 0 0)).trans ?_
  rw [blkA_eq V c t, blkR_eq V c t]
  refine (TailValue.tile_apply (grid1.coords t) tt ((coords_val t).trans htt) (arrA V c) (arrR V c)
    (TailPieces.rows (grid1.coords t) (arrA V c)) (TailPieces.rows (grid1.coords t) (arrR V c))
    (fun k d => rows_apply (grid1.coords t) tt ((coords_val t).trans htt) (arrA V c) k d)
    (fun k d => rows_apply (grid1.coords t) tt ((coords_val t).trans htt) (arrR V c) k d) (k1_pay2 (F := Ideal))).trans ?_
  refine congrArg (· + kpart (arrA V c) (arrR V c) tt) ?_
  show Ideal.ofBits .f32 0x00000000#32 = 0
  exact Ideal.ofBits_zero_f32

/-- A later point: what the point before left, plus its tile's part. -/
theorem step_B (c : Dev nD) (t : Fin cfg1.N) (tt : Fin 4) (htt : t.val = tt.val) (h0 : ¬t.val % 4 = 0) :
    outsAt1 V c t.val t.isLt (ix2 0 0)
      = outsAt1 V c (t.val - 1) (Nat.lt_of_le_of_lt (Nat.sub_le _ _) t.isLt) (ix2 0 0) + kpart (arrA V c) (arrR V c) tt := by
  rw [outsAt1_B V c t h0]
  refine (congrFun (TailPieces.out_B (F := Ideal) c (grid1.coords t) (ms1_0 t) (hs1_0 t) (ms1_1 t) (hs1_1 t) (ms1_2 t) (hs1_2 t)
    (fun h => h0 ((hcond1_0 t).mp h)) (blkA V c t) (blkR V c t)
    (outsAt1 V c (t.val - 1) (Nat.lt_of_le_of_lt (Nat.sub_le _ _) t.isLt))) (ix2 0 0)).trans ?_
  rw [blkA_eq V c t, blkR_eq V c t]
  exact TailValue.tile_apply (grid1.coords t) tt ((coords_val t).trans htt) (arrA V c) (arrR V c)
    (TailPieces.rows (grid1.coords t) (arrA V c)) (TailPieces.rows (grid1.coords t) (arrR V c))
    (fun k d => rows_apply (grid1.coords t) tt ((coords_val t).trans htt) (arrA V c) k d)
    (fun k d => rows_apply (grid1.coords t) tt ((coords_val t).trans htt) (arrR V c) k d)
    (outsAt1 V c (t.val - 1) (Nat.lt_of_le_of_lt (Nat.sub_le _ _) t.isLt))

/-! ## The result array -/

/-- What the fourth point leaves, as contents of the result array (its one block is the array). -/
abbrev result (c : Dev nD) : Buf (Elt Ideal) ((c : Thread nD τ).loc main_v31) :=
  outsAt1 V c 3 (by rw [show cfg1.N = 4 from N_1]; decide)

/-- The one write-back, after point 3, writes it: block (0, 0) of the 1 × 1 array read through zero offsets is the array. -/
theorem flushed_eq (c : Dev nD) (t : Fin cfg1.N) (hf : (cfg1.win 2).flush t = true) :
    (dat1 V c).flushed 2 t = ((cfg1.win 2).blk t).view.read (Elt Ideal) (result V c) := by
  have hN : cfg1.N = 4 := N_1
  have h3 : t.val = 3 := by have := (flush1_2 t).mp hf; have := t.isLt; omega
  obtain rfl : t = t1_3 := Fin.ext h3
  show (cfg1.win 2).cut (grid1.coords t1_3) ((dat1 V c).after 2 t1_3) = _
  rw [after1_2]
  have hz' : (fun a => win1_2.index t1_3 a * main_v31.ty.shape.size a) = fun _ => 0 := funext fun a => by fin_cases a <;> decide
  exact (Memref.read_access_unit_zero (Elt Ideal) main_v31 hz' (fun a => by rw [congrFun hz' a]; simp) (result V c)).symm

/-- So the result array ends holding what the fourth point left: that point's block covers its one entry. -/
theorem final (c : Dev nD) : (dat1 V c).arrAt 2 cfg1.N = result V c :=
  (dat1 V c).arrAt_eq_of_cover 2 (result V c) (flushed_eq V c) fun i =>
    ⟨t1_3, (flush1_2 t1_3).mpr rfl, by
      show i ∈ ((View.whole main_v31).slice (win1_2.rect t1_3)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index t1_3 0 * win1_2.size 0 ≤ (i 0 : Nat)
          ∧ (i 0 : Nat) < win1_2.index t1_3 0 * win1_2.size 0 + win1_2.xsize (grid1.coords t1_3) 0
        rw [show win1_2.index t1_3 0 * win1_2.size 0 = 0 from by decide +kernel,
          show win1_2.xsize (grid1.coords t1_3) 0 = 1 from by decide +kernel]; omega
      | ⟨1, _⟩ =>
        show win1_2.index t1_3 1 * win1_2.size 1 ≤ (i 1 : Nat)
          ∧ (i 1 : Nat) < win1_2.index t1_3 1 * win1_2.size 1 + win1_2.xsize (grid1.coords t1_3) 1
        rw [show win1_2.index t1_3 1 * win1_2.size 1 = 0 from by decide +kernel,
          show win1_2.xsize (grid1.coords t1_3) 1 = 1 from by decide +kernel]; omega⟩

/-- The result array's one entry ends at the running total of the four tiles. -/
theorem total (c : Dev nD) :
    ((dat1 (F := Ideal) V c).arrAt 2 cfg1.N : Buf (Elt Ideal) ((c : Thread nD τ).loc main_v31)) (ix2 0 0)
      = kloss (V c main_v22) (V c main_v30) := by
  rw [final V c]
  show outsAt1 V c t1_3.val t1_3.isLt (ix2 0 0) = _
  rw [step_B V c t1_3 3 rfl (by decide)]
  show outsAt1 V c t1_2.val t1_2.isLt (ix2 0 0) + _ = _
  rw [step_B V c t1_2 2 rfl (by decide)]
  show outsAt1 V c t1_1.val t1_1.isLt (ix2 0 0) + _ + _ = _
  rw [step_B V c t1_1 1 rfl (by decide)]
  show outsAt1 V c t1_0.val t1_0.isLt (ix2 0 0) + _ + _ + _ = _
  rw [step_A V c t1_0 0 rfl (by decide)]
  rfl

end Cert.KernelIdeal.TailRegion

end
-- ==== Proof.KernelValue.lean ====
/-
  The kernel's host side. Before the first region the four arguments are reshaped into two halves; between the regions
  the per-half class sums and counts are summed over the halves, divided (the class means) and each row normalised;
  after the second region its one-element result is reshaped to a scalar. Read at an index, with the two regions'
  results taken from their own modules, the kernel's result is the loss of the normalised class means of its arguments.
-/
import proofs.«415252_j44135083934242_3_alg».proof.Proof.Spec
import proofs.«415252_j44135083934242_3_alg».proof.Proof.HeadAlgebra
import proofs.«415252_j44135083934242_3_alg».proof.Proof.TailAlgebra
import proofs.«415252_j44135083934242_3_alg».proof.Proof.ProtoRegion
import proofs.«415252_j44135083934242_3_alg».proof.Proof.TailRegion
import proofs.«415252_j44135083934242_3_alg».proof.Proof.Gen.KernelIdeal.Frame
import Idealize.ShloMosaic.Lib.Pipeline.Value
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Spec

/-! ## The stretch between the regions, as two functions -/

/-- The class means as the stretch computes them from a per-half sum array and a per-half count array: both summed over the
    halves, the counts turned into a column and spread over the columns, the quotient. -/
def protoK (S : FVec Ideal S2x64x256 .f32) (C : FVec Ideal S2x1x64 .f32) : FVec Ideal S64x256 .f32 :=
  Host.divf (Host.reduceAdd S (constant (F := Ideal) S_ .f32 0x00000000#32) reducesTo_S2x64x256_S64x256_d0 h_S_)
    (broadcastInDim S64x256 ![0, 1] bcast_S64x1_S64x256_0_1
      (transpose S64x1 [1, 0]
        (Host.reduceAdd C (constant (F := Ideal) S_ .f32 0x00000000#32) reducesTo_S2x1x64_S1x64_d0 h_S_)
        transposes_S1x64_S64x1_1_0))

/-- A matrix with each row divided by the larger of its norm and the tiny constant, as the stretch computes it. -/
def l2nK (P : FVec Ideal S64x256 .f32) : FVec Ideal S64x256 .f32 :=
  Host.divf P
    (broadcastInDim S64x256 ![0, 1] bcast_S64x1_S64x256_0_1
      (maximumf
        (Host.sqrt
          (broadcastInDim S64x1 ![0] bcast_S64_S64x1_0
            (Host.reduceAdd (mulf P P) (constant (F := Ideal) S_ .f32 0x00000000#32) reducesTo_S64x256_S64_d1 h_S_)))
        (broadcastInDim S64x1 ![] bcast_S_S64x1 (constant (F := Ideal) S_ .f32 0x2B8CBCCC#32))))

/-! ## The stretch between the regions, read at an index -/

/-- A [2, 64, 256] array summed over its halves from zero, at (k, d): the two halves' entries. -/
theorem reduce_halves (S : FVec Ideal S2x64x256 .f32) (j : S64x256.Idx) :
    Host.reduceAdd S (constant (F := Ideal) S_ .f32 0x00000000#32) reducesTo_S2x64x256_S64x256_d0 h_S_ j
      = ∑ o : Fin 2, S (ix3 o (j 0) (j 1)) := by
  show Ideal.hostReduceAdd reducesTo_S2x64x256_S64x256_d0 S (Ideal.ofBits .f32 0x00000000#32) j = _
  rw [Ideal.hostReduceAdd_single _ (by decide : S2x64x256.Reduces [0] S64x256), Ideal.ofBits_zero_f32, zero_add]
  refine Finset.sum_congr rfl fun o _ => congrArg S (funext fun a => ?_)
  match a with
  | ⟨0, _⟩ => rfl
  | ⟨1, _⟩ => rfl
  | ⟨2, _⟩ => rfl

/-- A [2, 1, 64] array summed over its halves from zero, at (0, k). -/
theorem reduce_halves_cnt (C : FVec Ideal S2x1x64 .f32) (k : Fin 64) :
    Host.reduceAdd C (constant (F := Ideal) S_ .f32 0x00000000#32) reducesTo_S2x1x64_S1x64_d0 h_S_ (ix2 0 k)
      = ∑ o : Fin 2, C (ix3 o 0 k) := by
  show Ideal.hostReduceAdd reducesTo_S2x1x64_S1x64_d0 C (Ideal.ofBits .f32 0x00000000#32) (ix2 0 k) = _
  rw [Ideal.hostReduceAdd_single _ (by decide : S2x1x64.Reduces [0] S1x64), Ideal.ofBits_zero_f32, zero_add]
  refine Finset.sum_congr rfl fun o _ => congrArg C (funext fun a => ?_)
  match a with
  | ⟨0, _⟩ => rfl
  | ⟨1, _⟩ => rfl
  | ⟨2, _⟩ => rfl

/-- The class means at (k, d): the halves' sums over the halves' counts. -/
theorem protoK_apply (S : FVec Ideal S2x64x256 .f32) (C : FVec Ideal S2x1x64 .f32) (j : S64x256.Idx) :
    protoK S C j = Ideal.div (∑ o : Fin 2, S (ix3 o (j 0) (j 1))) (∑ o : Fin 2, C (ix3 o 0 (j 0))) := by
  unfold protoK
  show Ideal.div (Host.reduceAdd S (constant (F := Ideal) S_ .f32 0x00000000#32) reducesTo_S2x64x256_S64x256_d0 h_S_ j)
    (broadcastInDim S64x256 ![0, 1] bcast_S64x1_S64x256_0_1 (transpose S64x1 [1, 0]
      (Host.reduceAdd C (constant (F := Ideal) S_ .f32 0x00000000#32) reducesTo_S2x1x64_S1x64_d0 h_S_) transposes_S1x64_S64x1_1_0) j) = _
  rw [reduce_halves,
    broadcastInDim_apply _ bcast_S64x1_S64x256_0_1 _ j (ix2 (j 0) 0) (fun a => match a with
      | ⟨0, _⟩ => by show (j 0).val = if (64 : Nat) = 1 then 0 else (j 0).val; rw [if_neg (by decide)]
      | ⟨1, _⟩ => by show (0 : Nat) = if (1 : Nat) = 1 then 0 else (j 1).val; rw [if_pos rfl]),
    transpose_apply [1, 0] _ transposes_S1x64_S64x1_1_0 (ix2 (j 0) 0) (ix2 0 (j 0)) (fun b => match b with
      | ⟨0, _⟩ => rfl
      | ⟨1, _⟩ => rfl)]
  exact congrArg (Ideal.div _) (reduce_halves_cnt C (j 0))

/-- A matrix's squares summed along row k, from zero. -/
theorem row_sumsq (P : FVec Ideal S64x256 .f32) (k : Fin 64) :
    Host.reduceAdd (mulf P P) (constant (F := Ideal) S_ .f32 0x00000000#32) reducesTo_S64x256_S64_d1 h_S_ (ix1 k)
      = ∑ d : Fin 256, P (ix2 k d) * P (ix2 k d) := by
  show Ideal.hostReduceAdd reducesTo_S64x256_S64_d1 (mulf P P) (Ideal.ofBits .f32 0x00000000#32) (ix1 k) = _
  rw [Ideal.hostReduceAdd_single _ (by decide : S64x256.Reduces [1] S64), Ideal.ofBits_zero_f32, zero_add]
  refine Finset.sum_congr rfl fun d _ => ?_
  have e : (by decide : S64x256.Reduces [1] S64).lift (ix1 k) d = ix2 k d := funext fun a => match a with
    | ⟨0, _⟩ => rfl
    | ⟨1, _⟩ => rfl
  rw [e]
  rfl

/-- The row normalisation as the stretch computes it is the specification's. -/
theorem l2nK_eq (P : FVec Ideal S64x256 .f32) : l2nK P = l2n P := by
  funext j
  unfold l2nK l2n
  show Ideal.div (P j) (broadcastInDim S64x256 ![0, 1] bcast_S64x1_S64x256_0_1
      (maximumf
        (Host.sqrt
          (broadcastInDim S64x1 ![0] bcast_S64_S64x1_0
            (Host.reduceAdd (mulf P P) (constant (F := Ideal) S_ .f32 0x00000000#32) reducesTo_S64x256_S64_d1 h_S_)))
        (broadcastInDim S64x1 ![] bcast_S_S64x1 (constant (F := Ideal) S_ .f32 0x2B8CBCCC#32))) j) = _
  rw [broadcastInDim_apply _ bcast_S64x1_S64x256_0_1 _ j (ix2 (j 0) 0) (fun a => match a with
      | ⟨0, _⟩ => by show (j 0).val = if (64 : Nat) = 1 then 0 else (j 0).val; rw [if_neg (by decide)]
      | ⟨1, _⟩ => by show (0 : Nat) = if (1 : Nat) = 1 then 0 else (j 1).val; rw [if_pos rfl])]
  show Ideal.div (P j) (max (Ideal.sqrt (broadcastInDim S64x1 ![0] bcast_S64_S64x1_0
            (Host.reduceAdd (mulf P P) (constant (F := Ideal) S_ .f32 0x00000000#32) reducesTo_S64x256_S64_d1 h_S_) (ix2 (j 0) 0)))
        (broadcastInDim S64x1 ![] bcast_S_S64x1 (constant (F := Ideal) S_ .f32 0x2B8CBCCC#32) (ix2 (j 0) 0))) = _
  rw [broadcastInDim_apply _ bcast_S64_S64x1_0 _ (ix2 (j 0) 0) (ix1 (j 0)) (fun a => match a with
      | ⟨0, _⟩ => by show (j 0).val = if (64 : Nat) = 1 then 0 else (j 0).val; rw [if_neg (by decide)]),
    broadcastInDim_apply _ bcast_S_S64x1 _ (ix2 (j 0) 0) ix0 (fun a => a.elim0)]
  exact congrArg (fun s => Ideal.div (P j) (max (Ideal.sqrt s) (Ideal.ofBits .f32 0x2B8CBCCC#32))) (row_sumsq P (j 0))

variable (m : (ℓ : Loc nD τ sig) → Buf (Elt Ideal) ℓ) (ρ : Dev nD → PrngReg)

/-- The second region's first operand is the normalised class means of the first region's first two results. -/
theorem V3_v22 (c : Dev nD) : V3 m ρ c main_v22
    = l2nK (protoK (W2 m ρ c (Proc.devRef .tc main_v4_0)) (W2 m ρ c (Proc.devRef .tc main_v4_1))) := by
  show StableHlo.after hostOps1 (W2 m ρ c) (Proc.devRef .tc main_v22) = _
  after_results
  rfl

/-- The second region's second operand is the normalised class means of the first region's last two results. -/
theorem V3_v30 (c : Dev nD) : V3 m ρ c main_v30
    = l2nK (protoK (W2 m ρ c (Proc.devRef .tc main_v4_2)) (W2 m ρ c (Proc.devRef .tc main_v4_3))) := by
  show StableHlo.after hostOps1 (W2 m ρ c) (Proc.devRef .tc main_v30) = _
  after_results
  rfl

/-! ## The stretch before the first region: the halves -/

theorem V1_v0 (c : Dev nD) : V1 m ρ c main_v0
    = shapeCast S2x50000x256 (m ((c : Thread nD τ).loc main_arg0)) shapeCasts_S100000x256_S2x50000x256 := by
  show StableHlo.after hostOps0 (W0 m ρ c) (Proc.devRef .tc main_v0) = _
  after_results
  rfl

theorem V1_v1 (c : Dev nD) : V1 m ρ c main_v1
    = shapeCast S2x50000x256 (m ((c : Thread nD τ).loc main_arg1)) shapeCasts_S100000x256_S2x50000x256 := by
  show StableHlo.after hostOps0 (W0 m ρ c) (Proc.devRef .tc main_v1) = _
  after_results
  rfl

theorem V1_v2 (c : Dev nD) : V1 m ρ c main_v2
    = shapeCast S2x50000x1 (m ((c : Thread nD τ).loc main_arg2)) shapeCasts_S100000_S2x50000x1 := by
  show StableHlo.after hostOps0 (W0 m ρ c) (Proc.devRef .tc main_v2) = _
  after_results
  rfl

theorem V1_v3 (c : Dev nD) : V1 m ρ c main_v3
    = shapeCast S2x50000x1 (m ((c : Thread nD τ).loc main_arg3)) shapeCasts_S100000_S2x50000x1 := by
  show StableHlo.after hostOps0 (W0 m ρ c) (Proc.devRef .tc main_v3) = _
  after_results
  rfl

/-- Row r of half o of the reshaped features is row 50000·o + r (the same row-major position). -/
theorem half_feat {α : Type} (x : S100000x256.Idx → α) (o : Fin 2) (r : Fin 50000) (d : Fin 256) :
    shapeCast S2x50000x256 x shapeCasts_S100000x256_S2x50000x256 (ix3 o r d) = x (ix2 (glue o r) d) :=
  shapeCast_apply x _ (ix3 o r d) (ix2 (glue o r) d) (by
    rw [Shape.rowMajor_val_two, Shape.rowMajor_val_three]
    show (50000 * o.val + r.val) * 256 + d.val = (o.val * 50000 + r.val) * 256 + d.val
    omega)

/-- Row r of half o of the reshaped labels is label 50000·o + r. -/
theorem half_lbl {α : Type} (l : S100000.Idx → α) (o : Fin 2) (r : Fin 50000) :
    shapeCast S2x50000x1 l shapeCasts_S100000_S2x50000x1 (ix3 o r 0) = l (ix1 (glue o r)) :=
  shapeCast_apply l _ (ix3 o r 0) (ix1 (glue o r)) (by
    rw [Shape.rowMajor_val_one, Shape.rowMajor_val_three]
    show 50000 * o.val + r.val = (o.val * 50000 + r.val) * 1 + 0
    omega)

/-! ## The class means the second region is entered with -/

theorem protoA_eq (c : Dev nD) :
    protoK (W2 m ρ c (Proc.devRef .tc main_v4_0)) (W2 m ρ c (Proc.devRef .tc main_v4_1))
      = proto (m ((c : Thread nD τ).loc main_arg0)) (m ((c : Thread nD τ).loc main_arg2)) := by
  funext j
  rw [protoK_apply]
  unfold proto
  have hX : ∀ (o : Fin 2) (r : Fin 50000) (d : Fin 256),
      V1 m ρ c main_v0 (ix3 o r d) = m ((c : Thread nD τ).loc main_arg0) (ix2 (glue o r) d) := fun o r d => by
    rw [V1_v0]; exact half_feat _ o r d
  have hL : ∀ (o : Fin 2) (r : Fin 50000),
      V1 m ρ c main_v2 (ix3 o r 0) = m ((c : Thread nD τ).loc main_arg2) (ix1 (glue o r)) := fun o r => by
    rw [V1_v2]; exact half_lbl _ o r
  rw [segSum_of_halves (m ((c : Thread nD τ).loc main_arg0)) (m ((c : Thread nD τ).loc main_arg2))
      (V1 m ρ c main_v0) (V1 m ρ c main_v2) hX hL (W2 m ρ c (Proc.devRef .tc main_v4_0))
      (fun o k d => (congrFun (W2_arr m ρ c 4) (ix3 o k d)).trans (ProtoRegion.sumA (V1 m ρ) c o k d)) j,
    segCnt_of_halves (m ((c : Thread nD τ).loc main_arg2)) (V1 m ρ c main_v2) hL (W2 m ρ c (Proc.devRef .tc main_v4_1))
      (fun o k => (congrFun (W2_arr m ρ c 5) (ix3 o 0 k)).trans (ProtoRegion.cntA (V1 m ρ) c o k)) (j 0)]

theorem protoR_eq (c : Dev nD) :
    protoK (W2 m ρ c (Proc.devRef .tc main_v4_2)) (W2 m ρ c (Proc.devRef .tc main_v4_3))
      = proto (m ((c : Thread nD τ).loc main_arg1)) (m ((c : Thread nD τ).loc main_arg3)) := by
  funext j
  rw [protoK_apply]
  unfold proto
  have hX : ∀ (o : Fin 2) (r : Fin 50000) (d : Fin 256),
      V1 m ρ c main_v1 (ix3 o r d) = m ((c : Thread nD τ).loc main_arg1) (ix2 (glue o r) d) := fun o r d => by
    rw [V1_v1]; exact half_feat _ o r d
  have hL : ∀ (o : Fin 2) (r : Fin 50000),
      V1 m ρ c main_v3 (ix3 o r 0) = m ((c : Thread nD τ).loc main_arg3) (ix1 (glue o r)) := fun o r => by
    rw [V1_v3]; exact half_lbl _ o r
  rw [segSum_of_halves (m ((c : Thread nD τ).loc main_arg1)) (m ((c : Thread nD τ).loc main_arg3))
      (V1 m ρ c main_v1) (V1 m ρ c main_v3) hX hL (W2 m ρ c (Proc.devRef .tc main_v4_2))
      (fun o k d => (congrFun (W2_arr m ρ c 6) (ix3 o k d)).trans (ProtoRegion.sumR (V1 m ρ) c o k d)) j,
    segCnt_of_halves (m ((c : Thread nD τ).loc main_arg3)) (V1 m ρ c main_v3) hL (W2 m ρ c (Proc.devRef .tc main_v4_3))
      (fun o k => (congrFun (W2_arr m ρ c 7) (ix3 o 0 k)).trans (ProtoRegion.cntR (V1 m ρ) c o k)) (j 0)]

/-! ## The result -/

/-- The kernel's result: the loss of the normalised class means of its arguments. -/
theorem result_eq (c : Dev nD) : W5 m ρ c (Proc.devRef .tc main_v32) ix0
    = loss (l2n (proto (m ((c : Thread nD τ).loc main_arg0)) (m ((c : Thread nD τ).loc main_arg2))))
        (l2n (proto (m ((c : Thread nD τ).loc main_arg1)) (m ((c : Thread nD τ).loc main_arg3)))) := by
  have h1 : W5 m ρ c (Proc.devRef .tc main_v32) ix0 = W4 m ρ c (Proc.devRef .tc main_v31) (ix2 0 0) := by
    show StableHlo.after hostOps2 (W4 m ρ c) (Proc.devRef .tc main_v32) ix0 = _
    after_results
    exact shapeCast_apply _ shapeCasts_S1x1_S_ ix0 (ix2 0 0) (by
      rw [Shape.rowMajor_val_two]
      have := (S_.rowMajor ix0).isLt
      show 0 * 1 + 0 = _
      have h : S_.numel = 1 := by decide
      omega)
  rw [h1, congrFun (W4_arr m ρ c 2) (ix2 0 0), TailRegion.total (V3 m ρ) c, kloss_eq_loss, V3_v22, V3_v30, l2nK_eq, l2nK_eq,
    protoA_eq, protoR_eq]

end Cert.KernelIdeal.KValue

end
-- ==== Proof.RefHead.lean ====
/-
  The reference's first half: its two accumulating scatters are the class sums and the class counts (an update row lands
  on the class whose number its label, read as a signed integer, is; a label that is no class's number lands nowhere),
  their quotient the class means, and the operations after it the normalisation of each row.

  The road. For each of the two scatter records the start of a window and the window coordinate are computed on each
  operand axis (`sc2_start0` … `sc1_window0`); from them the element an update lands on: update element `(r, d')` lands
  on `(k, d)` exactly when `d' = d` and the label of row `r`, read signed, is `k` (`sc2_result`), update element `r`
  of the ones lands on `k` exactly when the label of row `r`, read signed, is `k` (`sc1_result`). A 32-bit word read
  signed is `k < 64` exactly when it is the word of `k` (`toInt_eq_class`). So the sum over the update elements that
  land on an element is the sum over the rows of the 0/1 factor times the row's entry (`v2_at`, `v20_at`), resp. of
  the 0/1 factor (`v6_at`, `v24_at`); the quotient is read off the generated read lemmas (`protoA`, `protoR`), and so
  is the normalisation (`normA`, `normR`).
-/
import proofs.«415252_j44135083934242_3_alg».proof.Proof.Spec
import proofs.«415252_j44135083934242_3_alg».proof.Proof.Gen.ReferenceIdeal.Read
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.ReferenceIdeal.RefHead

open Cert.ReferenceIdeal Cert.ReferenceIdeal.Read Cert.Spec

/-! ## Where an update lands -/

/-- The scatter of 100000 rows of 256 numbers into 64 rows: one start index per row, the window one row wide. -/
abbrev sc2 := scatter_S64x256_S100000x1_S100000x256_1_0_0_1
/-- The scatter of 100000 numbers into 64: one start index per number, no window axis. -/
abbrev sc1 := scatter_S64_S100000x1_S100000_n_0_0_1

/-- On the row axis the window of update element `j` starts at the label of `j`'s row, read signed. -/
theorem sc2_start0 (j : S100000x256.Idx) (idx : IVec S100000x1 32) :
    sc2.start j idx 0 = (idx (ix2 (j 0) 0)).toInt := by
  unfold ScatterDims.start
  rw [dif_pos (by decide)]
  congr 2
  funext b
  match b with
  | ⟨0, _⟩ => rfl
  | ⟨1, _⟩ => rfl

/-- The column axis is not scattered along: the window starts at `0` there. -/
theorem sc2_start1 (j : S100000x256.Idx) (idx : IVec S100000x1 32) :
    sc2.start j idx 1 = 0 := by
  unfold ScatterDims.start
  rw [dif_neg (by decide)]

/-- The row axis is an inserted one: the window coordinate there is `0`. -/
theorem sc2_window0 (j : S100000x256.Idx) : sc2.window j 0 = 0 := by
  unfold ScatterDims.window
  rw [dif_neg (by decide)]

/-- On the column axis the window coordinate is the update element's column. -/
theorem sc2_window1 (j : S100000x256.Idx) : sc2.window j 1 = (j 1).val := by
  unfold ScatterDims.window
  rw [dif_pos (by decide)]
  rfl

/-- Update element `j` lands on `(k, d)` exactly when its column is `d` and its row's label, read signed, is `k`. -/
theorem sc2_result (j : S100000x256.Idx) (idx : IVec S100000x1 32) (k : Fin 64) (d : Fin 256) :
    sc2.resultIdx? j idx = some (ix2 k d) ↔ j 1 = d ∧ (idx (ix2 (j 0) 0)).toInt = (k.val : Int) := by
  unfold ScatterDims.resultIdx?
  have hk := k.isLt
  have hd := d.isLt
  have hj : (j 1).val < 256 := (j 1).isLt
  have s0 := sc2_start0 j idx
  have s1 := sc2_start1 j idx
  have w0 := sc2_window0 j
  have w1 := sc2_window1 j
  split
  · next h =>
    rw [Option.some.injEq]
    constructor
    · intro e
      have e0 : (sc2.start j idx 0 + sc2.window j 0).toNat = k.val := congrArg Fin.val (congrFun e 0)
      have e1 : (sc2.start j idx 1 + sc2.window j 1).toNat = d.val := congrArg Fin.val (congrFun e 1)
      have h0 := (h 0).1
      refine ⟨Fin.ext ?_, ?_⟩
      · show (j 1).val = d.val
        omega
      · omega
    · rintro ⟨e1, e0⟩
      have e1' : (j 1).val = d.val := congrArg Fin.val e1
      funext a
      match a with
      | ⟨0, _⟩ =>
        apply Fin.ext
        show (sc2.start j idx 0 + sc2.window j 0).toNat = k.val
        omega
      | ⟨1, _⟩ =>
        apply Fin.ext
        show (sc2.start j idx 1 + sc2.window j 1).toNat = d.val
        omega
  · next h =>
    constructor
    · intro e; cases e
    · rintro ⟨e1, e0⟩
      have e1' : (j 1).val = d.val := congrArg Fin.val e1
      exfalso; apply h
      intro a
      match a with
      | ⟨0, _⟩ =>
        show 0 ≤ sc2.start j idx 0 + sc2.window j 0 ∧ sc2.start j idx 0 + sc2.window j 0 < ((64 : Nat) : Int)
        omega
      | ⟨1, _⟩ =>
        show 0 ≤ sc2.start j idx 1 + sc2.window j 1 ∧ sc2.start j idx 1 + sc2.window j 1 < ((256 : Nat) : Int)
        omega

/-- The same at explicit coordinates. -/
theorem sc2_result' (r : Fin 100000) (d' : Fin 256) (idx : IVec S100000x1 32) (k : Fin 64) (d : Fin 256) :
    sc2.resultIdx? (ix2 r d') idx = some (ix2 k d) ↔ d' = d ∧ (idx (ix2 r 0)).toInt = (k.val : Int) :=
  sc2_result (ix2 r d') idx k d

/-- On its one axis the window of update element `j` of the ones starts at the label of row `j`, read signed. -/
theorem sc1_start0 (j : S100000.Idx) (idx : IVec S100000x1 32) :
    sc1.start j idx 0 = (idx (ix2 (j 0) 0)).toInt := by
  unfold ScatterDims.start
  rw [dif_pos (by decide)]
  congr 2
  funext b
  match b with
  | ⟨0, _⟩ => rfl
  | ⟨1, _⟩ => rfl

/-- That axis is an inserted one: the window coordinate is `0`. -/
theorem sc1_window0 (j : S100000.Idx) : sc1.window j 0 = 0 := by
  unfold ScatterDims.window
  rw [dif_neg (by decide)]

/-- Update element `j` of the ones lands on `k` exactly when row `j`'s label, read signed, is `k`. -/
theorem sc1_result (j : S100000.Idx) (idx : IVec S100000x1 32) (k : Fin 64) :
    sc1.resultIdx? j idx = some (ix1 k) ↔ (idx (ix2 (j 0) 0)).toInt = (k.val : Int) := by
  unfold ScatterDims.resultIdx?
  have hk := k.isLt
  have s0 := sc1_start0 j idx
  have w0 := sc1_window0 j
  split
  · next h =>
    rw [Option.some.injEq]
    constructor
    · intro e
      have e0 : (sc1.start j idx 0 + sc1.window j 0).toNat = k.val := congrArg Fin.val (congrFun e 0)
      have h0 := (h 0).1
      omega
    · intro e0
      funext a
      match a with
      | ⟨0, _⟩ =>
        apply Fin.ext
        show (sc1.start j idx 0 + sc1.window j 0).toNat = k.val
        omega
  · next h =>
    constructor
    · intro e; cases e
    · intro e0
      exfalso; apply h
      intro a
      match a with
      | ⟨0, _⟩ =>
        show 0 ≤ sc1.start j idx 0 + sc1.window j 0 ∧ sc1.start j idx 0 + sc1.window j 0 < ((64 : Nat) : Int)
        omega

/-- The same at explicit coordinates. -/
theorem sc1_result' (r : Fin 100000) (idx : IVec S100000x1 32) (k : Fin 64) :
    sc1.resultIdx? (ix1 r) idx = some (ix1 k) ↔ (idx (ix2 r 0)).toInt = (k.val : Int) :=
  sc1_result (ix1 r) idx k

/-! ## Labels and constants -/

/-- A 32-bit word read as a signed integer is the class number `k < 64` exactly when it is the word of `k`:
    a negative or a large label is no class's number on either reading. -/
theorem toInt_eq_class (l : BitVec 32) (k : Fin 64) : l.toInt = (k.val : Int) ↔ l = BitVec.ofNat 32 k.val := by
  have hk := k.isLt
  have hl := l.isLt
  rw [BitVec.toInt_eq_toNat_cond, ← BitVec.toNat_inj, BitVec.toNat_ofNat]
  split <;> omega

/-- The pattern of `1.0` is the extended real `1`: significand `2^23`, exponent `2^(-23)`. -/
theorem ofBits_one_f32 : Ideal.ofBits .f32 0x3F800000#32 = 1 := by
  simp [Ideal.ofBits, Ideal.ieee]
  rw [← EReal.coe_mul]
  norm_num

/-- An index of a one-axis shape is its coordinate … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The first pair: sums, counts, means, normalised means -/

/-- The label column read at a row is the row's label. -/
theorem v1_at (x2 : (⟨S100000, .i32⟩ : BufTy).Contents (Elt Ideal)) (r : Fin 100000) :
    val_main_v1 (F := Ideal) x2 (ix2 r 0) = x2 (ix1 r) := by
  rw [val_main_v1_apply]
  exact congrArg x2 (funext fun a => by match a with | ⟨0, _⟩ => rfl)

/-- The accumulating scatter of the rows is the class sums: the updates that land on `(k, d)` are the entries in
    column `d` of the rows whose label is the word of `k`. -/
theorem v2_at (x0 : (⟨S100000x256, .f32⟩ : BufTy).Contents (Elt Ideal)) (x2 : (⟨S100000, .i32⟩ : BufTy).Contents (Elt Ideal))
    (k : Fin 64) (d : Fin 256) :
    val_main_v2 (F := Ideal) x0 x2 (ix2 k d) = segSum x0 x2 (ix2 k d) := by
  unfold val_main_v2 Host.scatterAdd
  rw [Ideal.hostScatterAdd_def]
  unfold Ideal.hostScatterAdd
  rw [val_main_v0_apply, val_main_cst_apply, Ideal.ofBits_def, Ideal.ofBits_zero_f32, zero_add]
  rw [Finset.sum_filter, sum_idx2]
  show _ = ∑ r : Fin 100000, oneHot (x2 (ix1 r)) k * x0 (ix2 r d)
  refine Finset.sum_congr rfl fun r _ => ?_
  simp only [sc2_result', v1_at, toInt_eq_class, ite_and, Finset.sum_ite_eq', Finset.mem_univ, if_true]
  unfold oneHot
  rw [ite_mul, one_mul, zero_mul]

/-- The label column of the scatter of ones, read at a row, is the row's label. -/
theorem v5_at (x2 : (⟨S100000, .i32⟩ : BufTy).Contents (Elt Ideal)) (r : Fin 100000) :
    val_main_v5 (F := Ideal) x2 (ix2 r 0) = x2 (ix1 r) := by
  rw [val_main_v5_apply]
  exact congrArg x2 (funext fun a => by match a with | ⟨0, _⟩ => rfl)

/-- The accumulating scatter of ones is the class counts. -/
theorem v6_at (x2 : (⟨S100000, .i32⟩ : BufTy).Contents (Elt Ideal)) (k : Fin 64) :
    val_main_v6 (F := Ideal) x2 (ix1 k) = segCnt x2 k := by
  unfold val_main_v6 Host.scatterAdd
  rw [Ideal.hostScatterAdd_def]
  unfold Ideal.hostScatterAdd
  rw [val_main_v4_apply, val_main_cst_1_apply, Ideal.ofBits_def, Ideal.ofBits_zero_f32, zero_add]
  rw [Finset.sum_filter, sum_idx1]
  unfold segCnt
  refine Finset.sum_congr rfl fun r _ => ?_
  simp only [sc1_result', v5_at, toInt_eq_class, val_main_v3_apply, val_main_cst_0_apply, Ideal.ofBits_def, ofBits_one_f32]
  rfl

/-- The first class means: the scatter of the rows over the scatter of ones. -/
theorem protoA (x0 : (⟨S100000x256, .f32⟩ : BufTy).Contents (Elt Ideal)) (x2 : (⟨S100000, .i32⟩ : BufTy).Contents (Elt Ideal)) :
    (val_main_v9 (F := Ideal) x0 x2 : Mat) = proto x0 x2 := by
  funext j
  obtain ⟨k, d, rfl⟩ : ∃ k d, j = ix2 k d := ⟨j 0, j 1, eq_ix2 j⟩
  rw [val_main_v9_apply, val_main_v8_apply, val_main_v7_apply, Ideal.hostDivf_def, v2_at]
  have hi : idx_main_v7 (idx_main_v8 (ix2 k d)) = ix1 k := funext fun a => by match a with | ⟨0, _⟩ => rfl
  rw [hi, v6_at]
  rfl

/-- The first normalised means: each row over the larger of its norm and the tiny constant. -/
theorem normA (x0 : (⟨S100000x256, .f32⟩ : BufTy).Contents (Elt Ideal)) (x2 : (⟨S100000, .i32⟩ : BufTy).Contents (Elt Ideal)) :
    (val_main_v17 (F := Ideal) x0 x2 : Mat) = l2n (val_main_v9 (F := Ideal) x0 x2) := by
  funext j
  obtain ⟨k, d, rfl⟩ : ∃ k d, j = ix2 k d := ⟨j 0, j 1, eq_ix2 j⟩
  have hi : ∀ k' : Fin 256, idx_main_v11 (idx_main_v12 (idx_main_v16 (ix2 k d))) k' = ix2 k k' := fun k' =>
    funext fun a => by match a with | ⟨0, _⟩ => rfl | ⟨1, _⟩ => rfl
  rw [val_main_v17_apply, val_main_v16_apply, val_main_v15_apply, val_main_v13_apply, val_main_v12_apply,
    val_main_v11_apply, val_main_v14_apply, val_main_cst_3_apply, val_main_cst_2_apply]
  simp only [val_main_v10_apply, hi, Ideal.hostDivf_def, Ideal.hostUnary_sqrt_def, Ideal.maximumf_def, Ideal.mulf_def,
    Ideal.ofBits_def, Ideal.ofBits_zero_f32, zero_add]
  rfl

/-! ## The second pair: sums, counts, means, normalised means -/

/-- The label column read at a row is the row's label. -/
theorem v19_at (x3 : (⟨S100000, .i32⟩ : BufTy).Contents (Elt Ideal)) (r : Fin 100000) :
    val_main_v19 (F := Ideal) x3 (ix2 r 0) = x3 (ix1 r) := by
  rw [val_main_v19_apply]
  exact congrArg x3 (funext fun a => by match a with | ⟨0, _⟩ => rfl)

/-- The accumulating scatter of the rows is the class sums: the updates that land on `(k, d)` are the entries in
    column `d` of the rows whose label is the word of `k`. -/
theorem v20_at (x1 : (⟨S100000x256, .f32⟩ : BufTy).Contents (Elt Ideal)) (x3 : (⟨S100000, .i32⟩ : BufTy).Contents (Elt Ideal))
    (k : Fin 64) (d : Fin 256) :
    val_main_v20 (F := Ideal) x1 x3 (ix2 k d) = segSum x1 x3 (ix2 k d) := by
  unfold val_main_v20 Host.scatterAdd
  rw [Ideal.hostScatterAdd_def]
  unfold Ideal.hostScatterAdd
  rw [val_main_v18_apply, val_main_cst_4_apply, Ideal.ofBits_def, Ideal.ofBits_zero_f32, zero_add]
  rw [Finset.sum_filter, sum_idx2]
  show _ = ∑ r : Fin 100000, oneHot (x3 (ix1 r)) k * x1 (ix2 r d)
  refine Finset.sum_congr rfl fun r _ => ?_
  simp only [sc2_result', v19_at, toInt_eq_class, ite_and, Finset.sum_ite_eq', Finset.mem_univ, if_true]
  unfold oneHot
  rw [ite_mul, one_mul, zero_mul]

/-- The label column of the scatter of ones, read at a row, is the row's label. -/
theorem v23_at (x3 : (⟨S100000, .i32⟩ : BufTy).Contents (Elt Ideal)) (r : Fin 100000) :
    val_main_v23 (F := Ideal) x3 (ix2 r 0) = x3 (ix1 r) := by
  rw [val_main_v23_apply]
  exact congrArg x3 (funext fun a => by match a with | ⟨0, _⟩ => rfl)

/-- The accumulating scatter of ones is the class counts. -/
theorem v24_at (x3 : (⟨S100000, .i32⟩ : BufTy).Contents (Elt Ideal)) (k : Fin 64) :
    val_main_v24 (F := Ideal) x3 (ix1 k) = segCnt x3 k := by
  unfold val_main_v24 Host.scatterAdd
  rw [Ideal.hostScatterAdd_def]
  unfold Ideal.hostScatterAdd
  rw [val_main_v22_apply, val_main_cst_6_apply, Ideal.ofBits_def, Ideal.ofBits_zero_f32, zero_add]
  rw [Finset.sum_filter, sum_idx1]
  unfold segCnt
  refine Finset.sum_congr rfl fun r _ => ?_
  simp only [sc1_result', v23_at, toInt_eq_class, val_main_v21_apply, val_main_cst_5_apply, Ideal.ofBits_def, ofBits_one_f32]
  rfl

/-- The second class means: the scatter of the rows over the scatter of ones. -/
theorem protoR (x1 : (⟨S100000x256, .f32⟩ : BufTy).Contents (Elt Ideal)) (x3 : (⟨S100000, .i32⟩ : BufTy).Contents (Elt Ideal)) :
    (val_main_v27 (F := Ideal) x1 x3 : Mat) = proto x1 x3 := by
  funext j
  obtain ⟨k, d, rfl⟩ : ∃ k d, j = ix2 k d := ⟨j 0, j 1, eq_ix2 j⟩
  rw [val_main_v27_apply, val_main_v26_apply, val_main_v25_apply, Ideal.hostDivf_def, v20_at]
  have hi : idx_main_v25 (idx_main_v26 (ix2 k d)) = ix1 k := funext fun a => by match a with | ⟨0, _⟩ => rfl
  rw [hi, v24_at]
  rfl

/-- The second normalised means: each row over the larger of its norm and the tiny constant. -/
theorem normR (x1 : (⟨S100000x256, .f32⟩ : BufTy).Contents (Elt Ideal)) (x3 : (⟨S100000, .i32⟩ : BufTy).Contents (Elt Ideal)) :
    (val_main_v35 (F := Ideal) x1 x3 : Mat) = l2n (val_main_v27 (F := Ideal) x1 x3) := by
  funext j
  obtain ⟨k, d, rfl⟩ : ∃ k d, j = ix2 k d := ⟨j 0, j 1, eq_ix2 j⟩
  have hi : ∀ k' : Fin 256, idx_main_v29 (idx_main_v30 (idx_main_v34 (ix2 k d))) k' = ix2 k k' := fun k' =>
    funext fun a => by match a with | ⟨0, _⟩ => rfl | ⟨1, _⟩ => rfl
  rw [val_main_v35_apply, val_main_v34_apply, val_main_v33_apply, val_main_v31_apply, val_main_v30_apply,
    val_main_v29_apply, val_main_v32_apply, val_main_cst_8_apply, val_main_cst_7_apply]
  simp only [val_main_v28_apply, hi, Ideal.hostDivf_def, Ideal.hostUnary_sqrt_def, Ideal.maximumf_def, Ideal.mulf_def,
    Ideal.ofBits_def, Ideal.ofBits_zero_f32, zero_add]
  rfl

end Cert.ReferenceIdeal.RefHead

end
-- ==== Proof.RefTail.lean ====
/-
  The reference's second half: from the two normalised matrices to the scalar result, one operation at a time, is the loss.

  With A, R the two normalised 64 × 256 matrices, the operations compute, index by index:
    * exp (A k d · R k d / ½)                                  (`pos`),
    * exp (A k d · A j d / ½) and exp (A k d · R j d / ½)       (`pair`), on the 64 × 64 × 256 cube,
    * 1 - [k = j] as a number                                   (`offDiag`), the same along the third axis,
    * the sum over j of (pair A A + pair A R) · offDiag, plus 126 · pos   (`neg`),
    * -log (pos / (neg + ε))                                    (`term`),
    * the sum over d of term, divided by 256, and the sum over k of these  (`loss`).
  Each sum starts from the zero word, which is the extended real zero.
-/
import proofs.«415252_j44135083934242_3_alg».proof.Proof.Spec
import proofs.«415252_j44135083934242_3_alg».proof.Proof.Gen.ReferenceIdeal.Read
import Idealize.ShloMosaic.Lib.Pipeline.Value
import Idealize.ShloMosaic.Lib.ValueLayout
import Idealize.ShloMosaic.Lib.IdealHost
import Idealize.ShloMosaic.Lib.ValueIdxRank1
import Idealize.ShloMosaic.PureOps.Ideal.Laws

noncomputable section

open Idealize.ShloMosaic Idealize.ShloMosaic.TcCoe Idealize.SL.Sem Idealize.ShloMosaic.ValueIdx

namespace Cert.ReferenceIdeal.RefTail

open Cert.ReferenceIdeal Cert.ReferenceIdeal.Read Cert.Spec

/-! ## The mask: one off the diagonal, zero on it -/

/-- For class numbers below 64 the 32-bit words of `k + 0` and `j` are equal exactly when `k = j`. -/
theorem cmp_word (k j : Fin 64) :
    IntOp.cmpi .eq (IntOp.addi (BitVec.ofNat 32 k.val) 0#32) (BitVec.ofNat 32 j.val) = if k = j then 1#1 else 0#1 := by
  have hk := k.isLt; have hj := j.isLt
  have h0 : IntOp.addi (BitVec.ofNat 32 k.val) 0#32 = BitVec.ofNat 32 k.val := by simp [IntOp.addi]
  rw [h0]
  by_cases h : k = j
  · subst h; rw [if_pos rfl]; simp [IntOp.cmpi]
  · rw [if_neg h]
    have hne : ¬ (BitVec.ofNat 32 k.val = BitVec.ofNat 32 j.val) := by
      intro e; apply h; apply Fin.ext
      have := congrArg BitVec.toNat e
      simp [BitVec.toNat_ofNat] at this; omega
    have hb : (BitVec.ofNat 32 k.val == BitVec.ofNat 32 j.val) = false := beq_eq_false_iff_ne.mpr hne
    unfold IntOp.cmpi
    show BitVec.ofBool (BitVec.ofNat 32 k.val == BitVec.ofNat 32 j.val) = 0#1
    rw [hb]; rfl

/-- The one-bit word 1, read as an unsigned number, is the extended real one. -/
theorem uitofp_one : FloatOps.uitofp (F := Ideal) .f32 (1#1 : BitVec 1) = 1 := by
  show (((1#1 : BitVec 1).toNat : ℝ) : EReal) = 1
  simp
/-- The one-bit word 0, read as an unsigned number, is the extended real zero. -/
theorem uitofp_zero : FloatOps.uitofp (F := Ideal) .f32 (0#1 : BitVec 1) = 0 := by
  show (((0#1 : BitVec 1).toNat : ℝ) : EReal) = 0
  simp

/-- One minus the indicator of the diagonal: `1 - 1 = 0` on it, `1 - 0 = 1` off it. -/
theorem mask_eq (k j : Fin 64) : val_main_v63 (F := Ideal) (ix2 k j) = offDiag k j := by
  rw [val_main_v63_apply, val_main_v62_apply, val_main_cst_12_apply, val_main_v61_apply, val_main_v60_apply,
    val_main_v59_apply, val_main_v56_apply, val_main_v57_apply, val_main_v58_apply, val_main_c_apply]
  show FloatOps.subf (F := Ideal) (FloatOps.ofBits FTy.f32 0x3F800000#32)
      (FloatOps.uitofp FTy.f32
        (IntOp.cmpi CmpIPredicate.eq (IntOp.addi (BitVec.ofNat 32 k.val) 0#32) (BitVec.ofNat 32 j.val))) = offDiag k j
  rw [cmp_word, Ideal.subf_def, Ideal.ofBits_def, Ideal.ofBits_one_f32]
  unfold offDiag
  by_cases h : k = j
  · rw [if_pos h, if_pos h, uitofp_one]
    show ((1 : ℝ) : EReal) - ((1 : ℝ) : EReal) = ((0 : ℝ) : EReal)
    rw [← EReal.coe_sub, sub_self]
  · rw [if_neg h, if_neg h, uitofp_zero, sub_zero]

/-! ## Where each broadcast reads: the cube's index (k, j, d) reads row k or row j at column d, and the mask at (k, j) -/

theorem idx_mask (k j : Fin 64) (d : Fin 256) : idx_main_v64 (idx_main_v66 (ix3 k j d)) = ix2 k j :=
  funext fun a => Fin.ext (by match a with | ⟨0, _⟩ => rfl | ⟨1, _⟩ => rfl)
theorem idx_rowAA (k j : Fin 64) (d : Fin 256) : idx_main_v40 (idx_main_v42 (ix3 k j d)) = ix2 k d :=
  funext fun a => Fin.ext (by match a with | ⟨0, _⟩ => rfl | ⟨1, _⟩ => rfl)
theorem idx_colAA (k j : Fin 64) (d : Fin 256) : idx_main_v41 (idx_main_v43 (ix3 k j d)) = ix2 j d :=
  funext fun a => Fin.ext (by match a with | ⟨0, _⟩ => rfl | ⟨1, _⟩ => rfl)
theorem idx_rowAR (k j : Fin 64) (d : Fin 256) : idx_main_v48 (idx_main_v50 (ix3 k j d)) = ix2 k d :=
  funext fun a => Fin.ext (by match a with | ⟨0, _⟩ => rfl | ⟨1, _⟩ => rfl)
theorem idx_colAR (k j : Fin 64) (d : Fin 256) : idx_main_v49 (idx_main_v51 (ix3 k j d)) = ix2 j d :=
  funext fun a => Fin.ext (by match a with | ⟨0, _⟩ => rfl | ⟨1, _⟩ => rfl)
/-- The sum over the cube's middle axis at (k, d) runs over the indices (k, j, d). -/
theorem idx_negsum (k j : Fin 64) (d : Fin 256) : idx_main_v68 (ix2 k d) j = ix3 k j d :=
  funext fun a => Fin.ext (by match a with | ⟨0, _⟩ => rfl | ⟨1, _⟩ => rfl | ⟨2, _⟩ => rfl)
/-- The sum over a row at k runs over the indices (k, d). -/
theorem idx_rowsum (k : Fin 64) (d : Fin 256) : idx_main_v77 (ix1 k) d = ix2 k d :=
  funext fun a => Fin.ext (by match a with | ⟨0, _⟩ => rfl | ⟨1, _⟩ => rfl)

/-- The mask carried along the third axis. -/
theorem mask3_eq (k j : Fin 64) (d : Fin 256) : val_main_v66 (F := Ideal) (ix3 k j d) = offDiag k j := by
  rw [val_main_v66_apply, val_main_v64_apply, idx_mask]
  exact mask_eq k j

/-! ## The named quantities, one at a time -/

section
variable (x0 x1 : (⟨S100000x256, .f32⟩ : BufTy).Contents (Elt Ideal)) (x2 x3 : (⟨S100000, .i32⟩ : BufTy).Contents (Elt Ideal))

/-- exp (A k d · R k d / ½). -/
theorem pos_eq (k : Fin 64) (d : Fin 256) :
    val_main_v39 (F := Ideal) x0 x1 x2 x3 (ix2 k d)
      = pos (val_main_v17 (F := Ideal) x0 x2) (val_main_v35 (F := Ideal) x1 x3) k d := by
  rw [val_main_v39_apply, val_main_v38_apply, val_main_v36_apply, val_main_v37_apply, val_main_cst_9_apply]
  simp only [Ideal.hostUnary_exp_def, Ideal.hostDivf_def, Ideal.mulf_def, Ideal.ofBits_def]
  rfl

/-- exp (A k d · A j d / ½). -/
theorem pairAA_eq (k j : Fin 64) (d : Fin 256) :
    val_main_v47 (F := Ideal) x0 x2 (ix3 k j d)
      = pair (val_main_v17 (F := Ideal) x0 x2) (val_main_v17 (F := Ideal) x0 x2) k j d := by
  rw [val_main_v47_apply, val_main_v46_apply, val_main_v44_apply, val_main_v42_apply, val_main_v43_apply,
    val_main_v40_apply, val_main_v41_apply, val_main_v45_apply, val_main_cst_10_apply, idx_rowAA, idx_colAA]
  simp only [Ideal.hostUnary_exp_def, Ideal.hostDivf_def, Ideal.mulf_def, Ideal.ofBits_def]
  rfl

/-- exp (A k d · R j d / ½). -/
theorem pairAR_eq (k j : Fin 64) (d : Fin 256) :
    val_main_v55 (F := Ideal) x0 x1 x2 x3 (ix3 k j d)
      = pair (val_main_v17 (F := Ideal) x0 x2) (val_main_v35 (F := Ideal) x1 x3) k j d := by
  rw [val_main_v55_apply, val_main_v54_apply, val_main_v52_apply, val_main_v50_apply, val_main_v51_apply,
    val_main_v48_apply, val_main_v49_apply, val_main_v53_apply, val_main_cst_11_apply, idx_rowAR, idx_colAR]
  simp only [Ideal.hostUnary_exp_def, Ideal.hostDivf_def, Ideal.mulf_def, Ideal.ofBits_def]
  rfl

/-- The masked sum over the other classes, plus 126 times the positive term. -/
theorem neg_eq (k : Fin 64) (d : Fin 256) :
    val_main_v71 (F := Ideal) x0 x1 x2 x3 (ix2 k d)
      = neg (val_main_v17 (F := Ideal) x0 x2) (val_main_v35 (F := Ideal) x1 x3) k d := by
  rw [val_main_v71_apply, val_main_v68_apply, val_main_v70_apply, val_main_v69_apply, val_main_cst_14_apply,
    val_main_cst_13_apply, pos_eq]
  simp only [Ideal.addf_def, Ideal.mulf_def, Ideal.ofBits_def, Ideal.ofBits_zero_f32, zero_add]
  unfold neg c126
  refine congrArg (· + _) (Finset.sum_congr rfl fun j _ => ?_)
  rw [idx_negsum, val_main_v67_apply, val_main_v65_apply, pairAA_eq, pairAR_eq, mask3_eq]
  rfl

/-- -log (pos / (neg + ε)). -/
theorem term_eq (k : Fin 64) (d : Fin 256) :
    val_main_v76 (F := Ideal) x0 x1 x2 x3 (ix2 k d)
      = term (val_main_v17 (F := Ideal) x0 x2) (val_main_v35 (F := Ideal) x1 x3) k d := by
  rw [val_main_v76_apply, val_main_v75_apply, val_main_v74_apply, val_main_v73_apply, val_main_v72_apply,
    val_main_cst_15_apply, pos_eq, neg_eq]
  simp only [Ideal.hostNegf_def, Ideal.negf_def, Ideal.hostUnary_log_def, Ideal.hostDivf_def, Ideal.addf_def,
    Ideal.ofBits_def]
  rfl

/-- A class's terms summed over the 256 columns, divided by 256. -/
theorem row_eq (k : Fin 64) :
    val_main_v79 (F := Ideal) x0 x1 x2 x3 (ix1 k)
      = Ideal.div (∑ d : Fin 256, term (val_main_v17 (F := Ideal) x0 x2) (val_main_v35 (F := Ideal) x1 x3) k d) c256 := by
  rw [val_main_v79_apply, val_main_v77_apply, val_main_v78_apply, val_main_cst_17_apply, val_main_cst_16_apply]
  simp only [Ideal.hostDivf_def, Ideal.ofBits_def, Ideal.ofBits_zero_f32, zero_add]
  unfold c256
  refine congrArg (Ideal.div · _) (Finset.sum_congr rfl fun d _ => ?_)
  rw [idx_rowsum, term_eq]

end

/-- The reference's result is the loss of its two normalised matrices. -/
theorem result_eq (x0 x1 : (⟨S100000x256, .f32⟩ : BufTy).Contents (Elt Ideal)) (x2 x3 : (⟨S100000, .i32⟩ : BufTy).Contents (Elt Ideal)) :
    val_main_v80 (F := Ideal) x0 x1 x2 x3 ix0 = loss (val_main_v17 (F := Ideal) x0 x2) (val_main_v35 (F := Ideal) x1 x3) := by
  rw [val_main_v80_apply, val_main_cst_18_apply]
  simp only [Ideal.ofBits_def, Ideal.ofBits_zero_f32, zero_add]
  unfold loss
  rw [← Equiv.sum_comp (idxEquiv1 (n := 64)).symm]
  exact Finset.sum_congr rfl fun k _ => row_eq x0 x1 x2 x3 k

end Cert.ReferenceIdeal.RefTail

end
-- ==== Proof.RefSide.lean ====
/-
  The reference's side, assembled. The generated run gives the reference's result at the composed term of its host
  operations, which the generated read module names stage by stage; the first half of the stages is the normalised class
  means of the arguments and the second half the loss of two such matrices. So the reference's result is the loss of the
  normalised class means of its arguments.
-/
import proofs.«415252_j44135083934242_3_alg».proof.Defs
import proofs.«415252_j44135083934242_3_alg».proof.Proof.Gen.ReferenceIdeal.Run
import proofs.«415252_j44135083934242_3_alg».proof.Proof.Gen.ReferenceIdeal.Read
import proofs.«415252_j44135083934242_3_alg».proof.Proof.RefHead
import proofs.«415252_j44135083934242_3_alg».proof.Proof.RefTail

noncomputable section

open Idealize.ShloMosaic Idealize.ShloMosaic.TcCoe Idealize.SL.Sem Idealize.ShloMosaic.ValueIdx

namespace Cert.ReferenceIdeal.RefValue

open Cert.ReferenceIdeal Cert.ReferenceIdeal.Read Cert.Spec

/-- The reference's result: the loss of the normalised class means of its arguments. -/
theorem result_eq (m : (ℓ : Loc nD τ sig) → Buf (Elt Ideal) ℓ) (c : Dev nD) :
    Cert.ReferenceIdeal.Value.res_main_v80 (F := Ideal) m c ix0
      = loss (l2n (proto (m ((c.tc : Thread nD τ).loc main_arg0)) (m ((c.tc : Thread nD τ).loc main_arg2))))
          (l2n (proto (m ((c.tc : Thread nD τ).loc main_arg1)) (m ((c.tc : Thread nD τ).loc main_arg3)))) := by
  rw [val_main_v80_eq, RefTail.result_eq, RefHead.normA, RefHead.normR, RefHead.protoA, RefHead.protoR]

end Cert.ReferenceIdeal.RefValue

end
-- ==== Proof.lean ====
/-
  The claim, assembled. Both programs compute, from two feature matrices and two label vectors, the per-class means of
  the rows (a class's rows being those whose label is the class's number), normalise each mean to unit length, and take a
  contrastive loss of the two normalised matrices. The kernel gets the class sums and counts by multiplying transposed
  one-hot matrices with the rows tile by tile on a grid and the loss tile by tile on a second grid; the reference by two
  accumulating scatters and whole-array operations. Over the extended reals the two results are one number: a one-hot
  product sum is the sum over the rows of the class (zero times anything is zero), a sum may be taken in any grouping and
  order, dividing by a nonzero real is multiplying by its reciprocal, and zero minus x is minus x. No law used needs the
  inputs to be finite.
    * The frames of the kernel and of its idealization are the generated ones; the reference's is its generated run with
      the result dropped. No operation was rewritten by the idealization, so there is nothing to preserve.
    * The algebraic claim: the kernel's run leaves its result at the value the host stretches and the two regions compute
      (Proof/KernelRun.lean, Proof/KernelValue.lean over Proof/ProtoRegion.lean and Proof/TailRegion.lean), the
      reference's at its composed term (Proof/RefSide.lean over Proof/RefHead.lean and Proof/RefTail.lean); both are the
      loss of the normalised class means of the arguments (Proof/Spec.lean).
-/
import proofs.«415252_j44135083934242_3_alg».proof.Defs
import proofs.«415252_j44135083934242_3_alg».proof.Proof.Gen.Kernel
import proofs.«415252_j44135083934242_3_alg».proof.Proof.Gen.Kernel.Skeleton
import proofs.«415252_j44135083934242_3_alg».proof.Proof.Gen.Kernel.Launch
import proofs.«415252_j44135083934242_3_alg».proof.Proof.Gen.Kernel.Points
import proofs.«415252_j44135083934242_3_alg».proof.Proof.Gen.Kernel.Frame
import proofs.«415252_j44135083934242_3_alg».proof.Proof.Gen.KernelIdeal
import proofs.«415252_j44135083934242_3_alg».proof.Proof.Gen.KernelIdeal.Skeleton
import proofs.«415252_j44135083934242_3_alg».proof.Proof.Gen.KernelIdeal.Launch
import proofs.«415252_j44135083934242_3_alg».proof.Proof.Gen.KernelIdeal.Points
import proofs.«415252_j44135083934242_3_alg».proof.Proof.Gen.KernelIdeal.Frame
import proofs.«415252_j44135083934242_3_alg».proof.Proof.Gen.ReferenceIdeal
import proofs.«415252_j44135083934242_3_alg».proof.Proof.Gen.Pre_finite_inputs
import proofs.«415252_j44135083934242_3_alg».proof.Proof.KernelRun
import proofs.«415252_j44135083934242_3_alg».proof.Proof.KernelValue
import proofs.«415252_j44135083934242_3_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both runs end, the kernel's result and the reference's at the loss of the
    normalised class means of the same arguments. -/
theorem algebraic : Cert.algebraic_KernelIdeal_ReferenceIdeal := by
  intro m ρ m' ρ' _ hagree
  refine ⟨fun c => Cert.KernelIdeal.Gen.W5 m ρ c (Proc.devRef .tc Cert.KernelIdeal.main_v32),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  obtain rfl : i = ix0 := eq_ix0 i
  rw [Cert.ReferenceIdeal.RefValue.result_eq, (hagree c).1, (hagree c).2.1, (hagree c).2.2.1, (hagree c).2.2.2]
  exact (Cert.KernelIdeal.KValue.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
